-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024 : Shape := ⟨2, ![128, 1024]⟩
abbrev S1024x4096 : Shape := ⟨2, ![1024, 4096]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_

variable [Facts]

def fn {F : FTy → Type} [FloatOps F] (main_arg0 : FVec F S128x1024 .f32) (main_arg1 : FVec F S1024x4096 .f32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  main_v8
-- ==== Kernel.lean ====
abbrev S128x1024 : Shape := ⟨2, ![128, 1024]⟩
abbrev S1024x4096 : Shape := ⟨2, ![1024, 4096]⟩
abbrev S1024x128x32 : Shape := ⟨3, ![1024, 128, 32]⟩
abbrev S1024x32x128 : Shape := ⟨3, ![1024, 32, 128]⟩
abbrev S128x4096 : Shape := ⟨2, ![128, 4096]⟩
abbrev S1024x1024 : Shape := ⟨2, ![1024, 1024]⟩
abbrev S128x32x128 : Shape := ⟨3, ![128, 32, 128]⟩
abbrev S128x128 : Shape := ⟨2, ![128, 128]⟩
abbrev S16x32x128 : Shape := ⟨3, ![16, 32, 128]⟩
abbrev S32x32x128 : Shape := ⟨3, ![32, 32, 128]⟩
abbrev S16x128 : Shape := ⟨2, ![16, 128]⟩
abbrev S16x1x32x128 : Shape := ⟨4, ![16, 1, 32, 128]⟩
abbrev S1x32x32x128 : Shape := ⟨4, ![1, 32, 32, 128]⟩
abbrev S16x32x32x128 : Shape := ⟨4, ![16, 32, 32, 128]⟩
abbrev S128x1152 : Shape := ⟨2, ![128, 1152]⟩

abbrev nBuf : Space → Nat
  | .hbm => 9
  | .vmem => 12
  | .smem => 0
  | _ => 0

abbrev bufTy : (tb : Table) → Fin (tcTables nBuf tb) → BufTy
  | .hbm, ⟨0, _⟩ => ⟨S128x1024, .f32⟩
  | .hbm, ⟨1, _⟩ => ⟨S1024x4096, .f32⟩
  | .hbm, ⟨2, _⟩ => ⟨S1024x128x32, .f32⟩
  | .hbm, ⟨3, _⟩ => ⟨S1024x32x128, .f32⟩
  | .hbm, ⟨4, _⟩ => ⟨S1024x4096, .f32⟩
  | .hbm, ⟨5, _⟩ => ⟨S128x4096, .f32⟩
  | .hbm, ⟨6, _⟩ => ⟨S128x32x128, .f32⟩
  | .hbm, ⟨7, _⟩ => ⟨S128x128, .f32⟩
  | .hbm, ⟨8, _⟩ => ⟨S128x1152, .f32⟩
  | .local _ .vmem, ⟨0, _⟩ => ⟨S128x1024, .f32⟩
  | .local _ .vmem, ⟨1, _⟩ => ⟨S1024x1024, .f32⟩
  | .local _ .vmem, ⟨2, _⟩ => ⟨S1024x1024, .f32⟩
  | .local _ .vmem, ⟨3, _⟩ => ⟨S128x1024, .f32⟩
  | .local _ .vmem, ⟨4, _⟩ => ⟨S128x1024, .f32⟩
  | .local _ .vmem, ⟨5, _⟩ => ⟨S16x32x128, .f32⟩
  | .local _ .vmem, ⟨6, _⟩ => ⟨S16x32x128, .f32⟩
  | .local _ .vmem, ⟨7, _⟩ => ⟨S32x32x128, .f32⟩
  | .local _ .vmem, ⟨8, _⟩ => ⟨S32x32x128, .f32⟩
  | .local _ .vmem, ⟨9, _⟩ => ⟨S16x128, .f32⟩
  | .local _ .vmem, ⟨10, _⟩ => ⟨S16x128, .f32⟩
  | .local _ .vmem, ⟨11, _⟩ => ⟨S16x128, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v23 : BitVec 1 := Scalar.cmpi .eq arg1 c3_i32
  let v24 : BitVec 32 := Scalar.extui v23
  let c0_i32_12 : BitVec 32 := 0#32
  let v25 : BitVec 1 := Scalar.cmpi .ne v24 c0_i32_12
  v25

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S16x32x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S32x32x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S16x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S1024x4096_S1024x128x32 : S1024x4096.ShapeCasts S1024x128x32
  transposes_S1024x128x32_S1024x32x128_0_2_1 : S1024x128x32.Transposes [0, 2, 1] S1024x32x128
  shapeCasts_S1024x32x128_S1024x4096 : S1024x32x128.ShapeCasts S1024x4096
  inb_S128x1024_S128x1024_0_0 : ∀ a, (![0, 0] : Fin 2 → Nat) a + S128x1024.size a ≤ S128x1024.size a
  h_S128x1024 : 0 < S128x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S128x4096_S128x32x128 : S128x4096.ShapeCasts S128x32x128
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S16x32x128_S16x32x128_0_0_0 : ∀ a, (![0, 0, 0] : Fin 3 → Nat) a + S16x32x128.size a ≤ S16x32x128.size a
  h_S16x32x128 : 0 < S16x32x128.numel
  shapeCasts_S16x32x128_S16x32x128 : S16x32x128.ShapeCasts S16x32x128
  inb_S32x32x128_S32x32x128_0_0_0 : ∀ a, (![0, 0, 0] : Fin 3 → Nat) a + S32x32x128.size a ≤ S32x32x128.size a
  h_S32x32x128 : 0 < S32x32x128.numel
  shapeCasts_S32x32x128_S32x32x128 : S32x32x128.ShapeCasts S32x32x128
  shapeCasts_S16x32x128_S16x1x32x128 : S16x32x128.ShapeCasts S16x1x32x128
  shapeCasts_S32x32x128_S1x32x32x128 : S32x32x128.ShapeCasts S1x32x32x128
  broadcasts_S16x1x32x128_S16x32x32x128 : S16x1x32x128.Broadcasts S16x32x32x128
  broadcasts_S1x32x32x128_S16x32x32x128 : S1x32x32x128.Broadcasts S16x32x32x128
  reduces_S16x32x32x128_S16x32x128 : S16x32x32x128.Reduces [2] S16x32x128
  reduces_S16x32x128_S16x128 : S16x32x128.Reduces [1] S16x128
  concatenates_S128x1024_S128x128_S128x1152_d1 : Shape.Concatenates [S128x1024, S128x128] S128x1152 1
  dot_S128x1024_S1024x1024_S128x1024_1_0_0_1_n_n_wf : DotDims.WF S128x1024 S1024x1024 S128x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S128x1024.size a
  hwx0_0 : ∀ i : grid0.Coords, EltTy.bits .f32 = 32 ∨ (Rect.block (s := S128x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x4096.size a
  hwx0_1 : ∀ i : grid0.Coords, EltTy.bits .f32 = 32 ∨ (Rect.block (s := S1024x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S128x4096.size a
  hwx0_2 : ∀ i : grid0.Coords, EltTy.bits .f32 = 32 ∨ (Rect.block (s := S128x4096) S128x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x32x128.size a ≤ S128x32x128.size a
  hwx1_0 : ∀ i : grid1.Coords, EltTy.bits .f32 = 32 ∨ (Rect.block (s := S128x32x128) S16x32x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x32x128.size a ≤ S128x32x128.size a
  hwx1_1 : ∀ i : grid1.Coords, EltTy.bits .f32 = 32 ∨ (Rect.block (s := S128x32x128) S32x32x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x128.size a ≤ S128x128.size a
  hwx1_2 : ∀ i : grid1.Coords, EltTy.bits .f32 = 32 ∨ (Rect.block (s := S128x128) S16x128.size (cc1_transform_2 i) (hinb1_2 i)).WholeWords (EltTy.packing .f32)

variable [Facts₀]

def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

abbrev win0_0 : Pipeline.Window sig grid0 :=
  Pipeline.Window.ofSpec (Memref.whole main_arg0) S128x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S16x32x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S32x32x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S16x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S128x1024 : Shape := ⟨2, ![128, 1024]⟩
abbrev S1024x4096 : Shape := ⟨2, ![1024, 4096]⟩
abbrev S128x4096 : Shape := ⟨2, ![128, 4096]⟩
abbrev S128x128x32 : Shape := ⟨3, ![128, 128, 32]⟩
abbrev S128x1x128x32 : Shape := ⟨4, ![128, 1, 128, 32]⟩
abbrev S1x128x128x32 : Shape := ⟨4, ![1, 128, 128, 32]⟩
abbrev S128x128x128x32 : Shape := ⟨4, ![128, 128, 128, 32]⟩
abbrev S_ : Shape := ⟨0, ![]⟩
abbrev S128x128x128 : Shape := ⟨3, ![128, 128, 128]⟩
abbrev S128x128 : Shape := ⟨2, ![128, 128]⟩
abbrev S128x1152 : Shape := ⟨2, ![128, 1152]⟩

abbrev nBuf : Space → Nat
  | .hbm => 20
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024x4096, .f32⟩
  | .hbm, ⟨2, _⟩ => ⟨S128x4096, .f32⟩
  | .hbm, ⟨3, _⟩ => ⟨S128x128x32, .f32⟩
  | .hbm, ⟨4, _⟩ => ⟨S128x1x128x32, .f32⟩
  | .hbm, ⟨5, _⟩ => ⟨S1x128x128x32, .f32⟩
  | .hbm, ⟨6, _⟩ => ⟨S128x128x128x32, .f32⟩
  | .hbm, ⟨7, _⟩ => ⟨S128x128x128x32, .f32⟩
  | .hbm, ⟨8, _⟩ => ⟨S128x128x128x32, .f32⟩
  | .hbm, ⟨9, _⟩ => ⟨S128x128x128x32, .f32⟩
  | .hbm, ⟨10, _⟩ => ⟨S_, .f32⟩
  | .hbm, ⟨11, _⟩ => ⟨S128x128x128, .f32⟩
  | .hbm, ⟨12, _⟩ => ⟨S128x128x128, .f32⟩
  | .hbm, ⟨13, _⟩ => ⟨S128x128x128, .f32⟩
  | .hbm, ⟨14, _⟩ => ⟨S_, .f32⟩
  | .hbm, ⟨15, _⟩ => ⟨S128x128, .f32⟩
  | .hbm, ⟨16, _⟩ => ⟨S_, .f32⟩
  | .hbm, ⟨17, _⟩ => ⟨S128x128, .f32⟩
  | .hbm, ⟨18, _⟩ => ⟨S128x128, .f32⟩
  | .hbm, ⟨19, _⟩ => ⟨S128x1152, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]

class Facts₀ : Prop where
  shapeCasts_S128x4096_S128x128x32 : S128x4096.ShapeCasts S128x128x32
  bcast_S128x128x32_S128x1x128x32_0_2_3 : S128x128x32.BroadcastsInDim S128x1x128x32 (![0, 2, 3] : Fin 3 → Fin S128x1x128x32.rank)
  bcast_S128x128x32_S1x128x128x32_1_2_3 : S128x128x32.BroadcastsInDim S1x128x128x32 (![1, 2, 3] : Fin 3 → Fin S1x128x128x32.rank)
  bcast_S128x1x128x32_S128x128x128x32_0_1_2_3 : S128x1x128x32.BroadcastsInDim S128x128x128x32 (![0, 1, 2, 3] : Fin 4 → Fin S128x128x128x32.rank)
  bcast_S1x128x128x32_S128x128x128x32_0_1_2_3 : S1x128x128x32.BroadcastsInDim S128x128x128x32 (![0, 1, 2, 3] : Fin 4 → Fin S128x128x128x32.rank)
  reducesTo_S128x128x128x32_S128x128x128_d3 : S128x128x128x32.ReducesTo [3] S128x128x128
  h_S_ : 0 < S_.numel
  reducesTo_S128x128x128_S128x128_d1 : S128x128x128.ReducesTo [1] S128x128
  bcast_S_S128x128 : S_.BroadcastsInDim S128x128 (![] : Fin 0 → Fin S128x128.rank)
  concatenates_S128x1024_S128x128_S128x1152_d1 : Shape.Concatenates [S128x1024, S128x128] S128x1152 1
  dot_S128x1024_S1024x4096_S128x4096_1_0_0_1_n_n_wf : DotDims.WF S128x1024 S1024x4096 S128x4096 [1] [0] [0] [1] [] []

variable [Facts₀]

def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf

class Facts : Prop extends Facts₀ where

variable [Facts]
-- ==== Proof.K.MatmulRegion.lean ====
/-
  The first kernel region: one matrix product per grid point.

  The grid has four points. At point `t` the body reads the whole batch block (128 × 1024, the same at every point) and
  column block `t` of the permuted projection (1024 × 1024), multiplies them into a zero accumulator and stores the
  128 × 1024 product as column block `t` of the region's output. Nothing is carried from one point to the next, so
  what the body leaves in the output's staging buffer at `t` is one function of the two input blocks at `t`.
-/
import proofs.«129731_j48043504173685_1_alg».proof.Proof.Gen.Kernel.Launch
import proofs.«129731_j48043504173685_1_alg».proof.Proof.Gen.Kernel.Skeleton
import proofs.«129731_j48043504173685_1_alg».proof.Proof.Gen.Kernel.Points
import proofs.«129731_j48043504173685_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The contents of a core's buffers as a region finds them. -/
abbrev Vals (F : FTy → Type) : Type := (c : Dev nD) → (b : Ref sig .tc) → Buf (Elt F) ((c : Thread nD τ).loc b)

variable (V : Vals F)

/-- Block `t` of window `w` of the first region, read off the window's array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first region's proof data on core `c`: the arrays as found; after the body at `t` the two inputs' buffers
    still at their blocks and the output's at the product of the two blocks; nothing kept between points. -/
def mmDat (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => k0_pay1 (blk0 V c 0 t) (blk0 V c 1 t)
  Φ _ := Pipeline.ΦA spec0 c
  q _ := fullShare
  owed _ := 0

theorem mmDat_A (c : Dev nD) (w : Fin cfg0.W) : (mmDat V c).A w = V c (Pipeline.arrRef spec0 w) := by
  dsimp only [mmDat]

theorem mmDat_after0 (c : Dev nD) (t : Fin cfg0.N) : (mmDat V c).after 0 t = blk0 V c 0 t := by dsimp only [mmDat]
theorem mmDat_after1 (c : Dev nD) (t : Fin cfg0.N) : (mmDat V c).after 1 t = blk0 V c 1 t := by dsimp only [mmDat]
theorem mmDat_after2 (c : Dev nD) (t : Fin cfg0.N) :
    (mmDat V c).after 2 t = k0_pay1 (blk0 V c 0 t) (blk0 V c 1 t) := by dsimp only [mmDat]

/-! ## The kernel function on any three whole buffers

The body is three loads and one store, each through the rectangle that starts at the origin and has the buffer's own
sizes: such a load reads the buffer's contents, and such a store, covering the buffer, leaves it reading as the
stored value whatever it held. -/

/-- The offsets of a rectangle that starts at the origin, in the two rank-two shapes of this region. -/
theorem origin_128x1024 : (![0, 0] : Fin S128x1024.rank → Nat) = fun _ => 0 :=
  funext fun a => by match a with | ⟨0, _⟩ => rfl | ⟨1, _⟩ => rfl
theorem origin_1024x1024 : (![0, 0] : Fin S1024x1024.rank → Nat) = fun _ => 0 :=
  funext fun a => by match a with | ⟨0, _⟩ => rfl | ⟨1, _⟩ => rfl

/-- A load of the whole 128 × 1024 buffer reads what the buffer reads. -/
theorem load_whole_128x1024 {κ : Kind} {sp : Space} (v : View sig κ sp S128x1024 .f32) (f : v.ty.Contents (Elt F)) :
    v.readAt (Elt F) (Rect.unit (s := S128x1024) ![0, 0] S128x1024.size inb_S128x1024_S128x1024_0_0).toLoadRect f = v.read (Elt F) f := by
  rw [View.readAt_eq_ld]
  exact View.ld_unit_zero origin_128x1024 inb_S128x1024_S128x1024_0_0 (v.read (Elt F) f)

/-- A load of the whole 1024 × 1024 buffer reads what the buffer reads. -/
theorem load_whole_1024x1024 {κ : Kind} {sp : Space} (v : View sig κ sp S1024x1024 .f32) (f : v.ty.Contents (Elt F)) :
    v.readAt (Elt F) (Rect.unit (s := S1024x1024) ![0, 0] S1024x1024.size inb_S1024x1024_S1024x1024_0_0).toLoadRect f = v.read (Elt F) f := by
  rw [View.readAt_eq_ld]
  exact View.ld_unit_zero origin_1024x1024 inb_S1024x1024_S1024x1024_0_0 (v.read (Elt F) f)

/-- The rectangle of the body's one store is all of the 128 × 1024 buffer. -/
theorem store_rect_all (y : S128x1024.Idx) :
    y ∈ (Rect.unit (s := S128x1024) ![0, 0] S128x1024.size inb_S128x1024_S128x1024_0_0).set :=
  View.mem_set_unit_zero (S := S128x1024) origin_128x1024 inb_S128x1024_S128x1024_0_0 y

/-- So that store, alone, covers the buffer; -/
theorem store_covers (w : Vec F S128x1024 .f32) (y : S128x1024.Idx) :
    ∃ p ∈ [(⟨Rect.unit (s := S128x1024) ![0, 0] S128x1024.size inb_S128x1024_S128x1024_0_0, w⟩ : View.Piece (Elt F) S128x1024 .f32)],
      y ∈ p.1.set :=
  ⟨_, List.mem_singleton_self _, store_rect_all y⟩

/-- and whatever the buffer held, after it the buffer reads as what was stored. -/
theorem store_whole_128x1024 {κ : Kind} {sp : Space} (v : View sig κ sp S128x1024 .f32) (f : v.ty.Contents (Elt F))
    (w : Vec F S128x1024 .f32) :
    v.read (Elt F) (v.writes (Elt F) f
      [(⟨Rect.unit (s := S128x1024) ![0, 0] S128x1024.size inb_S128x1024_S128x1024_0_0, w⟩ : View.Piece (Elt F) S128x1024 .f32)]) = w := by
  rw [View.read_writes_eq_canon v f _ (store_covers w)]
  exact View.canon_unit_zero origin_128x1024 inb_S128x1024_S128x1024_0_0 w

/-- The kernel function on any three whole buffers: with the first two reading `x0` and `x1` and the third at anything,
    it leaves the first two as they were and the third reading the product `k0_pay1 x0 x1`; whatever else is held
    (`R`) is untouched. -/
theorem matmul_kernel_triple (c : Dev nD) (i : grid0.Coords)
    (M0 : Memref sig .tc .vmem S128x1024 .f32) (h0 : M0.IsWhole)
    (M1 : Memref sig .tc .vmem S1024x1024 .f32) (h1 : M1.IsWhole)
    (M2 : Memref sig .tc .vmem S128x1024 .f32) (h2 : M2.IsWhole)
    (x0 : Vec F S128x1024 .f32) (x1 : Vec F S1024x1024 .f32) (y : Vec F S128x1024 .f32) (R : sProp 𝕄) :
    iprop(R ∗ owns c M0 fullShare x0 ∗ owns c M1 fullShare x1 ∗ owns c M2 fullShare y)
      ⊢ wp frame (wpE (defs₀ (F := F)) Variants.none c none) Set.univ (cc0__matmul_kernel i M0 h0 M1 h1 M2 h2)
          fun _ => iprop(R ∗ owns c M0 fullShare x0 ∗ owns c M1 fullShare x1 ∗ owns c M2 fullShare (k0_pay1 x0 x1)) := by
  simp only [cc0__matmul_kernel_eq_skeleton]
  unfold cc0__matmul_kernel_skel
  unfold owns
  iintro ⟨HR, ⟨%f0, %e0, H0⟩, ⟨%f1, %e1, H1⟩, ⟨%f2, %e2, H2⟩⟩
  sl_exec
  sl_step
  isplitl [HR]
  · iexact HR
  isplitl [H0]
  · iexists f0; isplitr
    · ipureintro; exact e0
    · iexact H0
  isplitl [H1]
  · iexists f1; isplitr
    · ipureintro; exact e1
    · iexact H1
  iexists _; isplitr
  swap
  · iexact H2
  · ipureintro
    refine (store_whole_128x1024 M2.view f2 _).trans ?_
    exact congrArg₂ k0_pay1 ((load_whole_128x1024 M0.view f0).trans e0) ((load_whole_1024x1024 M1.view f1).trans e1)

/-! ## What the body finds in the two inputs' buffers

Neither input's block is cut at its array's end, so a fetch fills the whole staging buffer with the block and the
body, which only reads it, hands the whole block on. An input not fetched at a point kept its block index from the
point before; so at every point, fetched there or not, the buffer holds the array's block of that point. -/

/-- No block of the first region is cut at its array's end: a fetch replaces the whole staging buffer. -/
theorem fetch_fills0 (i : grid0.Coords) (d g : S128x1024.Idx → Elt F .f32) : (cfg0.win 0).fill i d g = g := rfl
theorem fetch_fills1 (i : grid0.Coords) (d g : S1024x1024.Idx → Elt F .f32) : (cfg0.win 1).fill i d g = g := rfl

/-- The block of an input's array at a point, in the proof data's words, is the block read off the array as found. -/
theorem blockOf_eq_blk0 (c : Dev nD) (w : Fin cfg0.W) (t : Fin cfg0.N) : (mmDat V c).blockOf w t = blk0 V c w t := by
  unfold Dat.blockOf blk0
  rw [mmDat_A]

/-- The batch block is brought in at the first point only, yet the body finds it in its buffer at every point:
    the body leaves the buffer as it was (all of the buffer is what a transfer moves), and the block's index never moves. -/
theorem batch_found (c : Dev nD) (t : Fin cfg0.N) (d : (cfg0.win 0).block.Idx → Elt F (cfg0.win 0).elt) :
    (mmDat V c).before 0 t d = blk0 V c 0 t := by
  refine (Dat.before_in_eq_fetched (mmDat V c) 0 rfl (fun _ => rfl) (fun _ _ _ => rfl) (fun s => ?_) t d).trans ?_
  · rw [mmDat_after0, blockOf_eq_blk0]
  · unfold Dat.fetched
    rw [blockOf_eq_blk0]
    exact fetch_fills0 (cfg0.grid.coords t) d (blk0 V c 0 t)

/-- The projection's column block is brought in afresh at every point. -/
theorem proj_found (c : Dev nD) (t : Fin cfg0.N) (d : (cfg0.win 1).block.Idx → Elt F (cfg0.win 1).elt) :
    (mmDat V c).before 1 t d = blk0 V c 1 t := by
  refine (Dat.before_in_eq_fetched (mmDat V c) 1 rfl (fun _ => rfl) (fun _ _ _ => rfl) (fun s => ?_) t d).trans ?_
  · rw [mmDat_after1, blockOf_eq_blk0]
  · unfold Dat.fetched
    rw [blockOf_eq_blk0]
    exact fetch_fills1 (cfg0.grid.coords t) d (blk0 V c 1 t)

/-! ## The obligation at a point -/

/-- The invariant and what the core owes are the same before and after every point: the body keeps nothing. -/
theorem inv_const (c : Dev nD) (t : Fin cfg0.N) : (mmDat V c).Φ t.succ = (mmDat V c).Φ t.castSucc := by
  dsimp only [mmDat]
theorem owes_const (c : Dev nD) (t : Fin cfg0.N) : (mmDat V c).owesAt () t.succ = (mmDat V c).owesAt () t.castSucc := by
  unfold Dat.owesAt Dat.bound
  dsimp only [mmDat]

/-- The obligation at point `t`, its three windows written out over the point's staging memrefs: the kernel function's
    triple at the two input blocks of the point, the invariant and the owes carried along untouched. -/
theorem mm_point (c : Dev nD) (t : Fin cfg0.N) :
    iprop((mmDat V c).Φ t.castSucc ∗ (mmDat V c).owesAt () t.castSucc
        ∗ (∃ d, owns c (st0_0 t) fullShare ((mmDat V c).before 0 t d))
        ∗ (∃ d, owns c (st0_1 t) fullShare ((mmDat V c).before 1 t d))
        ∗ (∃ d, owns c (st0_2 t) fullShare ((mmDat V c).before 2 t d)))
      ⊢ wp frame (wpE (defs₀ (F := F)) Variants.none c none) Set.univ (bodyAt0 (F := F) t) fun _ =>
          iprop((mmDat V c).Φ t.succ ∗ (mmDat V c).owesAt () t.succ
            ∗ owns c (st0_0 t) fullShare ((mmDat V c).after 0 t)
            ∗ owns c (st0_1 t) fullShare ((mmDat V c).after 1 t)
            ∗ owns c (st0_2 t) fullShare ((mmDat V c).after 2 t)) := by
  rw [mmDat_after0, mmDat_after1, mmDat_after2, inv_const, owes_const]
  iintro ⟨HΦ, Ho, ⟨%d0, H0⟩, ⟨%d1, H1⟩, ⟨%d2, H2⟩⟩
  rw [batch_found V c t d0, proj_found V c t d1]
  have run := (matmul_kernel_triple (F := F) c (grid0.coords t)
      (win0_0.stage (cfg0.slots t 0)) (hstage0_0 ((cfg0.slots t 0).cast nbuf0_0))
      (win0_1.stage (cfg0.slots t 1)) (hstage0_1 ((cfg0.slots t 1).cast nbuf0_1))
      (win0_2.stage (cfg0.slots t 2)) (hstage0_2 ((cfg0.slots t 2).cast nbuf0_2))
      (blk0 V c 0 t) (blk0 V c 1 t) ((mmDat V c).before 2 t d2)
      iprop((mmDat V c).Φ t.castSucc ∗ (mmDat V c).owesAt () t.castSucc)).trans
    (wp_mono frame _ Set.univ fun _ => Idealize.SL.BI.sep_assoc)
  iapply run
  isplitl [HΦ Ho]
  · isplitl [HΦ]
    · iexact HΦ
    · iexact Ho
  isplitl [H0]
  · iexact H0
  isplitl [H1]
  · iexact H1
  iexact H2

/-- At every point the body, handed the region's invariant and each window's current buffer, leaves the inputs as they
    were and the output's buffer at the product of the two input blocks. -/
theorem mm_body (c : Dev nD) : BodyObligation (mmDat (F := F) V c) (defs₀ (F := F)) Variants.none () Set.univ :=
  fun t => by
    rw [bigSep_W0, bigSep_W0]
    exact mm_point V c t

end Cert.Kernel.Hand

end
-- ==== Proof.K.L1Region.lean ====
/-
  The second kernel region: pairwise similarities accumulated over tiles of the batch.

  The grid is 8 × 4: point `t` is row tile `t / 4` (16 rows of the batch) against column tile `t % 4` (32 rows of the
  batch). The body keeps a 16 × 128 accumulator in a scratch buffer: where `t % 4 = 0` it first resets it to zero; at
  every point it adds the tile's partial sums (`k1_pay2`: the 32 similarities of each of its 16 rows to the column
  tile's rows, per output feature); where `t % 4 = 3` it stores the accumulator less one (`k1_pay3`) into the
  output's staging buffer, which the pipeline writes back there and nowhere else. Both input windows read one array,
  the projected batch, so each holds half of the share of it.
-/
import proofs.«129731_j48043504173685_1_alg».proof.Proof.Gen.Kernel.Launch
import proofs.«129731_j48043504173685_1_alg».proof.Proof.Gen.Kernel.Skeleton
import proofs.«129731_j48043504173685_1_alg».proof.Proof.Gen.Kernel.Points
import proofs.«129731_j48043504173685_1_alg».proof.Proof.Gen.Kernel.Regions
import proofs.«129731_j48043504173685_1_alg».proof.Proof.K.MatmulRegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Whole-buffer accesses

Every access of the body goes through the rectangle that is its whole buffer, at offsets written as literal zeros. -/

/-- The literal offsets are zero on every axis. -/
theorem zeros2 : (![0, 0] : Fin S16x128.rank → ℕ) = fun _ => 0 := by
  funext a; fin_cases a <;> rfl
theorem zeros3_row : (![0, 0, 0] : Fin S16x32x128.rank → ℕ) = fun _ => 0 := by
  funext a; fin_cases a <;> rfl
theorem zeros3_col : (![0, 0, 0] : Fin S32x32x128.rank → ℕ) = fun _ => 0 := by
  funext a; fin_cases a <;> rfl

section Whole

variable {κ : Kind} {sp : Space}

/-- A load of the row tile's whole buffer reads what the buffer reads. -/
theorem load_rowTile (v : View sig κ sp S16x32x128 .f32) (f : v.ty.Contents (Elt F)) :
    v.readAt (Elt F) (Rect.unit (s := S16x32x128) ![0, 0, 0] S16x32x128.size inb_S16x32x128_S16x32x128_0_0_0).toLoadRect f
      = v.read (Elt F) f := by
  rw [View.readAt_eq_ld, View.ld_unit_zero (S := S16x32x128) zeros3_row]

/-- A load of the column tile's whole buffer reads what the buffer reads. -/
theorem load_colTile (v : View sig κ sp S32x32x128 .f32) (f : v.ty.Contents (Elt F)) :
    v.readAt (Elt F) (Rect.unit (s := S32x32x128) ![0, 0, 0] S32x32x128.size inb_S32x32x128_S32x32x128_0_0_0).toLoadRect f
      = v.read (Elt F) f := by
  rw [View.readAt_eq_ld, View.ld_unit_zero (S := S32x32x128) zeros3_col]

/-- A load of a whole 16 × 128 buffer (the accumulator, the output's staging buffer) reads what the buffer reads. -/
theorem load_acc (v : View sig κ sp S16x128 .f32) (f : v.ty.Contents (Elt F)) :
    v.readAt (Elt F) (Rect.unit (s := S16x128) ![0, 0] S16x128.size inb_S16x128_S16x128_0_0).toLoadRect f = v.read (Elt F) f := by
  rw [View.readAt_eq_ld, View.ld_unit_zero (S := S16x128) zeros2]

/-- After a store of the whole 16 × 128 buffer, whatever was stored or held before, the buffer reads what was stored. -/
theorem read_stored_acc (v : View sig κ sp S16x128 .f32) (f : v.ty.Contents (Elt F)) (w : Vec F S16x128 .f32)
    (L : List (View.Piece (Elt F) S16x128 .f32)) :
    v.read (Elt F) (v.writes (Elt F) f
        ((⟨Rect.unit (s := S16x128) ![0, 0] S16x128.size inb_S16x128_S16x128_0_0, w⟩ : View.Piece (Elt F) S16x128 .f32) :: L)) = w := by
  rw [View.read_writes_eq_canon _ _ _ (fun y => ⟨_, List.mem_cons_self, View.mem_set_unit_zero zeros2 inb_S16x128_S16x128_0_0 y⟩),
    View.canon_cons_unit_zero (S := S16x128) zeros2]

/-- A load of the whole buffer right after one store of the whole buffer reads what was stored. -/
theorem load_stored_acc (v : View sig κ sp S16x128 .f32) (w : Vec F S16x128 .f32) :
    v.readCov [(⟨Rect.unit (s := S16x128) ![0, 0] S16x128.size inb_S16x128_S16x128_0_0, w⟩ : View.Piece (Elt F) S16x128 .f32)]
        (Rect.unit (s := S16x128) ![0, 0] S16x128.size inb_S16x128_S16x128_0_0).toLoadRect = w :=
  View.readCov_unit_zero (S := S16x128) v zeros2 inb_S16x128_S16x128_0_0 w

end Whole

/-! ## The body's three runs

The body's two conditions split the grid's points three ways. Each run is stated over any whole buffers, with the
accumulator left at its mathematical value. -/

/-- Where a row tile begins and the output is not stored: the accumulator, whatever it held, is left at the tile's
    partial sums over zero; the three staging buffers are left as found. -/
theorem run_reset (c : Dev nD) (i : grid1.Coords)
    (hc0 : Scalar.cmpi .ne (Scalar.extui (Scalar.cmpi .eq (BitVec.ofNat 32 (i 1).val) 0#32)) 0#32 = 1#1)
    (hc1 : ¬ k1_cond2 i = 1#1)
    (M0 : Memref sig .tc .vmem S16x32x128 .f32) (h0 : M0.IsWhole) (M1 : Memref sig .tc .vmem S32x32x128 .f32) (h1 : M1.IsWhole)
    (M2 : Memref sig .tc .vmem S16x128 .f32) (h2 : M2.IsWhole) (M3 : Memref sig .tc .vmem S16x128 .f32) (h3 : M3.IsWhole)
    (X0 : Vec F S16x32x128 .f32) (X1 : Vec F S32x32x128 .f32) (Y : Vec F S16x128 .f32) (S : Vec F S16x128 .f32)
    (E : Set ℕ) (Q : PUnit → sProp 𝕄) :
    iprop(owns (c : Thread nD τ) M0 fullShare X0 ∗ owns (c : Thread nD τ) M1 fullShare X1 ∗ owns (c : Thread nD τ) M2 fullShare Y
        ∗ owns (c : Thread nD τ) M3 fullShare S
        ∗ (iprop(owns (c : Thread nD τ) M0 fullShare X0 ∗ owns (c : Thread nD τ) M1 fullShare X1 ∗ owns (c : Thread nD τ) M2 fullShare Y
            ∗ owns (c : Thread nD τ) M3 fullShare (k1_pay2 X0 X1 (k1_pay1 (F := F)))) -∗ Q ⟨⟩))
      ⊢ wp frame (wpE (defs₀ (F := F)) Variants.none c none) E (cc1__l1_kernel i M0 h0 M1 h1 M2 h2 M3 h3) Q := by
  simp only [cc1__l1_kernel_eq_skeleton]
  unfold cc1__l1_kernel_skel
  unfold owns
  iintro ⟨⟨%f0, %e0, H0⟩, ⟨%f1, %e1, H1⟩, ⟨%f2, %e2, H2⟩, ⟨%f3, %e3, H3⟩, Hk⟩
  sl_exec (disch := first | exact hc0 | exact hc1)
  sl_step
  iapply Hk
  isplitl [H0]; · iexists f0; isplitr; (· ipureintro; exact e0); iexact H0
  isplitl [H1]; · iexists f1; isplitr; (· ipureintro; exact e1); iexact H1
  isplitl [H2]; · iexists f2; isplitr; (· ipureintro; exact e2); iexact H2
  iexists _; isplitr; swap; (· iexact H3)
  ipureintro
  sl_unfold_words
  rw [read_stored_acc, load_rowTile, load_colTile, load_stored_acc, e0, e1]

/-- Inside a row tile, before its last point: the accumulator at `S` is left at the tile's partial sums over `S`; the
    three staging buffers are left as found. -/
theorem run_step (c : Dev nD) (i : grid1.Coords)
    (hc0 : ¬ Scalar.cmpi .ne (Scalar.extui (Scalar.cmpi .eq (BitVec.ofNat 32 (i 1).val) 0#32)) 0#32 = 1#1)
    (hc1 : ¬ k1_cond2 i = 1#1)
    (M0 : Memref sig .tc .vmem S16x32x128 .f32) (h0 : M0.IsWhole) (M1 : Memref sig .tc .vmem S32x32x128 .f32) (h1 : M1.IsWhole)
    (M2 : Memref sig .tc .vmem S16x128 .f32) (h2 : M2.IsWhole) (M3 : Memref sig .tc .vmem S16x128 .f32) (h3 : M3.IsWhole)
    (X0 : Vec F S16x32x128 .f32) (X1 : Vec F S32x32x128 .f32) (Y : Vec F S16x128 .f32) (S : Vec F S16x128 .f32)
    (E : Set ℕ) (Q : PUnit → sProp 𝕄) :
    iprop(owns (c : Thread nD τ) M0 fullShare X0 ∗ owns (c : Thread nD τ) M1 fullShare X1 ∗ owns (c : Thread nD τ) M2 fullShare Y
        ∗ owns (c : Thread nD τ) M3 fullShare S
        ∗ (iprop(owns (c : Thread nD τ) M0 fullShare X0 ∗ owns (c : Thread nD τ) M1 fullShare X1 ∗ owns (c : Thread nD τ) M2 fullShare Y
            ∗ owns (c : Thread nD τ) M3 fullShare (k1_pay2 X0 X1 S)) -∗ Q ⟨⟩))
      ⊢ wp frame (wpE (defs₀ (F := F)) Variants.none c none) E (cc1__l1_kernel i M0 h0 M1 h1 M2 h2 M3 h3) Q := by
  simp only [cc1__l1_kernel_eq_skeleton]
  unfold cc1__l1_kernel_skel
  unfold owns
  iintro ⟨⟨%f0, %e0, H0⟩, ⟨%f1, %e1, H1⟩, ⟨%f2, %e2, H2⟩, ⟨%f3, %e3, H3⟩, Hk⟩
  sl_exec (disch := first | exact hc0 | exact hc1)
  sl_step
  iapply Hk
  isplitl [H0]; · iexists f0; isplitr; (· ipureintro; exact e0); iexact H0
  isplitl [H1]; · iexists f1; isplitr; (· ipureintro; exact e1); iexact H1
  isplitl [H2]; · iexists f2; isplitr; (· ipureintro; exact e2); iexact H2
  iexists _; isplitr; swap; (· iexact H3)
  ipureintro
  sl_unfold_words
  rw [read_stored_acc, load_rowTile, load_colTile, load_acc, e0, e1, e3]

/-- At a row tile's last point: the accumulator at `S` is left at the tile's partial sums over `S`, and the output's
    staging buffer, whatever it held, at that value less one; the inputs' buffers are left as found. -/
theorem run_last (c : Dev nD) (i : grid1.Coords)
    (hc0 : ¬ Scalar.cmpi .ne (Scalar.extui (Scalar.cmpi .eq (BitVec.ofNat 32 (i 1).val) 0#32)) 0#32 = 1#1)
    (hc1 : k1_cond2 i = 1#1)
    (M0 : Memref sig .tc .vmem S16x32x128 .f32) (h0 : M0.IsWhole) (M1 : Memref sig .tc .vmem S32x32x128 .f32) (h1 : M1.IsWhole)
    (M2 : Memref sig .tc .vmem S16x128 .f32) (h2 : M2.IsWhole) (M3 : Memref sig .tc .vmem S16x128 .f32) (h3 : M3.IsWhole)
    (X0 : Vec F S16x32x128 .f32) (X1 : Vec F S32x32x128 .f32) (Y : Vec F S16x128 .f32) (S : Vec F S16x128 .f32)
    (E : Set ℕ) (Q : PUnit → sProp 𝕄) :
    iprop(owns (c : Thread nD τ) M0 fullShare X0 ∗ owns (c : Thread nD τ) M1 fullShare X1 ∗ owns (c : Thread nD τ) M2 fullShare Y
        ∗ owns (c : Thread nD τ) M3 fullShare S
        ∗ (iprop(owns (c : Thread nD τ) M0 fullShare X0 ∗ owns (c : Thread nD τ) M1 fullShare X1 ∗ owns (c : Thread nD τ) M2 fullShare (k1_pay3 (k1_pay2 X0 X1 S))
            ∗ owns (c : Thread nD τ) M3 fullShare (k1_pay2 X0 X1 S)) -∗ Q ⟨⟩))
      ⊢ wp frame (wpE (defs₀ (F := F)) Variants.none c none) E (cc1__l1_kernel i M0 h0 M1 h1 M2 h2 M3 h3) Q := by
  simp only [cc1__l1_kernel_eq_skeleton]
  unfold cc1__l1_kernel_skel
  unfold owns
  iintro ⟨⟨%f0, %e0, H0⟩, ⟨%f1, %e1, H1⟩, ⟨%f2, %e2, H2⟩, ⟨%f3, %e3, H3⟩, Hk⟩
  sl_exec (disch := first | exact hc0 | exact hc1)
  sl_step
  iapply Hk
  isplitl [H0]; · iexists f0; isplitr; (· ipureintro; exact e0); iexact H0
  isplitl [H1]; · iexists f1; isplitr; (· ipureintro; exact e1); iexact H1
  isplitl [H2]
  · iexists _; isplitr; swap; (· iexact H2)
    ipureintro
    sl_unfold_words
    rw [read_stored_acc, load_stored_acc, load_rowTile, load_colTile, load_acc, e0, e1, e3]
  iexists _; isplitr; swap; (· iexact H3)
  ipureintro
  sl_unfold_words
  rw [read_stored_acc, load_rowTile, load_colTile, load_acc, e0, e1, e3]

/-! ## The body's two conditions and the output's schedule, over the grid -/

/-- The first condition holds exactly where a row tile begins. -/
theorem resets_iff : ∀ t : Fin cfg1.N,
    Scalar.cmpi .ne (Scalar.extui (Scalar.cmpi .eq (BitVec.ofNat 32 ((grid1.coords t) 1).val) 0#32)) 0#32 = 1#1 ↔ t.val % 4 = 0 :=
  (by decide +kernel : ∀ t : Fin grid1.N,
    Scalar.cmpi .ne (Scalar.extui (Scalar.cmpi .eq (BitVec.ofNat 32 ((grid1.coords t) 1).val) 0#32)) 0#32 = 1#1 ↔ t.val % 4 = 0)

/-- The second condition holds exactly at a row tile's last point. -/
theorem stores_iff : ∀ t : Fin cfg1.N, k1_cond2 (grid1.coords t) = 1#1 ↔ t.val % 4 = 3 :=
  (by decide +kernel : ∀ t : Fin grid1.N, k1_cond2 (grid1.coords t) = 1#1 ↔ t.val % 4 = 3)

/-- The output's window is idle exactly off a row tile's last point. -/
theorem out_idle_iff : ∀ t : Fin cfg1.N, cfg1.idle 2 (cfg1.grid.coords t) = true ↔ ¬ t.val % 4 = 3 :=
  (by decide +kernel : ∀ t : Fin grid1.N, idle1 2 (grid1.coords t) = true ↔ ¬ t.val % 4 = 3)

/-! ## The proof data -/

variable (V : Vals F)

/-- Block `t` of window `w` of the second region, read off the window's array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator's memref: the region's one scratch buffer, whole. -/
abbrev accRef : Memref sig .tc .vmem S16x128 .f32 := Memref.whole cc1_scratch0

/-- THE ACCUMULATION. What the scratch holds after the body at position `n`: the tile's partial sums added to zero
    where a row tile begins (`n % 4 = 0`), to what the point before left otherwise. -/
def accAt (c : Dev nD) : (n : ℕ) → n < cfg1.N → Vec F S16x128 .f32
  | 0, hn => k1_pay2 (blk1 V c 0 ⟨0, hn⟩) (blk1 V c 1 ⟨0, hn⟩) (k1_pay1 (F := F))
  | n + 1, hn =>
    if (n + 1) % 4 = 0 then k1_pay2 (blk1 V c 0 ⟨n + 1, hn⟩) (blk1 V c 1 ⟨n + 1, hn⟩) (k1_pay1 (F := F))
    else k1_pay2 (blk1 V c 0 ⟨n + 1, hn⟩) (blk1 V c 1 ⟨n + 1, hn⟩) (accAt c n (Nat.lt_of_succ_lt hn))

/-- At the first point of a row tile the accumulator is the tile's partial sums over zero. -/
theorem accAt_reset (c : Dev nD) (t : Fin cfg1.N) (h : t.val % 4 = 0) :
    accAt V c t.val t.isLt = k1_pay2 (blk1 V c 0 t) (blk1 V c 1 t) (k1_pay1 (F := F)) := by
  obtain ⟨n, hn⟩ := t
  cases n with
  | zero => rfl
  | succ n =>
    show accAt V c (n + 1) hn = _
    rw [accAt, if_pos h]

/-- At any other point it is the tile's partial sums over what the point before left. -/
theorem accAt_step (c : Dev nD) (t : Fin cfg1.N) (h : ¬ t.val % 4 = 0) :
    accAt V c t.val t.isLt
      = k1_pay2 (blk1 V c 0 t) (blk1 V c 1 t) (accAt V c (t.val - 1) (Nat.lt_of_le_of_lt (Nat.sub_le _ _) t.isLt)) := by
  obtain ⟨n, hn⟩ := t
  cases n with
  | zero => exact absurd rfl h
  | succ n =>
    show accAt V c (n + 1) hn = _
    rw [accAt, if_neg h]
    rfl

/-- The first region's staging buffers, which this region never touches: each whole at some contents. -/
def idleBufs (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The region's invariant before position `n`: before the first point every scoped buffer that is no staging buffer
    of this region at anything (the class's `ΦA`); afterwards the same with the accumulator at what the point before
    left in it. -/
def accInv (c : Dev nD) : (n : ℕ) → n ≤ cfg1.N → sProp 𝕄
  | 0, _ => Pipeline.ΦA spec1 c
  | n + 1, hn => iprop(idleBufs (F := F) c ∗ owns (c : Thread nD τ) accRef fullShare (accAt V c n hn) ∗ (∃ r, prngReg c r))

/-- Once a point has run the invariant is the first region's staging buffers, the accumulator at what the point
    before left in it, and the register. -/
theorem accInv_after (c : Dev nD) (n m : ℕ) (hn : n ≤ cfg1.N) (e : n = m + 1) :
    accInv V c n hn
      = iprop(idleBufs (F := F) c ∗ owns (c : Thread nD τ) accRef fullShare (accAt V c m (by omega)) ∗ (∃ r, prngReg c r)) := by
  subst e; rw [accInv]

/-- The second region's proof data on core `c`: the arrays as found; after the body at `t` the two inputs' buffers
    still at their blocks and the output's at the accumulator less one (consulted only where `t % 4 = 3`, the one
    place the body stores it and the pipeline writes it back); the invariant carrying the accumulator; the projected
    batch's share halved between the two windows that read it. -/
def l1Dat (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => k1_pay3 (accAt V c t.val t.isLt)
  Φ t := accInv V c t.val (Nat.le_of_lt_succ t.isLt)
  q w := match w with
    | ⟨0, _⟩ => (fullShare : PosShare TreeShare).left
    | ⟨1, _⟩ => (fullShare : PosShare TreeShare).right
    | ⟨2, _⟩ => fullShare
  owed _ := 0

theorem l1Dat_A (c : Dev nD) (w : Fin cfg1.W) : (l1Dat V c).A w = V c (Pipeline.arrRef spec1 w) := by
  dsimp only [l1Dat]

theorem l1Dat_after0 (c : Dev nD) (t : Fin cfg1.N) : (l1Dat V c).after 0 t = blk1 V c 0 t := by dsimp only [l1Dat]
theorem l1Dat_after1 (c : Dev nD) (t : Fin cfg1.N) : (l1Dat V c).after 1 t = blk1 V c 1 t := by dsimp only [l1Dat]
theorem l1Dat_after2 (c : Dev nD) (t : Fin cfg1.N) :
    (l1Dat V c).after 2 t = k1_pay3 (accAt V c t.val t.isLt) := by dsimp only [l1Dat]

theorem l1Dat_q0 (c : Dev nD) : (l1Dat V c).q 0 = (fullShare : PosShare TreeShare).left := by dsimp only [l1Dat]
theorem l1Dat_q1 (c : Dev nD) : (l1Dat V c).q 1 = (fullShare : PosShare TreeShare).right := by dsimp only [l1Dat]

/-- Whatever the point, the invariant before it holds the accumulator at something. -/
theorem accInv_forget (c : Dev nD) (n : ℕ) (hn : n ≤ cfg1.N) :
    accInv V c n hn
      ⊢ iprop(idleBufs (F := F) c ∗ (∃ S, owns (c : Thread nD τ) accRef fullShare S) ∗ (∃ r, prngReg c r)) := by
  cases n with
  | zero =>
    rw [accInv]; unfold Pipeline.ΦA idleBufs; rw [scopedRest1_eq]
    iintro ⟨⟨H0, H1, H2, H3, H4, ⟨%f, Hs⟩⟩, Hr⟩
    isplitr [Hs Hr]
    · isplitl [H0]; · iexact H0
      isplitl [H1]; · iexact H1
      isplitl [H2]; · iexact H2
      isplitl [H3]; · iexact H3
      iexact H4
    isplitl [Hs]; · iexists f; rw [owns_whole]; iexact Hs
    iexact Hr
  | succ n =>
    rw [accInv]
    iintro ⟨Hi, Ha, Hr⟩
    isplitl [Hi]; · iexact Hi
    isplitl [Ha]; · iexists _; iexact Ha
    iexact Hr

/-- The row tile's window holds its block at every point, fetched there or not: the body leaves it in place. -/
theorem l1_before0 (c : Dev nD) (t : Fin cfg1.N) (d : (cfg1.win 0).block.Idx → Elt F (cfg1.win 0).elt) :
    (l1Dat V c).before 0 t d = blk1 V c 0 t :=
  ((l1Dat V c).before_in_eq_fetched 0 rfl (fun _ => rfl) (fun _ _ _ => rfl)
    (fun t => by rw [l1Dat_after0]; unfold Dat.blockOf blk1; rw [l1Dat_A]) t d).trans rfl

/-- So does the column tile's. -/
theorem l1_before1 (c : Dev nD) (t : Fin cfg1.N) (d : (cfg1.win 1).block.Idx → Elt F (cfg1.win 1).elt) :
    (l1Dat V c).before 1 t d = blk1 V c 1 t :=
  ((l1Dat V c).before_in_eq_fetched 1 rfl (fun _ => rfl) (fun _ _ _ => rfl)
    (fun t => by rw [l1Dat_after1]; unfold Dat.blockOf blk1; rw [l1Dat_A]) t d).trans rfl

/-- Where the body stores the output the obligation asks its buffer at the accumulator less one. -/
theorem l1_leaves_stored (c : Dev nD) (t : Fin cfg1.N) (hi : cfg1.idle 2 (cfg1.grid.coords t) = false) :
    (l1Dat V c).leavesExact 2 t
      = owns (c : Thread nD τ) (st1_2 t) fullShare (k1_pay3 (accAt V c t.val t.isLt)) := by
  unfold Dat.leavesExact; rw [hi, l1Dat_after2]

/-- The obligation at one point, its windows written out: from the invariant and the three current buffers the body
    runs to the next invariant, the inputs at their blocks and the output's buffer at what the schedule asks. -/
theorem l1_point (c : Dev nD) (t : Fin cfg1.N) :
    (iprop(accInv V c t.val (Nat.le_of_lt t.isLt) ∗ (l1Dat V c).owesAt () t.castSucc
        ∗ (∃ d, owns (c : Thread nD τ) (st1_0 t) fullShare ((l1Dat V c).before 0 t d))
        ∗ (∃ d, owns (c : Thread nD τ) (st1_1 t) fullShare ((l1Dat V c).before 1 t d))
        ∗ (∃ d, owns (c : Thread nD τ) (st1_2 t) fullShare ((l1Dat V c).before 2 t d))) : sProp 𝕄)
      ⊢ wp frame (wpE (defs₀ (F := F)) Variants.none c none) Set.univ (bodyAt1 (F := F) t) fun _ =>
          iprop(accInv V c (t.val + 1) t.isLt ∗ (l1Dat V c).owesAt () t.succ
            ∗ owns (c : Thread nD τ) (st1_0 t) fullShare (blk1 V c 0 t)
            ∗ owns (c : Thread nD τ) (st1_1 t) fullShare (blk1 V c 1 t)
            ∗ (l1Dat V c).leavesExact 2 t) := by
  have hst0 : (st1_0 t).IsWhole := hstage1_0 ((cfg1.slots t 0).cast nbuf1_0)
  have hst1 : (st1_1 t).IsWhole := hstage1_1 ((cfg1.slots t 1).cast nbuf1_1)
  have hst2 : (st1_2 t).IsWhole := hstage1_2 ((cfg1.slots t 2).cast nbuf1_2)
  by_cases h0 : t.val % 4 = 0
  · have hc0 := (resets_iff t).mpr h0
    have hc1 : ¬ k1_cond2 (grid1.coords t) = 1#1 := fun h => absurd ((stores_iff t).mp h) (by omega)
    have hi : cfg1.idle 2 (cfg1.grid.coords t) = true := (out_idle_iff t).mpr (by omega)
    have hf : (cfg1.win 2).flush t = false := by
      rw [← Bool.not_eq_true]; exact fun h => absurd ((flush1_2 t).mp h) (by omega)
    rw [Dat.leavesExact_idle _ 2 t hi hf, accInv_after V c (t.val + 1) t.val _ rfl, accAt_reset V c t h0]
    simp only [l1_before0 V c t, l1_before1 V c t]
    iintro ⟨HΦ, Howes, ⟨%d0, H0⟩, ⟨%d1, H1⟩, ⟨%d2, H2⟩⟩
    ihave ⟨Hi, ⟨%S, Ha⟩, Hr⟩ := (accInv_forget V c t.val _) $$ HΦ
    iapply (run_reset c (grid1.coords t) hc0 hc1 (st1_0 t) hst0 (st1_1 t) hst1 (st1_2 t) hst2 accRef (Memref.isWhole_whole _)
      (blk1 V c 0 t) (blk1 V c 1 t) ((l1Dat V c).before 2 t d2) S Set.univ _)
    isplitl [H0]; · iexact H0
    isplitl [H1]; · iexact H1
    isplitl [H2]; · iexact H2
    isplitl [Ha]; · iexact Ha
    iintro ⟨H0, H1, H2, Ha⟩
    isplitl [Hi Ha Hr]
    · isplitl [Hi]; · iexact Hi
      isplitl [Ha]; · iexact Ha
      iexact Hr
    isplitl [Howes]; · iexact Howes
    isplitl [H0]; · iexact H0
    isplitl [H1]; · iexact H1
    iexists d2; iexact H2
  · have hc0 : ¬ Scalar.cmpi .ne (Scalar.extui (Scalar.cmpi .eq (BitVec.ofNat 32 ((grid1.coords t) 1).val) 0#32)) 0#32 = 1#1 :=
      fun h => h0 ((resets_iff t).mp h)
    by_cases h3 : t.val % 4 = 3
    · have hc1 := (stores_iff t).mpr h3
      have hi : cfg1.idle 2 (cfg1.grid.coords t) = false := by
        rw [← Bool.not_eq_true]; exact fun h => (out_idle_iff t).mp h h3
      rw [l1_leaves_stored V c t hi, accInv_after V c t.val (t.val - 1) _ (by omega), accInv_after V c (t.val + 1) t.val _ rfl,
        accAt_step V c t h0]
      simp only [l1_before0 V c t, l1_before1 V c t]
      iintro ⟨⟨Hi, Ha, Hr⟩, Howes, ⟨%d0, H0⟩, ⟨%d1, H1⟩, ⟨%d2, H2⟩⟩
      iapply (run_last c (grid1.coords t) hc0 hc1 (st1_0 t) hst0 (st1_1 t) hst1 (st1_2 t) hst2 accRef (Memref.isWhole_whole _)
        (blk1 V c 0 t) (blk1 V c 1 t) ((l1Dat V c).before 2 t d2)
        (accAt V c (t.val - 1) (Nat.lt_of_le_of_lt (Nat.sub_le _ _) t.isLt)) Set.univ _)
      isplitl [H0]; · iexact H0
      isplitl [H1]; · iexact H1
      isplitl [H2]; · iexact H2
      isplitl [Ha]; · iexact Ha
      iintro ⟨H0, H1, H2, Ha⟩
      isplitl [Hi Ha Hr]
      · isplitl [Hi]; · iexact Hi
        isplitl [Ha]; · iexact Ha
        iexact Hr
      isplitl [Howes]; · iexact Howes
      isplitl [H0]; · iexact H0
      isplitl [H1]; · iexact H1
      iexact H2
    · have hc1 : ¬ k1_cond2 (grid1.coords t) = 1#1 := fun h => h3 ((stores_iff t).mp h)
      have hi : cfg1.idle 2 (cfg1.grid.coords t) = true := (out_idle_iff t).mpr h3
      have hf : (cfg1.win 2).flush t = false := by
        rw [← Bool.not_eq_true]; exact fun h => h3 ((flush1_2 t).mp h)
      rw [Dat.leavesExact_idle _ 2 t hi hf, accInv_after V c t.val (t.val - 1) _ (by omega),
        accInv_after V c (t.val + 1) t.val _ rfl, accAt_step V c t h0]
      simp only [l1_before0 V c t, l1_before1 V c t]
      iintro ⟨⟨Hi, Ha, Hr⟩, Howes, ⟨%d0, H0⟩, ⟨%d1, H1⟩, ⟨%d2, H2⟩⟩
      iapply (run_step c (grid1.coords t) hc0 hc1 (st1_0 t) hst0 (st1_1 t) hst1 (st1_2 t) hst2 accRef (Memref.isWhole_whole _)
        (blk1 V c 0 t) (blk1 V c 1 t) ((l1Dat V c).before 2 t d2)
        (accAt V c (t.val - 1) (Nat.lt_of_le_of_lt (Nat.sub_le _ _) t.isLt)) Set.univ _)
      isplitl [H0]; · iexact H0
      isplitl [H1]; · iexact H1
      isplitl [H2]; · iexact H2
      isplitl [Ha]; · iexact Ha
      iintro ⟨H0, H1, H2, Ha⟩
      isplitl [Hi Ha Hr]
      · isplitl [Hi]; · iexact Hi
        isplitl [Ha]; · iexact Ha
        iexact Hr
      isplitl [Howes]; · iexact Howes
      isplitl [H0]; · iexact H0
      isplitl [H1]; · iexact H1
      iexists d2; iexact H2

/-- At every point the body, handed the invariant (the accumulator at what the point before left, or at anything at
    the very first point) and each window's current buffer, leaves the inputs as they were, the accumulator at this
    point's value, and the output's buffer at the accumulator less one where it stores it and untouched elsewhere. -/
theorem l1_body (c : Dev nD) : BodyObligation (l1Dat (F := F) V c) (defs₀ (F := F)) Variants.none () Set.univ := fun t => by
  rw [bigSep_W1, bigSep_W1]
  exact l1_point V c t

/-- What the region is entered with is the invariant before the first point. -/
theorem l1_in (c : Dev nD) : (Pipeline.ΦA spec1 c : sProp 𝕄) ⊢ (l1Dat V c).Φ 0 := by
  show (Pipeline.ΦA spec1 c : sProp 𝕄) ⊢ accInv V c 0 (Nat.zero_le _)
  rw [accInv]

/-- After the last point the invariant gives back what the region was entered with: the accumulator's value is forgotten. -/
theorem l1_out (c : Dev nD) : (l1Dat V c).Φ (Fin.last cfg1.N) ⊢ (Pipeline.ΦA spec1 c : sProp 𝕄) := by
  show accInv V c cfg1.N (Nat.le_refl _) ⊢ _
  rw [accInv_after V c cfg1.N 31 _ N_1]
  unfold Pipeline.ΦA idleBufs
  rw [scopedRest1_eq, owns_whole]
  iintro ⟨⟨H0, H1, H2, H3, H4⟩, Hacc, Hr⟩
  isplitr [Hr]; swap; (· iexact Hr)
  isplitl [H0]; · iexact H0
  isplitl [H1]; · iexact H1
  isplitl [H2]; · iexact H2
  isplitl [H3]; · iexact H3
  isplitl [H4]; · iexact H4
  iexists _; iexact Hacc

end Cert.Kernel.Hand

end
-- ==== Proof.K.Launch.lean ====
/-
  The whole program as a run: three stretches of host operations around the two kernel regions.

  The host first permutes the projection's columns (two reshapes around a transposition) so that the first region's
  product comes out with the 32 components of each feature 128 columns apart; the first region computes that product;
  a reshape reads it as (row, component, feature); the second region turns it into the 128 × 128 feature array; a
  concatenation puts the batch and the features side by side. Between two items a core's buffers hold the launch
  contents pushed through the host stretches so far, with each region's output array at what that region's
  write-backs left in it. Here those two arrays are named, the regions are entered from and left at exactly those
  contents, and the run is read at its end: the result array and both arguments.
-/
import proofs.«129731_j48043504173685_1_alg».proof.Proof.Gen.Kernel.Launch
import proofs.«129731_j48043504173685_1_alg».proof.Proof.Gen.Kernel.Skeleton
import proofs.«129731_j48043504173685_1_alg».proof.Proof.Gen.Kernel.Points
import proofs.«129731_j48043504173685_1_alg».proof.Proof.Gen.Kernel.Regions
import proofs.«129731_j48043504173685_1_alg».proof.Proof.K.L1Region
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (RegionSeg HostSeg Seg)

/-! ## One array behind two windows -/

section SharedArray

variable (V : Vals F)

/-- The second region's two input windows hold the two halves of the projected batch's share; its output the whole. -/
theorem l1_share0 (c : Dev nD) : (l1Dat V c).share 0 = (fullShare : PosShare TreeShare).left := by
  unfold Dat.share; rw [if_neg (by decide)]; exact l1Dat_q0 V c
theorem l1_share1 (c : Dev nD) : (l1Dat V c).share 1 = (fullShare : PosShare TreeShare).right := by
  unfold Dat.share; rw [if_neg (by decide)]; exact l1Dat_q1 V c
theorem l1_share2 (c : Dev nD) : (l1Dat V c).share 2 = fullShare := by
  unfold Dat.share; rw [if_pos (by decide)]

/-- The two buffers behind the second region's three arrays, spelt out. -/
theorem l1_buffers_eq (c : Dev nD) (V' : (b : Ref sig .tc) → Buf (Elt F) ((c.tc : Thread nD τ).loc b)) :
    (Pipeline.arrBufs spec1 c V' : sProp 𝕄)
      = iprop(((c.tc : Thread nD τ).loc main_v4 ↦{fullShare} V' main_v4) ∗ ((c.tc : Thread nD τ).loc main_v5 ↦{fullShare} V' main_v5)) := by
  unfold Pipeline.arrBufs
  rw [show (Finset.univ.image (Pipeline.arrRef spec1)) = ({main_v4, main_v5} : Finset (Ref sig .tc)) from by decide,
    BI.bigSep_insert (by decide : main_v4 ∉ ({main_v5} : Finset (Ref sig .tc))), BI.bigSep_singleton]
  rfl

/-- ENTERING. The two buffers behind the second region's three arrays, each whole at the full share, make the region's
    arrays: the projected batch is split in halves, one for each window that reads it. -/
theorem l1_arrays_split (c : Dev nD) (G : (w : Fin cfg1.W) → Buf (Elt F) ((cfg1.win w).arr.view.loc (c.tc : Thread nD τ)))
    (h0 : G 0 = V c main_v4) (h1 : G 1 = V c main_v4) (h2 : G 2 = V c main_v5) :
    (Pipeline.arrBufs spec1 c (V c) : sProp 𝕄) ⊢ (l1Dat V c).arrays G := by
  rw [l1_buffers_eq]
  unfold Dat.arrays
  rw [bigSep_W1]
  rw [l1_share0, l1_share1, l1_share2, h0, h1, h2]
  rw [(arr_whole1 0).set_eq_univ, (arr_whole1 2).set_eq_univ]
  iintro ⟨Hbatch, Hout⟩
  ihave Hhalves := (pointsTo_share (PosShare.mem_left_op_right fullShare)).1 $$ Hbatch
  icases Hhalves with ⟨Hleft, Hright⟩
  isplitl [Hleft]; · iexact Hleft
  isplitl [Hright]; · iexact Hright
  iexact Hout

/-- LEAVING. The region's arrays, the two windows on the projected batch holding the same contents, make the two
    buffers whole again: the halves are joined. -/
theorem l1_arrays_join (c : Dev nD) (G : (w : Fin cfg1.W) → Buf (Elt F) ((cfg1.win w).arr.view.loc (c.tc : Thread nD τ)))
    (V' : (b : Ref sig .tc) → Buf (Elt F) ((c.tc : Thread nD τ).loc b))
    (h0 : G 0 = V' main_v4) (h1 : G 1 = V' main_v4) (h2 : G 2 = V' main_v5) :
    (l1Dat V c).arrays G ⊢ (Pipeline.arrBufs spec1 c V' : sProp 𝕄) := by
  rw [l1_buffers_eq]
  unfold Dat.arrays
  rw [bigSep_W1]
  rw [l1_share0, l1_share1, l1_share2, h0, h1, h2]
  rw [(arr_whole1 0).set_eq_univ, (arr_whole1 2).set_eq_univ]
  iintro ⟨Hleft, Hright, Hout⟩
  isplitl [Hleft Hright]
  · iapply (pointsTo_share (PosShare.mem_left_op_right fullShare)).2
    isplitl [Hleft]; · iexact Hleft
    iexact Hright
  iexact Hout

end SharedArray

variable (m : (ℓ : Loc nD τ sig) → Buf (Elt F) ℓ) (ρ : Dev nD → PrngReg)

/-! ## What the regions find and what they leave -/

/-- What the first region finds: the launch contents after the column permutation. -/
abbrev found0 : Vals F := fun c b => V1 m c b

/-- What the first region leaves in its output array: the four write-backs folded. -/
def product (c : Dev nD) : Buf (Elt F) ((c : Thread nD τ).loc main_v3) := (mmDat (found0 m) c).arrAt 2 cfg0.N

/-- The contents the regions leave, the first region's only: enough to say what the second region finds. -/
def leaves0 : Outs (F := F) := fun _ r c => if h : r = main_v3 then h ▸ product m c else m ((c : Thread nD τ).loc r)

/-- What the second region finds: the product read as (row, component, feature), everything else as before. -/
abbrev found1 : Vals F := fun c b => V3 m (leaves0 m) c b

/-- What the second region leaves in its output array: the eight write-backs folded. -/
def features (c : Dev nD) : Buf (Elt F) ((c : Thread nD τ).loc main_v5) := (l1Dat (found1 m) c).arrAt 2 cfg1.N

/-- The contents both regions leave. -/
def leaves : Outs (F := F) := fun n r c => if h : r = main_v5 then h ▸ features m c else leaves0 m n r c

theorem leaves0_product (n : ℕ) (c : Dev nD) : leaves0 m n main_v3 c = product m c := by
  unfold leaves0; rw [dif_pos rfl]

theorem leaves_product (n : ℕ) (c : Dev nD) : leaves m n main_v3 c = product m c := by
  unfold leaves; rw [dif_neg (by decide)]; exact leaves0_product m n c

theorem leaves_features (n : ℕ) (c : Dev nD) : leaves m n main_v5 c = features m c := by
  unfold leaves; rw [dif_pos rfl]

/-- The second region finds the same whether or not its own output is named yet: its entry contents read the first
    region's output only. -/
theorem found1_eq (c : Dev nD) : V3 m (leaves m) c = V3 m (leaves0 m) c := by
  show StableHlo.after hostOps1 (Function.update (V1 m c) main_v3 (leaves m 2 main_v3 c))
    = StableHlo.after hostOps1 (Function.update (V1 m c) main_v3 (leaves0 m 2 main_v3 c))
  rw [leaves_product, leaves0_product]

/-! ## The proof data of both regions -/

/-- Each region's proof data at what it finds: a literal match on the region, so that the launch's configuration at a
    numeral reduces to the printed one. -/
def regionData : (p : Fin 2) → (c : Dev nD) → Dat τ (Elt F) Unit ℕ (UR sig nD τ) ℕ (Pipeline.pin (pcfgs (F := F)) adm p) c
  | ⟨0, _⟩ => fun c => mmDat (found0 m) c
  | ⟨1, _⟩ => fun c => l1Dat (found1 m) c

/-! ## The thread state between items -/

/-- What rides beside the buffers from item to item: the core's generator register at some state, and nothing owed. -/
abbrev beside (c : Dev nD) : sProp 𝕄 :=
  iprop((∃ r, prngReg c r) ∗ ∃ W, owes (c : Thread nD τ) (0 : CellTallies nD τ sig Unit) W)

/-- No core owes another anything here, so no level is ever assigned. -/
abbrev noPairs : GSem nD τ sig → Finset Unit := fun _ => ∅
abbrev level0 : GSem nD τ sig → Unit → ℕ := fun _ _ => 0

/-- The first region's output array after its last point is what `leaves` names; its two input arrays are untouched. -/
theorem product_placed (c : Dev nD) (w : Fin cfg0.W) :
    (regionData m 0 c).arrAt w cfg0.N = (fun b : Ref sig .tc => V2 m (leaves m) c b) (Pipeline.arrRef spec0 w) := by
  match w with
  | ⟨0, _⟩ =>
    refine ((regionData m 0 c).arrAt_in 0 rfl _).trans ?_
    exact (mmDat_A (found0 m) c 0).trans (V2_of m (leaves m) c main_arg0 (by decide)).symm
  | ⟨1, _⟩ =>
    refine ((regionData m 0 c).arrAt_in 1 rfl _).trans ?_
    exact (mmDat_A (found0 m) c 1).trans (V2_of m (leaves m) c main_v2 (by decide)).symm
  | ⟨2, _⟩ =>
    show product m c = Function.update (V1 m c) main_v3 (leaves m 2 main_v3 c) main_v3
    rw [Function.update_self, leaves_product]

/-- Off the first region's three arrays nothing changes across it. -/
theorem product_elsewhere (c : Dev nD) (b : Ref sig .tc) (hb : b ∉ Finset.univ.image (Pipeline.arrRef spec0)) :
    (fun b : Ref sig .tc => V2 m (leaves m) c b) b = found0 m c b := by
  refine V2_of m (leaves m) c b fun hmem => hb ?_
  rw [List.mem_singleton] at hmem
  subst hmem
  exact Finset.mem_image.mpr ⟨2, Finset.mem_univ _, rfl⟩

set_option backward.isDefEq.respectTransparency.types false in
/-- THE FIRST REGION as an item of the run. It is entered with every unscoped buffer at the contents after the column
    permutation; its three arrays are taken out of those, the rest bypasses it; the register goes into the region's
    invariant and comes back; at the exit the arrays go back among the unscoped buffers, the output at the product. -/
def mmSeg : RegionSeg (pcfgs (F := F)) adm (regionData m) () defs₀ Variants.none noPairs level0 0 where
  win := launch0.win.to₀
  block_pos := launch0.block_pos
  stage_whole := launch0.stage_whole
  K := PEmpty
  osem k := k.elim
  ho := Pipeline.OwnSemFacts.none _
  hbody c := (mm_body (found0 m) c).loose
  hwaits := Pipeline.hwaits_of_owed_zero _ _ _ _ noPairs level0 0 fun _ _ => rfl
  pre c := iprop(StableHlo.held (c : Thread nD τ) (Pipeline.ucRefs τ sig) (V1 m c) ∗ beside c)
  post c := iprop(StableHlo.held (c : Thread nD τ) (Pipeline.ucRefs τ sig) (V2 m (leaves m) c) ∗ beside c)
  X c := iprop(∃ r, prngReg c r)
  Y c := iprop(∃ r, prngReg c r)
  Z c := Pipeline.unscopedRest (Ix := Unit) (Name := ℕ) (U := UR sig nD τ) (Lvl := ℕ) spec0 c (found0 m c)
  hentry c := by
    rw [Pipeline.ownSems0_none]
    have htake := Pipeline.arrays_of_unscopedBufs (p := 0) (pcfgs (F := F)) adm (regionData m) launch0.win launch0.arr_whole c
      ((regionData m 0 c).share_full fun _ => rfl) (found0 m c) fun _ => rfl
    rw [Pipeline.unscopedBufs_held c (V1 m c)] at htake
    iintro ⟨⟨Hbufs, Hreg, Hdebt⟩, -, -⟩
    ihave Hsplit := htake $$ Hbufs
    icases Hsplit with ⟨Harrs, Hrest⟩
    imodintro
    isplitl [Harrs]; · iexact Harrs
    isplitr
    · unfold Pipeline.prefHeld; rw [show (Finset.univ : Finset (Fin 0)) = ∅ from rfl, BI.bigSep_empty]; iempintro
    isplitl [Hdebt]
    · unfold Pipeline.Dat.owesAt Pipeline.owesWithin
      icases Hdebt with ⟨%W, Hdebt⟩
      iexists W; isplitr; · ipureintro; exact fun _ _ => Or.inl trivial
      iexact Hdebt
    isplitl [Hreg]; · iexact Hreg
    iexact Hrest
  hin c := by
    rw [show (regionData m 0 c).Φ 0 = Pipeline.ΦA spec0 c from rfl]; unfold Pipeline.ΦA
    iintro ⟨Hreg, -, Hscoped⟩
    isplitl [Hscoped]; · iexact Hscoped
    iexact Hreg
  hout c := by
    rw [Pipeline.ownSems0_none, show (regionData m 0 c).Φ (Fin.last _) = Pipeline.ΦA spec0 c from rfl]; unfold Pipeline.ΦA
    iintro ⟨Hscoped, Hreg⟩
    isplitl [Hreg]; · iexact Hreg
    isplitr; · iempintro
    iexact Hscoped
  hexit c := by
    have hback := Pipeline.unscopedBufs_of_arrays (p := 0) (pcfgs (F := F)) adm (Ix := Unit) (Name := ℕ) (U := UR sig nD τ) (Lvl := ℕ)
      launch0.win launch0.arr_whole c (regionData m) ((regionData m 0 c).share_full fun _ => rfl)
      (found0 m c) (fun b : Ref sig .tc => V2 m (leaves m) c b) ((regionData m 0 c).arrAt · cfg0.N) (product_placed m c) (product_elsewhere m c)
    rw [Pipeline.unscopedBufs_held c (V2 m (leaves m) c)] at hback
    iintro ⟨Harrs, Hdebt, Hreg, Hrest⟩
    imodintro
    isplitl [Harrs Hrest]
    · iapply hback; isplitl [Harrs] <;> iassumption
    isplitl [Hreg]; · iexact Hreg
    unfold Pipeline.Dat.owesAt Pipeline.owesWithin
    icases Hdebt with ⟨%W, -, Hdebt⟩
    iexists W; iexact Hdebt

/-- The second region's arrays after its last point: the projected batch untouched under both windows, the output at
    the features. -/
theorem features_placed (c : Dev nD) :
    (regionData m 1 c).arrAt 0 cfg1.N = (fun b : Ref sig .tc => V4 m (leaves m) c b) main_v4
    ∧ (regionData m 1 c).arrAt 1 cfg1.N = (fun b : Ref sig .tc => V4 m (leaves m) c b) main_v4
    ∧ (regionData m 1 c).arrAt 2 cfg1.N = (fun b : Ref sig .tc => V4 m (leaves m) c b) main_v5 := by
  have hkept : V4 m (leaves m) c main_v4 = found1 m c main_v4 :=
    (V4_of m (leaves m) c main_v4 (by decide)).trans (congrFun (found1_eq m c) main_v4)
  refine ⟨?_, ?_, ?_⟩
  · exact (((regionData m 1 c).arrAt_in 0 rfl _).trans (l1Dat_A (found1 m) c 0)).trans hkept.symm
  · exact (((regionData m 1 c).arrAt_in 1 rfl _).trans (l1Dat_A (found1 m) c 1)).trans hkept.symm
  · show features m c = Function.update (V3 m (leaves m) c) main_v5 (leaves m 4 main_v5 c) main_v5
    rw [Function.update_self, leaves_features]

/-- Off the second region's two buffers nothing changes across it. -/
theorem features_elsewhere (c : Dev nD) (b : Ref sig .tc) (hb : b ∉ Finset.univ.image (Pipeline.arrRef spec1)) :
    (fun b : Ref sig .tc => V4 m (leaves m) c b) b = found1 m c b := by
  refine (V4_of m (leaves m) c b fun hmem => hb ?_).trans (congrFun (found1_eq m c) b)
  rw [List.mem_singleton] at hmem
  subst hmem
  exact Finset.mem_image.mpr ⟨2, Finset.mem_univ _, rfl⟩

set_option backward.isDefEq.respectTransparency.types false in
/-- THE SECOND REGION as an item of the run. It is entered with every unscoped buffer at the contents after the reshape
    of the product; the projected batch and the output array are taken out of those, the batch halved between the two
    windows that read it; the register and the scratch go into the region's invariant and come back; at the exit the
    halves are joined and the arrays go back among the unscoped buffers, the output at the features. -/
def l1Seg : RegionSeg (pcfgs (F := F)) adm (regionData m) () defs₀ Variants.none noPairs level0 1 where
  win := winFacts₀1
  block_pos := block_pos1
  stage_whole := stage_whole1
  K := PEmpty
  osem k := k.elim
  ho := Pipeline.OwnSemFacts.none _
  hbody c := (l1_body (found1 m) c).loose
  hwaits := Pipeline.hwaits_of_owed_zero _ _ _ _ noPairs level0 1 fun _ _ => rfl
  pre c := iprop(StableHlo.held (c : Thread nD τ) (Pipeline.ucRefs τ sig) (V3 m (leaves m) c) ∗ beside c)
  post c := iprop(StableHlo.held (c : Thread nD τ) (Pipeline.ucRefs τ sig) (V4 m (leaves m) c) ∗ beside c)
  X c := iprop(∃ r, prngReg c r)
  Y c := iprop(∃ r, prngReg c r)
  Z c := Pipeline.unscopedRest (Ix := Unit) (Name := ℕ) (U := UR sig nD τ) (Lvl := ℕ) spec1 c (found1 m c)
  hentry c := by
    rw [Pipeline.ownSems0_none, found1_eq m c, ← Pipeline.unscopedBufs_held c (V3 m (leaves0 m) c),
      Pipeline.unscopedBufs_split₀ cfgs 1 winFacts₀1.arr_unscoped c (found1 m c)]
    have htake := l1_arrays_split (found1 m) c ((regionData m 1 c).arrAt · 0) rfl rfl rfl
    iintro ⟨⟨⟨Hbufs, Hrest⟩, Hreg, Hdebt⟩, -, -⟩
    ihave Harrs := htake $$ Hbufs
    imodintro
    isplitl [Harrs]; · iexact Harrs
    isplitr
    · unfold Pipeline.prefHeld; rw [show (Finset.univ : Finset (Fin 0)) = ∅ from rfl, BI.bigSep_empty]; iempintro
    isplitl [Hdebt]
    · unfold Pipeline.Dat.owesAt Pipeline.owesWithin
      icases Hdebt with ⟨%W, Hdebt⟩
      iexists W; isplitr; · ipureintro; exact fun _ _ => Or.inl trivial
      iexact Hdebt
    isplitl [Hreg]; · iexact Hreg
    iexact Hrest
  hin c := by
    refine BIBase.Entails.trans ?_ (l1_in (found1 m) c)
    unfold Pipeline.ΦA
    iintro ⟨Hreg, -, Hscoped⟩
    isplitl [Hscoped]; · iexact Hscoped
    iexact Hreg
  hout c := by
    rw [Pipeline.ownSems0_none]
    refine (l1_out (found1 m) c).trans ?_
    unfold Pipeline.ΦA
    iintro ⟨Hscoped, Hreg⟩
    isplitl [Hreg]; · iexact Hreg
    isplitr; · iempintro
    iexact Hscoped
  hexit c := by
    obtain ⟨hq, hk, ho⟩ := features_placed m c
    have hback := l1_arrays_join (found1 m) c ((regionData m 1 c).arrAt · cfg1.N) (fun b : Ref sig .tc => V4 m (leaves m) c b) hq hk ho
    have hrest : (Pipeline.unscopedRest (Ix := Unit) (Name := ℕ) (U := UR sig nD τ) (Lvl := ℕ) spec1 c (found1 m c) : sProp 𝕄)
        = Pipeline.unscopedRest spec1 c (fun b : Ref sig .tc => V4 m (leaves m) c b) := by
      unfold Pipeline.unscopedRest
      exact bigSep_congr fun b hb => by rw [features_elsewhere m c b (Finset.mem_sdiff.mp hb).2]
    rw [← Pipeline.unscopedBufs_held c (V4 m (leaves m) c),
      Pipeline.unscopedBufs_split₀ cfgs 1 winFacts₀1.arr_unscoped c (fun b : Ref sig .tc => V4 m (leaves m) c b), hrest]
    iintro ⟨Harrs, Hdebt, Hreg, Hrest⟩
    imodintro
    isplitl [Harrs Hrest]
    · isplitl [Harrs]
      · iapply hback; iexact Harrs
      iexact Hrest
    isplitl [Hreg]; · iexact Hreg
    unfold Pipeline.Dat.owesAt Pipeline.owesWithin
    icases Hdebt with ⟨%W, -, Hdebt⟩
    iexists W; iexact Hdebt

/-! ## The run -/

/-- The same companion state beside every host stretch. -/
abbrev besides : Fin 3 → Dev nD → sProp 𝕄 := fun _ c => beside c

/-- The program's five items in order: the column permutation, the product, the reshape, the features, the
    concatenation. -/
abbrev items : List (Seg (pcfgs (F := F)) adm (regionData m) () defs₀ Variants.none noPairs level0) :=
  [ .host (seg0 m Variants.none noPairs level0 (besides (F := F))),
    .region (mmSeg m),
    .host (seg2 m (leaves m) Variants.none noPairs level0 (besides (F := F))),
    .region (l1Seg m),
    .host (seg4 m (leaves m) Variants.none noPairs level0 (besides (F := F))) ]

set_option backward.isDefEq.respectTransparency.types false in
/-- THE RUN. From any memory with every counter at zero, every weakly fair execution of the program on the
    TensorCores ends, nothing faulting, with the result array at the concatenation's value over the contents the two
    regions left, and with both argument arrays as they were launched. -/
theorem run_main : θ_run defs (onTc (τ := τ) (main (F := F))) ⟨m, fun _ => 0, ρ⟩ (fun r => ∀ c : Dev nD,
      r.2.mem ((c.tc : Thread nD τ).loc main_v6) = V5 m (leaves m) c main_v6
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (regionData m) () cellOf_inj emb₁ defs₀ Variants.none noPairs level0 m ρ main (items m)
    (fun c Q => by
      rw [main_segs adm (regionData m) () Variants.none noPairs level0
        (seg0 m Variants.none noPairs level0 (besides (F := F))) (seg2 m (leaves m) Variants.none noPairs level0 (besides (F := F)))
        (seg4 m (leaves m) Variants.none noPairs level0 (besides (F := F))) (mmSeg m) (l1Seg m) rfl rfl rfl c])
    (by simp only [items, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ beside c))
    (Tₙ := fun c => iprop(StableHlo.held (c : Thread nD τ) (Pipeline.ucRefs τ sig) (V5 m (leaves m) c) ∗ ∃ r, prngReg c r))
    (hch := ⟨fun _ => .rfl, fun _ => .rfl, fun _ => .rfl, fun _ => .rfl, fun _ => .rfl, fun c => by
      show iprop(StableHlo.held (c : Thread nD τ) (Pipeline.ucRefs τ sig) (V5 m (leaves m) c) ∗ beside c) ⊢ _
      iintro ⟨Hbufs, Hreg, Hdebt⟩
      isplitl [Hbufs Hreg]
      · isplitl [Hbufs]; · iexact Hbufs
        iexact Hreg
      iexact Hdebt⟩)
    (hinit := by
      refine Pipeline.initEach noPairs level0 fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hbufs, -, Hdebt, -, Hreg, -⟩, -⟩
      imodintro
      isplitl [Hbufs]; · iexact Hbufs
      isplitl [Hreg]; · iexists _; iexact Hreg
      iexists ∅; iexact Hdebt)
    (QY := fun c s => s.mem ((c.tc : Thread nD τ).loc main_v6) = V5 m (leaves m) c main_v6
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => by
      unfold StableHlo.held
      iintro ⟨⟨Hbufs, -⟩, HSI⟩
      ihave Hread := (pointsTo_read_all (Pipeline.ucRefs τ sig) (fun b => ((c : Thread nD τ).1, b)) (V5 m (leaves m) c) s') $$ [Hbufs HSI]
      · isplitl [Hbufs] <;> iassumption
      icases Hread with ⟨%h, HSI⟩
      imodintro
      isplitr
      · ipureintro
        exact ⟨h (Proc.devRef .tc main_v6) (Finset.mem_filter.mpr ⟨StableHlo.devRef_mem_tcRefs main_v6, by decide⟩),
          (h (Proc.devRef .tc main_arg0) (Finset.mem_filter.mpr ⟨StableHlo.devRef_mem_tcRefs main_arg0, by decide⟩)).trans (V5_main_arg0 m (leaves m) c),
          (h (Proc.devRef .tc main_arg1) (Finset.mem_filter.mpr ⟨StableHlo.devRef_mem_tcRefs main_arg1, by decide⟩)).trans (V5_main_arg1 m (leaves m) c)⟩
      · iexact HSI)
    (hQ := fun _ h => h)

/-- The frame: the program runs to the end, nothing faulting, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.Kernel.Hand

end
-- ==== Proof.KI.MatmulRegion.lean ====
/-
  The first kernel region: one matrix product per grid point.

  The grid has four points. At point `t` the body reads the whole batch block (128 × 1024, the same at every point) and
  column block `t` of the permuted projection (1024 × 1024), multiplies them into a zero accumulator and stores the
  128 × 1024 product as column block `t` of the region's output. Nothing is carried from one point to the next, so
  what the body leaves in the output's staging buffer at `t` is one function of the two input blocks at `t`.
-/
import proofs.«129731_j48043504173685_1_alg».proof.Proof.Gen.KernelIdeal.Launch
import proofs.«129731_j48043504173685_1_alg».proof.Proof.Gen.KernelIdeal.Skeleton
import proofs.«129731_j48043504173685_1_alg».proof.Proof.Gen.KernelIdeal.Points
import proofs.«129731_j48043504173685_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The contents of a core's buffers as a region finds them. -/
abbrev Vals (F : FTy → Type) : Type := (c : Dev nD) → (b : Ref sig .tc) → Buf (Elt F) ((c : Thread nD τ).loc b)

variable (V : Vals F)

/-- Block `t` of window `w` of the first region, read off the window's array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first region's proof data on core `c`: the arrays as found; after the body at `t` the two inputs' buffers
    still at their blocks and the output's at the product of the two blocks; nothing kept between points. -/
def mmDat (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => k0_pay1 (blk0 V c 0 t) (blk0 V c 1 t)
  Φ _ := Pipeline.ΦA spec0 c
  q _ := fullShare
  owed _ := 0

theorem mmDat_A (c : Dev nD) (w : Fin cfg0.W) : (mmDat V c).A w = V c (Pipeline.arrRef spec0 w) := by
  dsimp only [mmDat]

theorem mmDat_after0 (c : Dev nD) (t : Fin cfg0.N) : (mmDat V c).after 0 t = blk0 V c 0 t := by dsimp only [mmDat]
theorem mmDat_after1 (c : Dev nD) (t : Fin cfg0.N) : (mmDat V c).after 1 t = blk0 V c 1 t := by dsimp only [mmDat]
theorem mmDat_after2 (c : Dev nD) (t : Fin cfg0.N) :
    (mmDat V c).after 2 t = k0_pay1 (blk0 V c 0 t) (blk0 V c 1 t) := by dsimp only [mmDat]

/-! ## The kernel function on any three whole buffers

The body is three loads and one store, each through the rectangle that starts at the origin and has the buffer's own
sizes: such a load reads the buffer's contents, and such a store, covering the buffer, leaves it reading as the
stored value whatever it held. -/

/-- The offsets of a rectangle that starts at the origin, in the two rank-two shapes of this region. -/
theorem origin_128x1024 : (![0, 0] : Fin S128x1024.rank → Nat) = fun _ => 0 :=
  funext fun a => by match a with | ⟨0, _⟩ => rfl | ⟨1, _⟩ => rfl
theorem origin_1024x1024 : (![0, 0] : Fin S1024x1024.rank → Nat) = fun _ => 0 :=
  funext fun a => by match a with | ⟨0, _⟩ => rfl | ⟨1, _⟩ => rfl

/-- A load of the whole 128 × 1024 buffer reads what the buffer reads. -/
theorem load_whole_128x1024 {κ : Kind} {sp : Space} (v : View sig κ sp S128x1024 .f32) (f : v.ty.Contents (Elt F)) :
    v.readAt (Elt F) (Rect.unit (s := S128x1024) ![0, 0] S128x1024.size inb_S128x1024_S128x1024_0_0).toLoadRect f = v.read (Elt F) f := by
  rw [View.readAt_eq_ld]
  exact View.ld_unit_zero origin_128x1024 inb_S128x1024_S128x1024_0_0 (v.read (Elt F) f)

/-- A load of the whole 1024 × 1024 buffer reads what the buffer reads. -/
theorem load_whole_1024x1024 {κ : Kind} {sp : Space} (v : View sig κ sp S1024x1024 .f32) (f : v.ty.Contents (Elt F)) :
    v.readAt (Elt F) (Rect.unit (s := S1024x1024) ![0, 0] S1024x1024.size inb_S1024x1024_S1024x1024_0_0).toLoadRect f = v.read (Elt F) f := by
  rw [View.readAt_eq_ld]
  exact View.ld_unit_zero origin_1024x1024 inb_S1024x1024_S1024x1024_0_0 (v.read (Elt F) f)

/-- The rectangle of the body's one store is all of the 128 × 1024 buffer. -/
theorem store_rect_all (y : S128x1024.Idx) :
    y ∈ (Rect.unit (s := S128x1024) ![0, 0] S128x1024.size inb_S128x1024_S128x1024_0_0).set :=
  View.mem_set_unit_zero (S := S128x1024) origin_128x1024 inb_S128x1024_S128x1024_0_0 y

/-- So that store, alone, covers the buffer; -/
theorem store_covers (w : Vec F S128x1024 .f32) (y : S128x1024.Idx) :
    ∃ p ∈ [(⟨Rect.unit (s := S128x1024) ![0, 0] S128x1024.size inb_S128x1024_S128x1024_0_0, w⟩ : View.Piece (Elt F) S128x1024 .f32)],
      y ∈ p.1.set :=
  ⟨_, List.mem_singleton_self _, store_rect_all y⟩

/-- and whatever the buffer held, after it the buffer reads as what was stored. -/
theorem store_whole_128x1024 {κ : Kind} {sp : Space} (v : View sig κ sp S128x1024 .f32) (f : v.ty.Contents (Elt F))
    (w : Vec F S128x1024 .f32) :
    v.read (Elt F) (v.writes (Elt F) f
      [(⟨Rect.unit (s := S128x1024) ![0, 0] S128x1024.size inb_S128x1024_S128x1024_0_0, w⟩ : View.Piece (Elt F) S128x1024 .f32)]) = w := by
  rw [View.read_writes_eq_canon v f _ (store_covers w)]
  exact View.canon_unit_zero origin_128x1024 inb_S128x1024_S128x1024_0_0 w

/-- The kernel function on any three whole buffers: with the first two reading `x0` and `x1` and the third at anything,
    it leaves the first two as they were and the third reading the product `k0_pay1 x0 x1`; whatever else is held
    (`R`) is untouched. -/
theorem matmul_kernel_triple (c : Dev nD) (i : grid0.Coords)
    (M0 : Memref sig .tc .vmem S128x1024 .f32) (h0 : M0.IsWhole)
    (M1 : Memref sig .tc .vmem S1024x1024 .f32) (h1 : M1.IsWhole)
    (M2 : Memref sig .tc .vmem S128x1024 .f32) (h2 : M2.IsWhole)
    (x0 : Vec F S128x1024 .f32) (x1 : Vec F S1024x1024 .f32) (y : Vec F S128x1024 .f32) (R : sProp 𝕄) :
    iprop(R ∗ owns c M0 fullShare x0 ∗ owns c M1 fullShare x1 ∗ owns c M2 fullShare y)
      ⊢ wp frame (wpE (defs₀ (F := F)) Variants.none c none) Set.univ (cc0__matmul_kernel i M0 h0 M1 h1 M2 h2)
          fun _ => iprop(R ∗ owns c M0 fullShare x0 ∗ owns c M1 fullShare x1 ∗ owns c M2 fullShare (k0_pay1 x0 x1)) := by
  simp only [cc0__matmul_kernel_eq_skeleton]
  unfold cc0__matmul_kernel_skel
  unfold owns
  iintro ⟨HR, ⟨%f0, %e0, H0⟩, ⟨%f1, %e1, H1⟩, ⟨%f2, %e2, H2⟩⟩
  sl_exec
  sl_step
  isplitl [HR]
  · iexact HR
  isplitl [H0]
  · iexists f0; isplitr
    · ipureintro; exact e0
    · iexact H0
  isplitl [H1]
  · iexists f1; isplitr
    · ipureintro; exact e1
    · iexact H1
  iexists _; isplitr
  swap
  · iexact H2
  · ipureintro
    refine (store_whole_128x1024 M2.view f2 _).trans ?_
    exact congrArg₂ k0_pay1 ((load_whole_128x1024 M0.view f0).trans e0) ((load_whole_1024x1024 M1.view f1).trans e1)

/-! ## What the body finds in the two inputs' buffers

Neither input's block is cut at its array's end, so a fetch fills the whole staging buffer with the block and the
body, which only reads it, hands the whole block on. An input not fetched at a point kept its block index from the
point before; so at every point, fetched there or not, the buffer holds the array's block of that point. -/

/-- No block of the first region is cut at its array's end: a fetch replaces the whole staging buffer. -/
theorem fetch_fills0 (i : grid0.Coords) (d g : S128x1024.Idx → Elt F .f32) : (cfg0.win 0).fill i d g = g := rfl
theorem fetch_fills1 (i : grid0.Coords) (d g : S1024x1024.Idx → Elt F .f32) : (cfg0.win 1).fill i d g = g := rfl

/-- The block of an input's array at a point, in the proof data's words, is the block read off the array as found. -/
theorem blockOf_eq_blk0 (c : Dev nD) (w : Fin cfg0.W) (t : Fin cfg0.N) : (mmDat V c).blockOf w t = blk0 V c w t := by
  unfold Dat.blockOf blk0
  rw [mmDat_A]

/-- The batch block is brought in at the first point only, yet the body finds it in its buffer at every point:
    the body leaves the buffer as it was (all of the buffer is what a transfer moves), and the block's index never moves. -/
theorem batch_found (c : Dev nD) (t : Fin cfg0.N) (d : (cfg0.win 0).block.Idx → Elt F (cfg0.win 0).elt) :
    (mmDat V c).before 0 t d = blk0 V c 0 t := by
  refine (Dat.before_in_eq_fetched (mmDat V c) 0 rfl (fun _ => rfl) (fun _ _ _ => rfl) (fun s => ?_) t d).trans ?_
  · rw [mmDat_after0, blockOf_eq_blk0]
  · unfold Dat.fetched
    rw [blockOf_eq_blk0]
    exact fetch_fills0 (cfg0.grid.coords t) d (blk0 V c 0 t)

/-- The projection's column block is brought in afresh at every point. -/
theorem proj_found (c : Dev nD) (t : Fin cfg0.N) (d : (cfg0.win 1).block.Idx → Elt F (cfg0.win 1).elt) :
    (mmDat V c).before 1 t d = blk0 V c 1 t := by
  refine (Dat.before_in_eq_fetched (mmDat V c) 1 rfl (fun _ => rfl) (fun _ _ _ => rfl) (fun s => ?_) t d).trans ?_
  · rw [mmDat_after1, blockOf_eq_blk0]
  · unfold Dat.fetched
    rw [blockOf_eq_blk0]
    exact fetch_fills1 (cfg0.grid.coords t) d (blk0 V c 1 t)

/-! ## The obligation at a point -/

/-- The invariant and what the core owes are the same before and after every point: the body keeps nothing. -/
theorem inv_const (c : Dev nD) (t : Fin cfg0.N) : (mmDat V c).Φ t.succ = (mmDat V c).Φ t.castSucc := by
  dsimp only [mmDat]
theorem owes_const (c : Dev nD) (t : Fin cfg0.N) : (mmDat V c).owesAt () t.succ = (mmDat V c).owesAt () t.castSucc := by
  unfold Dat.owesAt Dat.bound
  dsimp only [mmDat]

/-- The obligation at point `t`, its three windows written out over the point's staging memrefs: the kernel function's
    triple at the two input blocks of the point, the invariant and the owes carried along untouched. -/
theorem mm_point (c : Dev nD) (t : Fin cfg0.N) :
    iprop((mmDat V c).Φ t.castSucc ∗ (mmDat V c).owesAt () t.castSucc
        ∗ (∃ d, owns c (st0_0 t) fullShare ((mmDat V c).before 0 t d))
        ∗ (∃ d, owns c (st0_1 t) fullShare ((mmDat V c).before 1 t d))
        ∗ (∃ d, owns c (st0_2 t) fullShare ((mmDat V c).before 2 t d)))
      ⊢ wp frame (wpE (defs₀ (F := F)) Variants.none c none) Set.univ (bodyAt0 (F := F) t) fun _ =>
          iprop((mmDat V c).Φ t.succ ∗ (mmDat V c).owesAt () t.succ
            ∗ owns c (st0_0 t) fullShare ((mmDat V c).after 0 t)
            ∗ owns c (st0_1 t) fullShare ((mmDat V c).after 1 t)
            ∗ owns c (st0_2 t) fullShare ((mmDat V c).after 2 t)) := by
  rw [mmDat_after0, mmDat_after1, mmDat_after2, inv_const, owes_const]
  iintro ⟨HΦ, Ho, ⟨%d0, H0⟩, ⟨%d1, H1⟩, ⟨%d2, H2⟩⟩
  rw [batch_found V c t d0, proj_found V c t d1]
  have run := (matmul_kernel_triple (F := F) c (grid0.coords t)
      (win0_0.stage (cfg0.slots t 0)) (hstage0_0 ((cfg0.slots t 0).cast nbuf0_0))
      (win0_1.stage (cfg0.slots t 1)) (hstage0_1 ((cfg0.slots t 1).cast nbuf0_1))
      (win0_2.stage (cfg0.slots t 2)) (hstage0_2 ((cfg0.slots t 2).cast nbuf0_2))
      (blk0 V c 0 t) (blk0 V c 1 t) ((mmDat V c).before 2 t d2)
      iprop((mmDat V c).Φ t.castSucc ∗ (mmDat V c).owesAt () t.castSucc)).trans
    (wp_mono frame _ Set.univ fun _ => Idealize.SL.BI.sep_assoc)
  iapply run
  isplitl [HΦ Ho]
  · isplitl [HΦ]
    · iexact HΦ
    · iexact Ho
  isplitl [H0]
  · iexact H0
  isplitl [H1]
  · iexact H1
  iexact H2

/-- At every point the body, handed the region's invariant and each window's current buffer, leaves the inputs as they
    were and the output's buffer at the product of the two input blocks. -/
theorem mm_body (c : Dev nD) : BodyObligation (mmDat (F := F) V c) (defs₀ (F := F)) Variants.none () Set.univ :=
  fun t => by
    rw [bigSep_W0, bigSep_W0]
    exact mm_point V c t

end Cert.KernelIdeal.Hand

end
-- ==== Proof.KI.L1Region.lean ====
/-
  The second kernel region: pairwise similarities accumulated over tiles of the batch.

  The grid is 8 × 4: point `t` is row tile `t / 4` (16 rows of the batch) against column tile `t % 4` (32 rows of the
  batch). The body keeps a 16 × 128 accumulator in a scratch buffer: where `t % 4 = 0` it first resets it to zero; at
  every point it adds the tile's partial sums (`k1_pay2`: the 32 similarities of each of its 16 rows to the column
  tile's rows, per output feature); where `t % 4 = 3` it stores the accumulator less one (`k1_pay3`) into the
  output's staging buffer, which the pipeline writes back there and nowhere else. Both input windows read one array,
  the projected batch, so each holds half of the share of it.
-/
import proofs.«129731_j48043504173685_1_alg».proof.Proof.Gen.KernelIdeal.Launch
import proofs.«129731_j48043504173685_1_alg».proof.Proof.Gen.KernelIdeal.Skeleton
import proofs.«129731_j48043504173685_1_alg».proof.Proof.Gen.KernelIdeal.Points
import proofs.«129731_j48043504173685_1_alg».proof.Proof.Gen.KernelIdeal.Regions
import proofs.«129731_j48043504173685_1_alg».proof.Proof.KI.MatmulRegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Whole-buffer accesses

Every access of the body goes through the rectangle that is its whole buffer, at offsets written as literal zeros. -/

/-- The literal offsets are zero on every axis. -/
theorem zeros2 : (![0, 0] : Fin S16x128.rank → ℕ) = fun _ => 0 := by
  funext a; fin_cases a <;> rfl
theorem zeros3_row : (![0, 0, 0] : Fin S16x32x128.rank → ℕ) = fun _ => 0 := by
  funext a; fin_cases a <;> rfl
theorem zeros3_col : (![0, 0, 0] : Fin S32x32x128.rank → ℕ) = fun _ => 0 := by
  funext a; fin_cases a <;> rfl

section Whole

variable {κ : Kind} {sp : Space}

/-- A load of the row tile's whole buffer reads what the buffer reads. -/
theorem load_rowTile (v : View sig κ sp S16x32x128 .f32) (f : v.ty.Contents (Elt F)) :
    v.readAt (Elt F) (Rect.unit (s := S16x32x128) ![0, 0, 0] S16x32x128.size inb_S16x32x128_S16x32x128_0_0_0).toLoadRect f
      = v.read (Elt F) f := by
  rw [View.readAt_eq_ld, View.ld_unit_zero (S := S16x32x128) zeros3_row]

/-- A load of the column tile's whole buffer reads what the buffer reads. -/
theorem load_colTile (v : View sig κ sp S32x32x128 .f32) (f : v.ty.Contents (Elt F)) :
    v.readAt (Elt F) (Rect.unit (s := S32x32x128) ![0, 0, 0] S32x32x128.size inb_S32x32x128_S32x32x128_0_0_0).toLoadRect f
      = v.read (Elt F) f := by
  rw [View.readAt_eq_ld, View.ld_unit_zero (S := S32x32x128) zeros3_col]

/-- A load of a whole 16 × 128 buffer (the accumulator, the output's staging buffer) reads what the buffer reads. -/
theorem load_acc (v : View sig κ sp S16x128 .f32) (f : v.ty.Contents (Elt F)) :
    v.readAt (Elt F) (Rect.unit (s := S16x128) ![0, 0] S16x128.size inb_S16x128_S16x128_0_0).toLoadRect f = v.read (Elt F) f := by
  rw [View.readAt_eq_ld, View.ld_unit_zero (S := S16x128) zeros2]

/-- After a store of the whole 16 × 128 buffer, whatever was stored or held before, the buffer reads what was stored. -/
theorem read_stored_acc (v : View sig κ sp S16x128 .f32) (f : v.ty.Contents (Elt F)) (w : Vec F S16x128 .f32)
    (L : List (View.Piece (Elt F) S16x128 .f32)) :
    v.read (Elt F) (v.writes (Elt F) f
        ((⟨Rect.unit (s := S16x128) ![0, 0] S16x128.size inb_S16x128_S16x128_0_0, w⟩ : View.Piece (Elt F) S16x128 .f32) :: L)) = w := by
  rw [View.read_writes_eq_canon _ _ _ (fun y => ⟨_, List.mem_cons_self, View.mem_set_unit_zero zeros2 inb_S16x128_S16x128_0_0 y⟩),
    View.canon_cons_unit_zero (S := S16x128) zeros2]

/-- A load of the whole buffer right after one store of the whole buffer reads what was stored. -/
theorem load_stored_acc (v : View sig κ sp S16x128 .f32) (w : Vec F S16x128 .f32) :
    v.readCov [(⟨Rect.unit (s := S16x128) ![0, 0] S16x128.size inb_S16x128_S16x128_0_0, w⟩ : View.Piece (Elt F) S16x128 .f32)]
        (Rect.unit (s := S16x128) ![0, 0] S16x128.size inb_S16x128_S16x128_0_0).toLoadRect = w :=
  View.readCov_unit_zero (S := S16x128) v zeros2 inb_S16x128_S16x128_0_0 w

end Whole

/-! ## The body's three runs

The body's two conditions split the grid's points three ways. Each run is stated over any whole buffers, with the
accumulator left at its mathematical value. -/

/-- Where a row tile begins and the output is not stored: the accumulator, whatever it held, is left at the tile's
    partial sums over zero; the three staging buffers are left as found. -/
theorem run_reset (c : Dev nD) (i : grid1.Coords)
    (hc0 : Scalar.cmpi .ne (Scalar.extui (Scalar.cmpi .eq (BitVec.ofNat 32 (i 1).val) 0#32)) 0#32 = 1#1)
    (hc1 : ¬ k1_cond2 i = 1#1)
    (M0 : Memref sig .tc .vmem S16x32x128 .f32) (h0 : M0.IsWhole) (M1 : Memref sig .tc .vmem S32x32x128 .f32) (h1 : M1.IsWhole)
    (M2 : Memref sig .tc .vmem S16x128 .f32) (h2 : M2.IsWhole) (M3 : Memref sig .tc .vmem S16x128 .f32) (h3 : M3.IsWhole)
    (X0 : Vec F S16x32x128 .f32) (X1 : Vec F S32x32x128 .f32) (Y : Vec F S16x128 .f32) (S : Vec F S16x128 .f32)
    (E : Set ℕ) (Q : PUnit → sProp 𝕄) :
    iprop(owns (c : Thread nD τ) M0 fullShare X0 ∗ owns (c : Thread nD τ) M1 fullShare X1 ∗ owns (c : Thread nD τ) M2 fullShare Y
        ∗ owns (c : Thread nD τ) M3 fullShare S
        ∗ (iprop(owns (c : Thread nD τ) M0 fullShare X0 ∗ owns (c : Thread nD τ) M1 fullShare X1 ∗ owns (c : Thread nD τ) M2 fullShare Y
            ∗ owns (c : Thread nD τ) M3 fullShare (k1_pay2 X0 X1 (k1_pay1 (F := F)))) -∗ Q ⟨⟩))
      ⊢ wp frame (wpE (defs₀ (F := F)) Variants.none c none) E (cc1__l1_kernel i M0 h0 M1 h1 M2 h2 M3 h3) Q := by
  simp only [cc1__l1_kernel_eq_skeleton]
  unfold cc1__l1_kernel_skel
  unfold owns
  iintro ⟨⟨%f0, %e0, H0⟩, ⟨%f1, %e1, H1⟩, ⟨%f2, %e2, H2⟩, ⟨%f3, %e3, H3⟩, Hk⟩
  sl_exec (disch := first | exact hc0 | exact hc1)
  sl_step
  iapply Hk
  isplitl [H0]; · iexists f0; isplitr; (· ipureintro; exact e0); iexact H0
  isplitl [H1]; · iexists f1; isplitr; (· ipureintro; exact e1); iexact H1
  isplitl [H2]; · iexists f2; isplitr; (· ipureintro; exact e2); iexact H2
  iexists _; isplitr; swap; (· iexact H3)
  ipureintro
  sl_unfold_words
  rw [read_stored_acc, load_rowTile, load_colTile, load_stored_acc, e0, e1]

/-- Inside a row tile, before its last point: the accumulator at `S` is left at the tile's partial sums over `S`; the
    three staging buffers are left as found. -/
theorem run_step (c : Dev nD) (i : grid1.Coords)
    (hc0 : ¬ Scalar.cmpi .ne (Scalar.extui (Scalar.cmpi .eq (BitVec.ofNat 32 (i 1).val) 0#32)) 0#32 = 1#1)
    (hc1 : ¬ k1_cond2 i = 1#1)
    (M0 : Memref sig .tc .vmem S16x32x128 .f32) (h0 : M0.IsWhole) (M1 : Memref sig .tc .vmem S32x32x128 .f32) (h1 : M1.IsWhole)
    (M2 : Memref sig .tc .vmem S16x128 .f32) (h2 : M2.IsWhole) (M3 : Memref sig .tc .vmem S16x128 .f32) (h3 : M3.IsWhole)
    (X0 : Vec F S16x32x128 .f32) (X1 : Vec F S32x32x128 .f32) (Y : Vec F S16x128 .f32) (S : Vec F S16x128 .f32)
    (E : Set ℕ) (Q : PUnit → sProp 𝕄) :
    iprop(owns (c : Thread nD τ) M0 fullShare X0 ∗ owns (c : Thread nD τ) M1 fullShare X1 ∗ owns (c : Thread nD τ) M2 fullShare Y
        ∗ owns (c : Thread nD τ) M3 fullShare S
        ∗ (iprop(owns (c : Thread nD τ) M0 fullShare X0 ∗ owns (c : Thread nD τ) M1 fullShare X1 ∗ owns (c : Thread nD τ) M2 fullShare Y
            ∗ owns (c : Thread nD τ) M3 fullShare (k1_pay2 X0 X1 S)) -∗ Q ⟨⟩))
      ⊢ wp frame (wpE (defs₀ (F := F)) Variants.none c none) E (cc1__l1_kernel i M0 h0 M1 h1 M2 h2 M3 h3) Q := by
  simp only [cc1__l1_kernel_eq_skeleton]
  unfold cc1__l1_kernel_skel
  unfold owns
  iintro ⟨⟨%f0, %e0, H0⟩, ⟨%f1, %e1, H1⟩, ⟨%f2, %e2, H2⟩, ⟨%f3, %e3, H3⟩, Hk⟩
  sl_exec (disch := first | exact hc0 | exact hc1)
  sl_step
  iapply Hk
  isplitl [H0]; · iexists f0; isplitr; (· ipureintro; exact e0); iexact H0
  isplitl [H1]; · iexists f1; isplitr; (· ipureintro; exact e1); iexact H1
  isplitl [H2]; · iexists f2; isplitr; (· ipureintro; exact e2); iexact H2
  iexists _; isplitr; swap; (· iexact H3)
  ipureintro
  sl_unfold_words
  rw [read_stored_acc, load_rowTile, load_colTile, load_acc, e0, e1, e3]

/-- At a row tile's last point: the accumulator at `S` is left at the tile's partial sums over `S`, and the output's
    staging buffer, whatever it held, at that value less one; the inputs' buffers are left as found. -/
theorem run_last (c : Dev nD) (i : grid1.Coords)
    (hc0 : ¬ Scalar.cmpi .ne (Scalar.extui (Scalar.cmpi .eq (BitVec.ofNat 32 (i 1).val) 0#32)) 0#32 = 1#1)
    (hc1 : k1_cond2 i = 1#1)
    (M0 : Memref sig .tc .vmem S16x32x128 .f32) (h0 : M0.IsWhole) (M1 : Memref sig .tc .vmem S32x32x128 .f32) (h1 : M1.IsWhole)
    (M2 : Memref sig .tc .vmem S16x128 .f32) (h2 : M2.IsWhole) (M3 : Memref sig .tc .vmem S16x128 .f32) (h3 : M3.IsWhole)
    (X0 : Vec F S16x32x128 .f32) (X1 : Vec F S32x32x128 .f32) (Y : Vec F S16x128 .f32) (S : Vec F S16x128 .f32)
    (E : Set ℕ) (Q : PUnit → sProp 𝕄) :
    iprop(owns (c : Thread nD τ) M0 fullShare X0 ∗ owns (c : Thread nD τ) M1 fullShare X1 ∗ owns (c : Thread nD τ) M2 fullShare Y
        ∗ owns (c : Thread nD τ) M3 fullShare S
        ∗ (iprop(owns (c : Thread nD τ) M0 fullShare X0 ∗ owns (c : Thread nD τ) M1 fullShare X1 ∗ owns (c : Thread nD τ) M2 fullShare (k1_pay3 (k1_pay2 X0 X1 S))
            ∗ owns (c : Thread nD τ) M3 fullShare (k1_pay2 X0 X1 S)) -∗ Q ⟨⟩))
      ⊢ wp frame (wpE (defs₀ (F := F)) Variants.none c none) E (cc1__l1_kernel i M0 h0 M1 h1 M2 h2 M3 h3) Q := by
  simp only [cc1__l1_kernel_eq_skeleton]
  unfold cc1__l1_kernel_skel
  unfold owns
  iintro ⟨⟨%f0, %e0, H0⟩, ⟨%f1, %e1, H1⟩, ⟨%f2, %e2, H2⟩, ⟨%f3, %e3, H3⟩, Hk⟩
  sl_exec (disch := first | exact hc0 | exact hc1)
  sl_step
  iapply Hk
  isplitl [H0]; · iexists f0; isplitr; (· ipureintro; exact e0); iexact H0
  isplitl [H1]; · iexists f1; isplitr; (· ipureintro; exact e1); iexact H1
  isplitl [H2]
  · iexists _; isplitr; swap; (· iexact H2)
    ipureintro
    sl_unfold_words
    rw [read_stored_acc, load_stored_acc, load_rowTile, load_colTile, load_acc, e0, e1, e3]
  iexists _; isplitr; swap; (· iexact H3)
  ipureintro
  sl_unfold_words
  rw [read_stored_acc, load_rowTile, load_colTile, load_acc, e0, e1, e3]

/-! ## The body's two conditions and the output's schedule, over the grid -/

/-- The first condition holds exactly where a row tile begins. -/
theorem resets_iff : ∀ t : Fin cfg1.N,
    Scalar.cmpi .ne (Scalar.extui (Scalar.cmpi .eq (BitVec.ofNat 32 ((grid1.coords t) 1).val) 0#32)) 0#32 = 1#1 ↔ t.val % 4 = 0 :=
  (by decide +kernel : ∀ t : Fin grid1.N,
    Scalar.cmpi .ne (Scalar.extui (Scalar.cmpi .eq (BitVec.ofNat 32 ((grid1.coords t) 1).val) 0#32)) 0#32 = 1#1 ↔ t.val % 4 = 0)

/-- The second condition holds exactly at a row tile's last point. -/
theorem stores_iff : ∀ t : Fin cfg1.N, k1_cond2 (grid1.coords t) = 1#1 ↔ t.val % 4 = 3 :=
  (by decide +kernel : ∀ t : Fin grid1.N, k1_cond2 (grid1.coords t) = 1#1 ↔ t.val % 4 = 3)

/-- The output's window is idle exactly off a row tile's last point. -/
theorem out_idle_iff : ∀ t : Fin cfg1.N, cfg1.idle 2 (cfg1.grid.coords t) = true ↔ ¬ t.val % 4 = 3 :=
  (by decide +kernel : ∀ t : Fin grid1.N, idle1 2 (grid1.coords t) = true ↔ ¬ t.val % 4 = 3)

/-! ## The proof data -/

variable (V : Vals F)

/-- Block `t` of window `w` of the second region, read off the window's array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator's memref: the region's one scratch buffer, whole. -/
abbrev accRef : Memref sig .tc .vmem S16x128 .f32 := Memref.whole cc1_scratch0

/-- THE ACCUMULATION. What the scratch holds after the body at position `n`: the tile's partial sums added to zero
    where a row tile begins (`n % 4 = 0`), to what the point before left otherwise. -/
def accAt (c : Dev nD) : (n : ℕ) → n < cfg1.N → Vec F S16x128 .f32
  | 0, hn => k1_pay2 (blk1 V c 0 ⟨0, hn⟩) (blk1 V c 1 ⟨0, hn⟩) (k1_pay1 (F := F))
  | n + 1, hn =>
    if (n + 1) % 4 = 0 then k1_pay2 (blk1 V c 0 ⟨n + 1, hn⟩) (blk1 V c 1 ⟨n + 1, hn⟩) (k1_pay1 (F := F))
    else k1_pay2 (blk1 V c 0 ⟨n + 1, hn⟩) (blk1 V c 1 ⟨n + 1, hn⟩) (accAt c n (Nat.lt_of_succ_lt hn))

/-- At the first point of a row tile the accumulator is the tile's partial sums over zero. -/
theorem accAt_reset (c : Dev nD) (t : Fin cfg1.N) (h : t.val % 4 = 0) :
    accAt V c t.val t.isLt = k1_pay2 (blk1 V c 0 t) (blk1 V c 1 t) (k1_pay1 (F := F)) := by
  obtain ⟨n, hn⟩ := t
  cases n with
  | zero => rfl
  | succ n =>
    show accAt V c (n + 1) hn = _
    rw [accAt, if_pos h]

/-- At any other point it is the tile's partial sums over what the point before left. -/
theorem accAt_step (c : Dev nD) (t : Fin cfg1.N) (h : ¬ t.val % 4 = 0) :
    accAt V c t.val t.isLt
      = k1_pay2 (blk1 V c 0 t) (blk1 V c 1 t) (accAt V c (t.val - 1) (Nat.lt_of_le_of_lt (Nat.sub_le _ _) t.isLt)) := by
  obtain ⟨n, hn⟩ := t
  cases n with
  | zero => exact absurd rfl h
  | succ n =>
    show accAt V c (n + 1) hn = _
    rw [accAt, if_neg h]
    rfl

/-- The first region's staging buffers, which this region never touches: each whole at some contents. -/
def idleBufs (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The region's invariant before position `n`: before the first point every scoped buffer that is no staging buffer
    of this region at anything (the class's `ΦA`); afterwards the same with the accumulator at what the point before
    left in it. -/
def accInv (c : Dev nD) : (n : ℕ) → n ≤ cfg1.N → sProp 𝕄
  | 0, _ => Pipeline.ΦA spec1 c
  | n + 1, hn => iprop(idleBufs (F := F) c ∗ owns (c : Thread nD τ) accRef fullShare (accAt V c n hn) ∗ (∃ r, prngReg c r))

/-- Once a point has run the invariant is the first region's staging buffers, the accumulator at what the point
    before left in it, and the register. -/
theorem accInv_after (c : Dev nD) (n m : ℕ) (hn : n ≤ cfg1.N) (e : n = m + 1) :
    accInv V c n hn
      = iprop(idleBufs (F := F) c ∗ owns (c : Thread nD τ) accRef fullShare (accAt V c m (by omega)) ∗ (∃ r, prngReg c r)) := by
  subst e; rw [accInv]

/-- The second region's proof data on core `c`: the arrays as found; after the body at `t` the two inputs' buffers
    still at their blocks and the output's at the accumulator less one (consulted only where `t % 4 = 3`, the one
    place the body stores it and the pipeline writes it back); the invariant carrying the accumulator; the projected
    batch's share halved between the two windows that read it. -/
def l1Dat (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => k1_pay3 (accAt V c t.val t.isLt)
  Φ t := accInv V c t.val (Nat.le_of_lt_succ t.isLt)
  q w := match w with
    | ⟨0, _⟩ => (fullShare : PosShare TreeShare).left
    | ⟨1, _⟩ => (fullShare : PosShare TreeShare).right
    | ⟨2, _⟩ => fullShare
  owed _ := 0

theorem l1Dat_A (c : Dev nD) (w : Fin cfg1.W) : (l1Dat V c).A w = V c (Pipeline.arrRef spec1 w) := by
  dsimp only [l1Dat]

theorem l1Dat_after0 (c : Dev nD) (t : Fin cfg1.N) : (l1Dat V c).after 0 t = blk1 V c 0 t := by dsimp only [l1Dat]
theorem l1Dat_after1 (c : Dev nD) (t : Fin cfg1.N) : (l1Dat V c).after 1 t = blk1 V c 1 t := by dsimp only [l1Dat]
theorem l1Dat_after2 (c : Dev nD) (t : Fin cfg1.N) :
    (l1Dat V c).after 2 t = k1_pay3 (accAt V c t.val t.isLt) := by dsimp only [l1Dat]

theorem l1Dat_q0 (c : Dev nD) : (l1Dat V c).q 0 = (fullShare : PosShare TreeShare).left := by dsimp only [l1Dat]
theorem l1Dat_q1 (c : Dev nD) : (l1Dat V c).q 1 = (fullShare : PosShare TreeShare).right := by dsimp only [l1Dat]

/-- Whatever the point, the invariant before it holds the accumulator at something. -/
theorem accInv_forget (c : Dev nD) (n : ℕ) (hn : n ≤ cfg1.N) :
    accInv V c n hn
      ⊢ iprop(idleBufs (F := F) c ∗ (∃ S, owns (c : Thread nD τ) accRef fullShare S) ∗ (∃ r, prngReg c r)) := by
  cases n with
  | zero =>
    rw [accInv]; unfold Pipeline.ΦA idleBufs; rw [scopedRest1_eq]
    iintro ⟨⟨H0, H1, H2, H3, H4, ⟨%f, Hs⟩⟩, Hr⟩
    isplitr [Hs Hr]
    · isplitl [H0]; · iexact H0
      isplitl [H1]; · iexact H1
      isplitl [H2]; · iexact H2
      isplitl [H3]; · iexact H3
      iexact H4
    isplitl [Hs]; · iexists f; rw [owns_whole]; iexact Hs
    iexact Hr
  | succ n =>
    rw [accInv]
    iintro ⟨Hi, Ha, Hr⟩
    isplitl [Hi]; · iexact Hi
    isplitl [Ha]; · iexists _; iexact Ha
    iexact Hr

/-- The row tile's window holds its block at every point, fetched there or not: the body leaves it in place. -/
theorem l1_before0 (c : Dev nD) (t : Fin cfg1.N) (d : (cfg1.win 0).block.Idx → Elt F (cfg1.win 0).elt) :
    (l1Dat V c).before 0 t d = blk1 V c 0 t :=
  ((l1Dat V c).before_in_eq_fetched 0 rfl (fun _ => rfl) (fun _ _ _ => rfl)
    (fun t => by rw [l1Dat_after0]; unfold Dat.blockOf blk1; rw [l1Dat_A]) t d).trans rfl

/-- So does the column tile's. -/
theorem l1_before1 (c : Dev nD) (t : Fin cfg1.N) (d : (cfg1.win 1).block.Idx → Elt F (cfg1.win 1).elt) :
    (l1Dat V c).before 1 t d = blk1 V c 1 t :=
  ((l1Dat V c).before_in_eq_fetched 1 rfl (fun _ => rfl) (fun _ _ _ => rfl)
    (fun t => by rw [l1Dat_after1]; unfold Dat.blockOf blk1; rw [l1Dat_A]) t d).trans rfl

/-- Where the body stores the output the obligation asks its buffer at the accumulator less one. -/
theorem l1_leaves_stored (c : Dev nD) (t : Fin cfg1.N) (hi : cfg1.idle 2 (cfg1.grid.coords t) = false) :
    (l1Dat V c).leavesExact 2 t
      = owns (c : Thread nD τ) (st1_2 t) fullShare (k1_pay3 (accAt V c t.val t.isLt)) := by
  unfold Dat.leavesExact; rw [hi, l1Dat_after2]

/-- The obligation at one point, its windows written out: from the invariant and the three current buffers the body
    runs to the next invariant, the inputs at their blocks and the output's buffer at what the schedule asks. -/
theorem l1_point (c : Dev nD) (t : Fin cfg1.N) :
    (iprop(accInv V c t.val (Nat.le_of_lt t.isLt) ∗ (l1Dat V c).owesAt () t.castSucc
        ∗ (∃ d, owns (c : Thread nD τ) (st1_0 t) fullShare ((l1Dat V c).before 0 t d))
        ∗ (∃ d, owns (c : Thread nD τ) (st1_1 t) fullShare ((l1Dat V c).before 1 t d))
        ∗ (∃ d, owns (c : Thread nD τ) (st1_2 t) fullShare ((l1Dat V c).before 2 t d))) : sProp 𝕄)
      ⊢ wp frame (wpE (defs₀ (F := F)) Variants.none c none) Set.univ (bodyAt1 (F := F) t) fun _ =>
          iprop(accInv V c (t.val + 1) t.isLt ∗ (l1Dat V c).owesAt () t.succ
            ∗ owns (c : Thread nD τ) (st1_0 t) fullShare (blk1 V c 0 t)
            ∗ owns (c : Thread nD τ) (st1_1 t) fullShare (blk1 V c 1 t)
            ∗ (l1Dat V c).leavesExact 2 t) := by
  have hst0 : (st1_0 t).IsWhole := hstage1_0 ((cfg1.slots t 0).cast nbuf1_0)
  have hst1 : (st1_1 t).IsWhole := hstage1_1 ((cfg1.slots t 1).cast nbuf1_1)
  have hst2 : (st1_2 t).IsWhole := hstage1_2 ((cfg1.slots t 2).cast nbuf1_2)
  by_cases h0 : t.val % 4 = 0
  · have hc0 := (resets_iff t).mpr h0
    have hc1 : ¬ k1_cond2 (grid1.coords t) = 1#1 := fun h => absurd ((stores_iff t).mp h) (by omega)
    have hi : cfg1.idle 2 (cfg1.grid.coords t) = true := (out_idle_iff t).mpr (by omega)
    have hf : (cfg1.win 2).flush t = false := by
      rw [← Bool.not_eq_true]; exact fun h => absurd ((flush1_2 t).mp h) (by omega)
    rw [Dat.leavesExact_idle _ 2 t hi hf, accInv_after V c (t.val + 1) t.val _ rfl, accAt_reset V c t h0]
    simp only [l1_before0 V c t, l1_before1 V c t]
    iintro ⟨HΦ, Howes, ⟨%d0, H0⟩, ⟨%d1, H1⟩, ⟨%d2, H2⟩⟩
    ihave ⟨Hi, ⟨%S, Ha⟩, Hr⟩ := (accInv_forget V c t.val _) $$ HΦ
    iapply (run_reset c (grid1.coords t) hc0 hc1 (st1_0 t) hst0 (st1_1 t) hst1 (st1_2 t) hst2 accRef (Memref.isWhole_whole _)
      (blk1 V c 0 t) (blk1 V c 1 t) ((l1Dat V c).before 2 t d2) S Set.univ _)
    isplitl [H0]; · iexact H0
    isplitl [H1]; · iexact H1
    isplitl [H2]; · iexact H2
    isplitl [Ha]; · iexact Ha
    iintro ⟨H0, H1, H2, Ha⟩
    isplitl [Hi Ha Hr]
    · isplitl [Hi]; · iexact Hi
      isplitl [Ha]; · iexact Ha
      iexact Hr
    isplitl [Howes]; · iexact Howes
    isplitl [H0]; · iexact H0
    isplitl [H1]; · iexact H1
    iexists d2; iexact H2
  · have hc0 : ¬ Scalar.cmpi .ne (Scalar.extui (Scalar.cmpi .eq (BitVec.ofNat 32 ((grid1.coords t) 1).val) 0#32)) 0#32 = 1#1 :=
      fun h => h0 ((resets_iff t).mp h)
    by_cases h3 : t.val % 4 = 3
    · have hc1 := (stores_iff t).mpr h3
      have hi : cfg1.idle 2 (cfg1.grid.coords t) = false := by
        rw [← Bool.not_eq_true]; exact fun h => (out_idle_iff t).mp h h3
      rw [l1_leaves_stored V c t hi, accInv_after V c t.val (t.val - 1) _ (by omega), accInv_after V c (t.val + 1) t.val _ rfl,
        accAt_step V c t h0]
      simp only [l1_before0 V c t, l1_before1 V c t]
      iintro ⟨⟨Hi, Ha, Hr⟩, Howes, ⟨%d0, H0⟩, ⟨%d1, H1⟩, ⟨%d2, H2⟩⟩
      iapply (run_last c (grid1.coords t) hc0 hc1 (st1_0 t) hst0 (st1_1 t) hst1 (st1_2 t) hst2 accRef (Memref.isWhole_whole _)
        (blk1 V c 0 t) (blk1 V c 1 t) ((l1Dat V c).before 2 t d2)
        (accAt V c (t.val - 1) (Nat.lt_of_le_of_lt (Nat.sub_le _ _) t.isLt)) Set.univ _)
      isplitl [H0]; · iexact H0
      isplitl [H1]; · iexact H1
      isplitl [H2]; · iexact H2
      isplitl [Ha]; · iexact Ha
      iintro ⟨H0, H1, H2, Ha⟩
      isplitl [Hi Ha Hr]
      · isplitl [Hi]; · iexact Hi
        isplitl [Ha]; · iexact Ha
        iexact Hr
      isplitl [Howes]; · iexact Howes
      isplitl [H0]; · iexact H0
      isplitl [H1]; · iexact H1
      iexact H2
    · have hc1 : ¬ k1_cond2 (grid1.coords t) = 1#1 := fun h => h3 ((stores_iff t).mp h)
      have hi : cfg1.idle 2 (cfg1.grid.coords t) = true := (out_idle_iff t).mpr h3
      have hf : (cfg1.win 2).flush t = false := by
        rw [← Bool.not_eq_true]; exact fun h => h3 ((flush1_2 t).mp h)
      rw [Dat.leavesExact_idle _ 2 t hi hf, accInv_after V c t.val (t.val - 1) _ (by omega),
        accInv_after V c (t.val + 1) t.val _ rfl, accAt_step V c t h0]
      simp only [l1_before0 V c t, l1_before1 V c t]
      iintro ⟨⟨Hi, Ha, Hr⟩, Howes, ⟨%d0, H0⟩, ⟨%d1, H1⟩, ⟨%d2, H2⟩⟩
      iapply (run_step c (grid1.coords t) hc0 hc1 (st1_0 t) hst0 (st1_1 t) hst1 (st1_2 t) hst2 accRef (Memref.isWhole_whole _)
        (blk1 V c 0 t) (blk1 V c 1 t) ((l1Dat V c).before 2 t d2)
        (accAt V c (t.val - 1) (Nat.lt_of_le_of_lt (Nat.sub_le _ _) t.isLt)) Set.univ _)
      isplitl [H0]; · iexact H0
      isplitl [H1]; · iexact H1
      isplitl [H2]; · iexact H2
      isplitl [Ha]; · iexact Ha
      iintro ⟨H0, H1, H2, Ha⟩
      isplitl [Hi Ha Hr]
      · isplitl [Hi]; · iexact Hi
        isplitl [Ha]; · iexact Ha
        iexact Hr
      isplitl [Howes]; · iexact Howes
      isplitl [H0]; · iexact H0
      isplitl [H1]; · iexact H1
      iexists d2; iexact H2

/-- At every point the body, handed the invariant (the accumulator at what the point before left, or at anything at
    the very first point) and each window's current buffer, leaves the inputs as they were, the accumulator at this
    point's value, and the output's buffer at the accumulator less one where it stores it and untouched elsewhere. -/
theorem l1_body (c : Dev nD) : BodyObligation (l1Dat (F := F) V c) (defs₀ (F := F)) Variants.none () Set.univ := fun t => by
  rw [bigSep_W1, bigSep_W1]
  exact l1_point V c t

/-- What the region is entered with is the invariant before the first point. -/
theorem l1_in (c : Dev nD) : (Pipeline.ΦA spec1 c : sProp 𝕄) ⊢ (l1Dat V c).Φ 0 := by
  show (Pipeline.ΦA spec1 c : sProp 𝕄) ⊢ accInv V c 0 (Nat.zero_le _)
  rw [accInv]

/-- After the last point the invariant gives back what the region was entered with: the accumulator's value is forgotten. -/
theorem l1_out (c : Dev nD) : (l1Dat V c).Φ (Fin.last cfg1.N) ⊢ (Pipeline.ΦA spec1 c : sProp 𝕄) := by
  show accInv V c cfg1.N (Nat.le_refl _) ⊢ _
  rw [accInv_after V c cfg1.N 31 _ N_1]
  unfold Pipeline.ΦA idleBufs
  rw [scopedRest1_eq, owns_whole]
  iintro ⟨⟨H0, H1, H2, H3, H4⟩, Hacc, Hr⟩
  isplitr [Hr]; swap; (· iexact Hr)
  isplitl [H0]; · iexact H0
  isplitl [H1]; · iexact H1
  isplitl [H2]; · iexact H2
  isplitl [H3]; · iexact H3
  isplitl [H4]; · iexact H4
  iexists _; iexact Hacc

end Cert.KernelIdeal.Hand

end
-- ==== Proof.KI.Launch.lean ====
/-
  The whole program as a run: three stretches of host operations around the two kernel regions.

  The host first permutes the projection's columns (two reshapes around a transposition) so that the first region's
  product comes out with the 32 components of each feature 128 columns apart; the first region computes that product;
  a reshape reads it as (row, component, feature); the second region turns it into the 128 × 128 feature array; a
  concatenation puts the batch and the features side by side. Between two items a core's buffers hold the launch
  contents pushed through the host stretches so far, with each region's output array at what that region's
  write-backs left in it. Here those two arrays are named, the regions are entered from and left at exactly those
  contents, and the run is read at its end: the result array and both arguments.
-/
import proofs.«129731_j48043504173685_1_alg».proof.Proof.Gen.KernelIdeal.Launch
import proofs.«129731_j48043504173685_1_alg».proof.Proof.Gen.KernelIdeal.Skeleton
import proofs.«129731_j48043504173685_1_alg».proof.Proof.Gen.KernelIdeal.Points
import proofs.«129731_j48043504173685_1_alg».proof.Proof.Gen.KernelIdeal.Regions
import proofs.«129731_j48043504173685_1_alg».proof.Proof.KI.L1Region
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (RegionSeg HostSeg Seg)

/-! ## One array behind two windows -/

section SharedArray

variable (V : Vals F)

/-- The second region's two input windows hold the two halves of the projected batch's share; its output the whole. -/
theorem l1_share0 (c : Dev nD) : (l1Dat V c).share 0 = (fullShare : PosShare TreeShare).left := by
  unfold Dat.share; rw [if_neg (by decide)]; exact l1Dat_q0 V c
theorem l1_share1 (c : Dev nD) : (l1Dat V c).share 1 = (fullShare : PosShare TreeShare).right := by
  unfold Dat.share; rw [if_neg (by decide)]; exact l1Dat_q1 V c
theorem l1_share2 (c : Dev nD) : (l1Dat V c).share 2 = fullShare := by
  unfold Dat.share; rw [if_pos (by decide)]

/-- The two buffers behind the second region's three arrays, spelt out. -/
theorem l1_buffers_eq (c : Dev nD) (V' : (b : Ref sig .tc) → Buf (Elt F) ((c.tc : Thread nD τ).loc b)) :
    (Pipeline.arrBufs spec1 c V' : sProp 𝕄)
      = iprop(((c.tc : Thread nD τ).loc main_v4 ↦{fullShare} V' main_v4) ∗ ((c.tc : Thread nD τ).loc main_v5 ↦{fullShare} V' main_v5)) := by
  unfold Pipeline.arrBufs
  rw [show (Finset.univ.image (Pipeline.arrRef spec1)) = ({main_v4, main_v5} : Finset (Ref sig .tc)) from by decide,
    BI.bigSep_insert (by decide : main_v4 ∉ ({main_v5} : Finset (Ref sig .tc))), BI.bigSep_singleton]
  rfl

/-- ENTERING. The two buffers behind the second region's three arrays, each whole at the full share, make the region's
    arrays: the projected batch is split in halves, one for each window that reads it. -/
theorem l1_arrays_split (c : Dev nD) (G : (w : Fin cfg1.W) → Buf (Elt F) ((cfg1.win w).arr.view.loc (c.tc : Thread nD τ)))
    (h0 : G 0 = V c main_v4) (h1 : G 1 = V c main_v4) (h2 : G 2 = V c main_v5) :
    (Pipeline.arrBufs spec1 c (V c) : sProp 𝕄) ⊢ (l1Dat V c).arrays G := by
  rw [l1_buffers_eq]
  unfold Dat.arrays
  rw [bigSep_W1]
  rw [l1_share0, l1_share1, l1_share2, h0, h1, h2]
  rw [(arr_whole1 0).set_eq_univ, (arr_whole1 2).set_eq_univ]
  iintro ⟨Hbatch, Hout⟩
  ihave Hhalves := (pointsTo_share (PosShare.mem_left_op_right fullShare)).1 $$ Hbatch
  icases Hhalves with ⟨Hleft, Hright⟩
  isplitl [Hleft]; · iexact Hleft
  isplitl [Hright]; · iexact Hright
  iexact Hout

/-- LEAVING. The region's arrays, the two windows on the projected batch holding the same contents, make the two
    buffers whole again: the halves are joined. -/
theorem l1_arrays_join (c : Dev nD) (G : (w : Fin cfg1.W) → Buf (Elt F) ((cfg1.win w).arr.view.loc (c.tc : Thread nD τ)))
    (V' : (b : Ref sig .tc) → Buf (Elt F) ((c.tc : Thread nD τ).loc b))
    (h0 : G 0 = V' main_v4) (h1 : G 1 = V' main_v4) (h2 : G 2 = V' main_v5) :
    (l1Dat V c).arrays G ⊢ (Pipeline.arrBufs spec1 c V' : sProp 𝕄) := by
  rw [l1_buffers_eq]
  unfold Dat.arrays
  rw [bigSep_W1]
  rw [l1_share0, l1_share1, l1_share2, h0, h1, h2]
  rw [(arr_whole1 0).set_eq_univ, (arr_whole1 2).set_eq_univ]
  iintro ⟨Hleft, Hright, Hout⟩
  isplitl [Hleft Hright]
  · iapply (pointsTo_share (PosShare.mem_left_op_right fullShare)).2
    isplitl [Hleft]; · iexact Hleft
    iexact Hright
  iexact Hout

end SharedArray

variable (m : (ℓ : Loc nD τ sig) → Buf (Elt F) ℓ) (ρ : Dev nD → PrngReg)

/-! ## What the regions find and what they leave -/

/-- What the first region finds: the launch contents after the column permutation. -/
abbrev found0 : Vals F := fun c b => V1 m c b

/-- What the first region leaves in its output array: the four write-backs folded. -/
def product (c : Dev nD) : Buf (Elt F) ((c : Thread nD τ).loc main_v3) := (mmDat (found0 m) c).arrAt 2 cfg0.N

/-- The contents the regions leave, the first region's only: enough to say what the second region finds. -/
def leaves0 : Outs (F := F) := fun _ r c => if h : r = main_v3 then h ▸ product m c else m ((c : Thread nD τ).loc r)

/-- What the second region finds: the product read as (row, component, feature), everything else as before. -/
abbrev found1 : Vals F := fun c b => V3 m (leaves0 m) c b

/-- What the second region leaves in its output array: the eight write-backs folded. -/
def features (c : Dev nD) : Buf (Elt F) ((c : Thread nD τ).loc main_v5) := (l1Dat (found1 m) c).arrAt 2 cfg1.N

/-- The contents both regions leave. -/
def leaves : Outs (F := F) := fun n r c => if h : r = main_v5 then h ▸ features m c else leaves0 m n r c

theorem leaves0_product (n : ℕ) (c : Dev nD) : leaves0 m n main_v3 c = product m c := by
  unfold leaves0; rw [dif_pos rfl]

theorem leaves_product (n : ℕ) (c : Dev nD) : leaves m n main_v3 c = product m c := by
  unfold leaves; rw [dif_neg (by decide)]; exact leaves0_product m n c

theorem leaves_features (n : ℕ) (c : Dev nD) : leaves m n main_v5 c = features m c := by
  unfold leaves; rw [dif_pos rfl]

/-- The second region finds the same whether or not its own output is named yet: its entry contents read the first
    region's output only. -/
theorem found1_eq (c : Dev nD) : V3 m (leaves m) c = V3 m (leaves0 m) c := by
  show StableHlo.after hostOps1 (Function.update (V1 m c) main_v3 (leaves m 2 main_v3 c))
    = StableHlo.after hostOps1 (Function.update (V1 m c) main_v3 (leaves0 m 2 main_v3 c))
  rw [leaves_product, leaves0_product]

/-! ## The proof data of both regions -/

/-- Each region's proof data at what it finds: a literal match on the region, so that the launch's configuration at a
    numeral reduces to the printed one. -/
def regionData : (p : Fin 2) → (c : Dev nD) → Dat τ (Elt F) Unit ℕ (UR sig nD τ) ℕ (Pipeline.pin (pcfgs (F := F)) adm p) c
  | ⟨0, _⟩ => fun c => mmDat (found0 m) c
  | ⟨1, _⟩ => fun c => l1Dat (found1 m) c

/-! ## The thread state between items -/

/-- What rides beside the buffers from item to item: the core's generator register at some state, and nothing owed. -/
abbrev beside (c : Dev nD) : sProp 𝕄 :=
  iprop((∃ r, prngReg c r) ∗ ∃ W, owes (c : Thread nD τ) (0 : CellTallies nD τ sig Unit) W)

/-- No core owes another anything here, so no level is ever assigned. -/
abbrev noPairs : GSem nD τ sig → Finset Unit := fun _ => ∅
abbrev level0 : GSem nD τ sig → Unit → ℕ := fun _ _ => 0

/-- The first region's output array after its last point is what `leaves` names; its two input arrays are untouched. -/
theorem product_placed (c : Dev nD) (w : Fin cfg0.W) :
    (regionData m 0 c).arrAt w cfg0.N = (fun b : Ref sig .tc => V2 m (leaves m) c b) (Pipeline.arrRef spec0 w) := by
  match w with
  | ⟨0, _⟩ =>
    refine ((regionData m 0 c).arrAt_in 0 rfl _).trans ?_
    exact (mmDat_A (found0 m) c 0).trans (V2_of m (leaves m) c main_arg0 (by decide)).symm
  | ⟨1, _⟩ =>
    refine ((regionData m 0 c).arrAt_in 1 rfl _).trans ?_
    exact (mmDat_A (found0 m) c 1).trans (V2_of m (leaves m) c main_v2 (by decide)).symm
  | ⟨2, _⟩ =>
    show product m c = Function.update (V1 m c) main_v3 (leaves m 2 main_v3 c) main_v3
    rw [Function.update_self, leaves_product]

/-- Off the first region's three arrays nothing changes across it. -/
theorem product_elsewhere (c : Dev nD) (b : Ref sig .tc) (hb : b ∉ Finset.univ.image (Pipeline.arrRef spec0)) :
    (fun b : Ref sig .tc => V2 m (leaves m) c b) b = found0 m c b := by
  refine V2_of m (leaves m) c b fun hmem => hb ?_
  rw [List.mem_singleton] at hmem
  subst hmem
  exact Finset.mem_image.mpr ⟨2, Finset.mem_univ _, rfl⟩

set_option backward.isDefEq.respectTransparency.types false in
/-- THE FIRST REGION as an item of the run. It is entered with every unscoped buffer at the contents after the column
    permutation; its three arrays are taken out of those, the rest bypasses it; the register goes into the region's
    invariant and comes back; at the exit the arrays go back among the unscoped buffers, the output at the product. -/
def mmSeg : RegionSeg (pcfgs (F := F)) adm (regionData m) () defs₀ Variants.none noPairs level0 0 where
  win := launch0.win.to₀
  block_pos := launch0.block_pos
  stage_whole := launch0.stage_whole
  K := PEmpty
  osem k := k.elim
  ho := Pipeline.OwnSemFacts.none _
  hbody c := (mm_body (found0 m) c).loose
  hwaits := Pipeline.hwaits_of_owed_zero _ _ _ _ noPairs level0 0 fun _ _ => rfl
  pre c := iprop(StableHlo.held (c : Thread nD τ) (Pipeline.ucRefs τ sig) (V1 m c) ∗ beside c)
  post c := iprop(StableHlo.held (c : Thread nD τ) (Pipeline.ucRefs τ sig) (V2 m (leaves m) c) ∗ beside c)
  X c := iprop(∃ r, prngReg c r)
  Y c := iprop(∃ r, prngReg c r)
  Z c := Pipeline.unscopedRest (Ix := Unit) (Name := ℕ) (U := UR sig nD τ) (Lvl := ℕ) spec0 c (found0 m c)
  hentry c := by
    rw [Pipeline.ownSems0_none]
    have htake := Pipeline.arrays_of_unscopedBufs (p := 0) (pcfgs (F := F)) adm (regionData m) launch0.win launch0.arr_whole c
      ((regionData m 0 c).share_full fun _ => rfl) (found0 m c) fun _ => rfl
    rw [Pipeline.unscopedBufs_held c (V1 m c)] at htake
    iintro ⟨⟨Hbufs, Hreg, Hdebt⟩, -, -⟩
    ihave Hsplit := htake $$ Hbufs
    icases Hsplit with ⟨Harrs, Hrest⟩
    imodintro
    isplitl [Harrs]; · iexact Harrs
    isplitr
    · unfold Pipeline.prefHeld; rw [show (Finset.univ : Finset (Fin 0)) = ∅ from rfl, BI.bigSep_empty]; iempintro
    isplitl [Hdebt]
    · unfold Pipeline.Dat.owesAt Pipeline.owesWithin
      icases Hdebt with ⟨%W, Hdebt⟩
      iexists W; isplitr; · ipureintro; exact fun _ _ => Or.inl trivial
      iexact Hdebt
    isplitl [Hreg]; · iexact Hreg
    iexact Hrest
  hin c := by
    rw [show (regionData m 0 c).Φ 0 = Pipeline.ΦA spec0 c from rfl]; unfold Pipeline.ΦA
    iintro ⟨Hreg, -, Hscoped⟩
    isplitl [Hscoped]; · iexact Hscoped
    iexact Hreg
  hout c := by
    rw [Pipeline.ownSems0_none, show (regionData m 0 c).Φ (Fin.last _) = Pipeline.ΦA spec0 c from rfl]; unfold Pipeline.ΦA
    iintro ⟨Hscoped, Hreg⟩
    isplitl [Hreg]; · iexact Hreg
    isplitr; · iempintro
    iexact Hscoped
  hexit c := by
    have hback := Pipeline.unscopedBufs_of_arrays (p := 0) (pcfgs (F := F)) adm (Ix := Unit) (Name := ℕ) (U := UR sig nD τ) (Lvl := ℕ)
      launch0.win launch0.arr_whole c (regionData m) ((regionData m 0 c).share_full fun _ => rfl)
      (found0 m c) (fun b : Ref sig .tc => V2 m (leaves m) c b) ((regionData m 0 c).arrAt · cfg0.N) (product_placed m c) (product_elsewhere m c)
    rw [Pipeline.unscopedBufs_held c (V2 m (leaves m) c)] at hback
    iintro ⟨Harrs, Hdebt, Hreg, Hrest⟩
    imodintro
    isplitl [Harrs Hrest]
    · iapply hback; isplitl [Harrs] <;> iassumption
    isplitl [Hreg]; · iexact Hreg
    unfold Pipeline.Dat.owesAt Pipeline.owesWithin
    icases Hdebt with ⟨%W, -, Hdebt⟩
    iexists W; iexact Hdebt

/-- The second region's arrays after its last point: the projected batch untouched under both windows, the output at
    the features. -/
theorem features_placed (c : Dev nD) :
    (regionData m 1 c).arrAt 0 cfg1.N = (fun b : Ref sig .tc => V4 m (leaves m) c b) main_v4
    ∧ (regionData m 1 c).arrAt 1 cfg1.N = (fun b : Ref sig .tc => V4 m (leaves m) c b) main_v4
    ∧ (regionData m 1 c).arrAt 2 cfg1.N = (fun b : Ref sig .tc => V4 m (leaves m) c b) main_v5 := by
  have hkept : V4 m (leaves m) c main_v4 = found1 m c main_v4 :=
    (V4_of m (leaves m) c main_v4 (by decide)).trans (congrFun (found1_eq m c) main_v4)
  refine ⟨?_, ?_, ?_⟩
  · exact (((regionData m 1 c).arrAt_in 0 rfl _).trans (l1Dat_A (found1 m) c 0)).trans hkept.symm
  · exact (((regionData m 1 c).arrAt_in 1 rfl _).trans (l1Dat_A (found1 m) c 1)).trans hkept.symm
  · show features m c = Function.update (V3 m (leaves m) c) main_v5 (leaves m 4 main_v5 c) main_v5
    rw [Function.update_self, leaves_features]

/-- Off the second region's two buffers nothing changes across it. -/
theorem features_elsewhere (c : Dev nD) (b : Ref sig .tc) (hb : b ∉ Finset.univ.image (Pipeline.arrRef spec1)) :
    (fun b : Ref sig .tc => V4 m (leaves m) c b) b = found1 m c b := by
  refine (V4_of m (leaves m) c b fun hmem => hb ?_).trans (congrFun (found1_eq m c) b)
  rw [List.mem_singleton] at hmem
  subst hmem
  exact Finset.mem_image.mpr ⟨2, Finset.mem_univ _, rfl⟩

set_option backward.isDefEq.respectTransparency.types false in
/-- THE SECOND REGION as an item of the run. It is entered with every unscoped buffer at the contents after the reshape
    of the product; the projected batch and the output array are taken out of those, the batch halved between the two
    windows that read it; the register and the scratch go into the region's invariant and come back; at the exit the
    halves are joined and the arrays go back among the unscoped buffers, the output at the features. -/
def l1Seg : RegionSeg (pcfgs (F := F)) adm (regionData m) () defs₀ Variants.none noPairs level0 1 where
  win := winFacts₀1
  block_pos := block_pos1
  stage_whole := stage_whole1
  K := PEmpty
  osem k := k.elim
  ho := Pipeline.OwnSemFacts.none _
  hbody c := (l1_body (found1 m) c).loose
  hwaits := Pipeline.hwaits_of_owed_zero _ _ _ _ noPairs level0 1 fun _ _ => rfl
  pre c := iprop(StableHlo.held (c : Thread nD τ) (Pipeline.ucRefs τ sig) (V3 m (leaves m) c) ∗ beside c)
  post c := iprop(StableHlo.held (c : Thread nD τ) (Pipeline.ucRefs τ sig) (V4 m (leaves m) c) ∗ beside c)
  X c := iprop(∃ r, prngReg c r)
  Y c := iprop(∃ r, prngReg c r)
  Z c := Pipeline.unscopedRest (Ix := Unit) (Name := ℕ) (U := UR sig nD τ) (Lvl := ℕ) spec1 c (found1 m c)
  hentry c := by
    rw [Pipeline.ownSems0_none, found1_eq m c, ← Pipeline.unscopedBufs_held c (V3 m (leaves0 m) c),
      Pipeline.unscopedBufs_split₀ cfgs 1 winFacts₀1.arr_unscoped c (found1 m c)]
    have htake := l1_arrays_split (found1 m) c ((regionData m 1 c).arrAt · 0) rfl rfl rfl
    iintro ⟨⟨⟨Hbufs, Hrest⟩, Hreg, Hdebt⟩, -, -⟩
    ihave Harrs := htake $$ Hbufs
    imodintro
    isplitl [Harrs]; · iexact Harrs
    isplitr
    · unfold Pipeline.prefHeld; rw [show (Finset.univ : Finset (Fin 0)) = ∅ from rfl, BI.bigSep_empty]; iempintro
    isplitl [Hdebt]
    · unfold Pipeline.Dat.owesAt Pipeline.owesWithin
      icases Hdebt with ⟨%W, Hdebt⟩
      iexists W; isplitr; · ipureintro; exact fun _ _ => Or.inl trivial
      iexact Hdebt
    isplitl [Hreg]; · iexact Hreg
    iexact Hrest
  hin c := by
    refine BIBase.Entails.trans ?_ (l1_in (found1 m) c)
    unfold Pipeline.ΦA
    iintro ⟨Hreg, -, Hscoped⟩
    isplitl [Hscoped]; · iexact Hscoped
    iexact Hreg
  hout c := by
    rw [Pipeline.ownSems0_none]
    refine (l1_out (found1 m) c).trans ?_
    unfold Pipeline.ΦA
    iintro ⟨Hscoped, Hreg⟩
    isplitl [Hreg]; · iexact Hreg
    isplitr; · iempintro
    iexact Hscoped
  hexit c := by
    obtain ⟨hq, hk, ho⟩ := features_placed m c
    have hback := l1_arrays_join (found1 m) c ((regionData m 1 c).arrAt · cfg1.N) (fun b : Ref sig .tc => V4 m (leaves m) c b) hq hk ho
    have hrest : (Pipeline.unscopedRest (Ix := Unit) (Name := ℕ) (U := UR sig nD τ) (Lvl := ℕ) spec1 c (found1 m c) : sProp 𝕄)
        = Pipeline.unscopedRest spec1 c (fun b : Ref sig .tc => V4 m (leaves m) c b) := by
      unfold Pipeline.unscopedRest
      exact bigSep_congr fun b hb => by rw [features_elsewhere m c b (Finset.mem_sdiff.mp hb).2]
    rw [← Pipeline.unscopedBufs_held c (V4 m (leaves m) c),
      Pipeline.unscopedBufs_split₀ cfgs 1 winFacts₀1.arr_unscoped c (fun b : Ref sig .tc => V4 m (leaves m) c b), hrest]
    iintro ⟨Harrs, Hdebt, Hreg, Hrest⟩
    imodintro
    isplitl [Harrs Hrest]
    · isplitl [Harrs]
      · iapply hback; iexact Harrs
      iexact Hrest
    isplitl [Hreg]; · iexact Hreg
    unfold Pipeline.Dat.owesAt Pipeline.owesWithin
    icases Hdebt with ⟨%W, -, Hdebt⟩
    iexists W; iexact Hdebt

/-! ## The run -/

/-- The same companion state beside every host stretch. -/
abbrev besides : Fin 3 → Dev nD → sProp 𝕄 := fun _ c => beside c

/-- The program's five items in order: the column permutation, the product, the reshape, the features, the
    concatenation. -/
abbrev items : List (Seg (pcfgs (F := F)) adm (regionData m) () defs₀ Variants.none noPairs level0) :=
  [ .host (seg0 m Variants.none noPairs level0 (besides (F := F))),
    .region (mmSeg m),
    .host (seg2 m (leaves m) Variants.none noPairs level0 (besides (F := F))),
    .region (l1Seg m),
    .host (seg4 m (leaves m) Variants.none noPairs level0 (besides (F := F))) ]

set_option backward.isDefEq.respectTransparency.types false in
/-- THE RUN. From any memory with every counter at zero, every weakly fair execution of the program on the
    TensorCores ends, nothing faulting, with the result array at the concatenation's value over the contents the two
    regions left, and with both argument arrays as they were launched. -/
theorem run_main : θ_run defs (onTc (τ := τ) (main (F := F))) ⟨m, fun _ => 0, ρ⟩ (fun r => ∀ c : Dev nD,
      r.2.mem ((c.tc : Thread nD τ).loc main_v6) = V5 m (leaves m) c main_v6
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (regionData m) () cellOf_inj emb₁ defs₀ Variants.none noPairs level0 m ρ main (items m)
    (fun c Q => by
      rw [main_segs adm (regionData m) () Variants.none noPairs level0
        (seg0 m Variants.none noPairs level0 (besides (F := F))) (seg2 m (leaves m) Variants.none noPairs level0 (besides (F := F)))
        (seg4 m (leaves m) Variants.none noPairs level0 (besides (F := F))) (mmSeg m) (l1Seg m) rfl rfl rfl c])
    (by simp only [items, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ beside c))
    (Tₙ := fun c => iprop(StableHlo.held (c : Thread nD τ) (Pipeline.ucRefs τ sig) (V5 m (leaves m) c) ∗ ∃ r, prngReg c r))
    (hch := ⟨fun _ => .rfl, fun _ => .rfl, fun _ => .rfl, fun _ => .rfl, fun _ => .rfl, fun c => by
      show iprop(StableHlo.held (c : Thread nD τ) (Pipeline.ucRefs τ sig) (V5 m (leaves m) c) ∗ beside c) ⊢ _
      iintro ⟨Hbufs, Hreg, Hdebt⟩
      isplitl [Hbufs Hreg]
      · isplitl [Hbufs]; · iexact Hbufs
        iexact Hreg
      iexact Hdebt⟩)
    (hinit := by
      refine Pipeline.initEach noPairs level0 fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hbufs, -, Hdebt, -, Hreg, -⟩, -⟩
      imodintro
      isplitl [Hbufs]; · iexact Hbufs
      isplitl [Hreg]; · iexists _; iexact Hreg
      iexists ∅; iexact Hdebt)
    (QY := fun c s => s.mem ((c.tc : Thread nD τ).loc main_v6) = V5 m (leaves m) c main_v6
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => by
      unfold StableHlo.held
      iintro ⟨⟨Hbufs, -⟩, HSI⟩
      ihave Hread := (pointsTo_read_all (Pipeline.ucRefs τ sig) (fun b => ((c : Thread nD τ).1, b)) (V5 m (leaves m) c) s') $$ [Hbufs HSI]
      · isplitl [Hbufs] <;> iassumption
      icases Hread with ⟨%h, HSI⟩
      imodintro
      isplitr
      · ipureintro
        exact ⟨h (Proc.devRef .tc main_v6) (Finset.mem_filter.mpr ⟨StableHlo.devRef_mem_tcRefs main_v6, by decide⟩),
          (h (Proc.devRef .tc main_arg0) (Finset.mem_filter.mpr ⟨StableHlo.devRef_mem_tcRefs main_arg0, by decide⟩)).trans (V5_main_arg0 m (leaves m) c),
          (h (Proc.devRef .tc main_arg1) (Finset.mem_filter.mpr ⟨StableHlo.devRef_mem_tcRefs main_arg1, by decide⟩)).trans (V5_main_arg1 m (leaves m) c)⟩
      · iexact HSI)
    (hQ := fun _ h => h)

/-- The frame: the program runs to the end, nothing faulting, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.KernelIdeal.Hand

end
-- ==== Proof.KI.MatmulValue.lean ====
/-
  What the first region leaves in its output array, at the ideal instance: the matrix product of the batch with the
  permuted projection, entry by entry. Point `t` of the grid writes back column block `t` (columns `1024·t … 1024·t + 1023`),
  whose entry `(p, q')` is the sum over `k` of the batch's `(p, k)` times the projection block's `(k, q')`; the four blocks
  tile the 4096 columns, so the array after the last point is the whole product.
-/
import proofs.«129731_j48043504173685_1_alg».proof.Proof.KI.MatmulRegion
import Idealize.ShloMosaic.Lib.ValueIdx
import Idealize.ShloMosaic.Lib.Pipeline.Value
import Idealize.ShloMosaic.PureOps.Ideal.Laws
set_option maxRecDepth 16384

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

/-- The product's left operand is read at the output's row: axis 0 of the left index is axis 0 of the output index. -/
theorem mmLeft_row (i : S128x1024.Idx) (r : dot_S128x1024_S1024x1024_S128x1024_1_0_0_1_n_n.contr.Idx) :
    (dot_S128x1024_S1024x1024_S128x1024_1_0_0_1_n_n.lhsIdx i r 0).val = (i 0).val := by
  unfold DotDims.lhsIdx
  rw [dif_neg (show ¬(0 : Fin S128x1024.rank) ∈ dot_S128x1024_S1024x1024_S128x1024_1_0_0_1_n_n.lhsBatch by decide),
    dif_pos (show (0 : Fin S128x1024.rank) ∈ dot_S128x1024_S1024x1024_S128x1024_1_0_0_1_n_n.lhsNonContracting by decide)]
  rfl

/-- … and at the summation position along its columns. -/
theorem mmLeft_col (i : S128x1024.Idx) (r : dot_S128x1024_S1024x1024_S128x1024_1_0_0_1_n_n.contr.Idx) :
    (dot_S128x1024_S1024x1024_S128x1024_1_0_0_1_n_n.lhsIdx i r 1).val = (r ⟨0, by decide⟩).val :=
  dot_S128x1024_S1024x1024_S128x1024_1_0_0_1_n_n.lhsIdx_val_of_single rfl i r

/-- The right operand is read at the summation position along its rows … -/
theorem mmRight_row (i : S128x1024.Idx) (r : dot_S128x1024_S1024x1024_S128x1024_1_0_0_1_n_n.contr.Idx) :
    (dot_S128x1024_S1024x1024_S128x1024_1_0_0_1_n_n.rhsIdx i r 0).val = (r ⟨0, by decide⟩).val :=
  dot_S128x1024_S1024x1024_S128x1024_1_0_0_1_n_n.rhsIdx_val_of_single rfl i r

/-- … and at the output's column. -/
theorem mmRight_col (i : S128x1024.Idx) (r : dot_S128x1024_S1024x1024_S128x1024_1_0_0_1_n_n.contr.Idx) :
    (dot_S128x1024_S1024x1024_S128x1024_1_0_0_1_n_n.rhsIdx i r 1).val = (i 1).val := by
  unfold DotDims.rhsIdx
  rw [dif_neg (show ¬(1 : Fin S1024x1024.rank) ∈ dot_S128x1024_S1024x1024_S128x1024_1_0_0_1_n_n.rhsBatch by decide),
    dif_pos (show (1 : Fin S1024x1024.rank) ∈ dot_S128x1024_S1024x1024_S128x1024_1_0_0_1_n_n.rhsNonContracting by decide)]
  rfl

/-- Position `k` of the summation, as an index of the product's one-axis summation range. -/
abbrev sumPos (k : Fin 1024) : dot_S128x1024_S1024x1024_S128x1024_1_0_0_1_n_n.contr.Idx :=
  (contrEquiv1 dot_S128x1024_S1024x1024_S128x1024_1_0_0_1_n_n 1024 rfl rfl).symm k

/-- At entry `(p, q)` and summation position `k` the left operand is read at `(p, k)`. -/
theorem mmLeft_at (p : Fin 128) (q k : Fin 1024) :
    dot_S128x1024_S1024x1024_S128x1024_1_0_0_1_n_n.lhsIdx (ix2 p q) (sumPos k) = ix2 p k :=
  funext fun a => Fin.ext (by
    match a with
    | ⟨0, _⟩ => exact mmLeft_row _ _
    | ⟨1, _⟩ => exact (mmLeft_col _ _).trans (contrEquiv1_symm_val dot_S128x1024_S1024x1024_S128x1024_1_0_0_1_n_n 1024 rfl rfl k))

/-- … and the right operand at `(k, q)`. -/
theorem mmRight_at (p : Fin 128) (q k : Fin 1024) :
    dot_S128x1024_S1024x1024_S128x1024_1_0_0_1_n_n.rhsIdx (ix2 p q) (sumPos k) = ix2 k q :=
  funext fun a => Fin.ext (by
    match a with
    | ⟨0, _⟩ => exact (mmRight_row _ _).trans (contrEquiv1_symm_val dot_S128x1024_S1024x1024_S128x1024_1_0_0_1_n_n 1024 rfl rfl k)
    | ⟨1, _⟩ => exact mmRight_col _ _)

/-- One entry of what a grid point computes: row `p` of the batch block against column `q` of the projection block.
    Over the extended reals the two narrowings to bf16 change nothing, the cast of the projection block to its own
    shape changes nothing, and the accumulator the product starts from is zero. -/
theorem blockProduct_apply (x0 : Vec Ideal S128x1024 .f32) (x1 : Vec Ideal S1024x1024 .f32) (p : Fin 128) (q : Fin 1024) :
    k0_pay1 (F := Ideal) x0 x1 (ix2 p q) = ∑ k : Fin 1024, x0 (ix2 p k) * x1 (ix2 k q) := by
  unfold k0_pay1
  rw [shapeCast_self]
  refine (Ideal.matmul_constant_zero_apply dot_S128x1024_S1024x1024_S128x1024_1_0_0_1_n_n none _ _ (ix2 p q)).trans ?_
  rw [← Equiv.sum_comp (contrEquiv1 dot_S128x1024_S1024x1024_S128x1024_1_0_0_1_n_n 1024 rfl rfl).symm]
  refine Finset.sum_congr rfl fun k _ => ?_
  rw [mmLeft_at p q k, mmRight_at p q k, truncf_apply, truncf_apply]

/-- Row `p` of a 128 × 1024 array against column `q` of a 1024 × 4096 array. -/
def rowByCol (a : S128x1024.Idx → EReal) (w : S1024x4096.Idx → EReal) (p : Fin 128) (q : Fin 4096) : EReal :=
  ∑ k : Fin 1024, a (ix2 p k) * w (ix2 k q)

/-- The whole product of the two input arrays as the region found them, as one function of the output array's index. -/
def wholeProduct (V : Vals Ideal) (c : Dev nD) : S128x4096.Idx → EReal :=
  fun j => rowByCol (V c main_arg0) (V c main_v2) (j 0) (j 1)

/-- Column `q` of column block `t`, as a column of the 4096-column arrays. -/
def blockCol (t : Fin cfg0.N) (q : Fin 1024) : Fin 4096 :=
  ⟨1024 * t.val + q.val, by have ht : t.val < 4 := t.isLt; have hq := q.isLt; omega⟩

/-- Where each window's block sits at point `t`: the batch's block is the whole array; the projection's and the
    output's are both the `t`-th along the columns and the first along the rows. -/
theorem blockPlace : ∀ t : Fin cfg0.N,
    (win0_0.index t 0 = 0 ∧ win0_0.index t 1 = 0) ∧ (win0_1.index t 0 = 0 ∧ win0_1.index t 1 = t.val)
      ∧ (win0_2.index t 0 = 0 ∧ win0_2.index t 1 = t.val) :=
  (by decide +kernel : ∀ t : Fin grid0.N,
    (win0_0.index t 0 = 0 ∧ win0_0.index t 1 = 0) ∧ (win0_1.index t 0 = 0 ∧ win0_1.index t 1 = t.val)
      ∧ (win0_2.index t 0 = 0 ∧ win0_2.index t 1 = t.val))

/-- Entry `(p, q)` of the output's block at `t` is entry `(p, 1024·t + q)` of the output array. -/
theorem outBlock_emb (t : Fin cfg0.N) (p : Fin 128) (q : Fin 1024) :
    ((cfg0.win 2).blk t).view.emb (ix2 p q) = (ix2 p (blockCol t q) : S128x4096.Idx) := by
  funext a
  apply Fin.ext
  match a with
  | ⟨0, _⟩ =>
    show win0_2.index t 0 * 128 + 1 * p.val = p.val
    rw [(blockPlace t).2.2.1]; omega
  | ⟨1, _⟩ =>
    show win0_2.index t 1 * 1024 + 1 * q.val = 1024 * t.val + q.val
    rw [(blockPlace t).2.2.2]; omega

/-- The batch's block at any point is the whole batch: its entry `(p, k)` is the array's. -/
theorem batchBlock_apply (V : Vals Ideal) (c : Dev nD) (t : Fin cfg0.N) (p : Fin 128) (k : Fin 1024) :
    blk0 V c 0 t (ix2 p k) = (V c main_arg0 : S128x1024.Idx → EReal) (ix2 p k) := by
  show (V c main_arg0 : S128x1024.Idx → EReal) (((cfg0.win 0).blk t).view.emb (ix2 p k)) = _
  refine congrArg _ (funext fun a => Fin.ext ?_)
  match a with
  | ⟨0, _⟩ =>
    show win0_0.index t 0 * 128 + 1 * p.val = p.val
    rw [(blockPlace t).1.1]; omega
  | ⟨1, _⟩ =>
    show win0_0.index t 1 * 1024 + 1 * k.val = k.val
    rw [(blockPlace t).1.2]; omega

/-- Entry `(k, q)` of the projection's block at `t` is entry `(k, 1024·t + q)` of the projection. -/
theorem projBlock_apply (V : Vals Ideal) (c : Dev nD) (t : Fin cfg0.N) (k q : Fin 1024) :
    blk0 V c 1 t (ix2 k q) = (V c main_v2 : S1024x4096.Idx → EReal) (ix2 k (blockCol t q)) := by
  show (V c main_v2 : S1024x4096.Idx → EReal) (((cfg0.win 1).blk t).view.emb (ix2 k q)) = _
  refine congrArg _ (funext fun a => Fin.ext ?_)
  match a with
  | ⟨0, _⟩ =>
    show win0_1.index t 0 * 1024 + 1 * k.val = k.val
    rw [(blockPlace t).2.1.1]; omega
  | ⟨1, _⟩ =>
    show win0_1.index t 1 * 1024 + 1 * q.val = 1024 * t.val + q.val
    rw [(blockPlace t).2.1.2]; omega

/-- What point `t` writes back is column block `t` of the whole product. -/
theorem writtenBack_eq (V : Vals Ideal) (c : Dev nD) (t : Fin cfg0.N) :
    (mmDat (F := Ideal) V c).flushed 2 t = ((cfg0.win 2).blk t).view.read (Elt Ideal) (wholeProduct V c) := by
  show (mmDat (F := Ideal) V c).after 2 t = _
  rw [mmDat_after2]
  funext y
  obtain ⟨p, q, rfl⟩ : ∃ (p : Fin 128) (q : Fin 1024), y = ix2 p q := ⟨y 0, y 1, eq_ix2 y⟩
  refine (blockProduct_apply _ _ p q).trans ?_
  rw [View.read_apply]
  show _ = wholeProduct V c (((cfg0.win 2).blk t).view.emb (ix2 p q))
  rw [outBlock_emb]
  show _ = rowByCol (V c main_arg0) (V c main_v2) p (blockCol t q)
  unfold rowByCol
  exact Finset.sum_congr rfl fun k _ => by rw [batchBlock_apply V c t p k, projBlock_apply V c t k q]

/-- An index of the output array lies in the output's block at `t` when, on each axis, it is at or past the block's
    first coordinate and within the block's extent of it. -/
theorem mem_outBlock (t : Fin cfg0.N) (i : S128x4096.Idx) :
    i ∈ ((cfg0.win 2).blk t).view.set
      ↔ ∀ a, win0_2.index t a * S128x1024.size a ≤ i a ∧ (i a : Nat) < win0_2.index t a * S128x1024.size a + S128x1024.size a := by
  rw [View.set_slice_whole, Rect.mem_set_unit]

/-- The four column blocks tile the output: column `q` lies in block `q / 1024`, and every point writes its block back. -/
theorem outBlocks_cover (i : S128x4096.Idx) :
    ∃ t : Fin cfg0.N, (cfg0.win 2).flush t = true ∧ i ∈ ((cfg0.win 2).blk t).view.set := by
  obtain ⟨p, q, rfl⟩ : ∃ (p : Fin 128) (q : Fin 4096), i = ix2 p q := ⟨i 0, i 1, eq_ix2 i⟩
  have hp := p.isLt
  have hq := q.isLt
  refine ⟨⟨q.val / 1024, by show _ < 4; omega⟩, flush0_2 _, ?_⟩
  rw [mem_outBlock]
  intro a
  match a with
  | ⟨0, _⟩ =>
    show win0_2.index _ 0 * 128 ≤ p.val ∧ p.val < win0_2.index _ 0 * 128 + 128
    rw [(blockPlace _).2.2.1]; omega
  | ⟨1, _⟩ =>
    show win0_2.index _ 1 * 1024 ≤ q.val ∧ q.val < win0_2.index _ 1 * 1024 + 1024
    rw [(blockPlace _).2.2.2]
    show q.val / 1024 * 1024 ≤ q.val ∧ q.val < q.val / 1024 * 1024 + 1024
    omega

/-- After the first region's last point its output array holds, at row `p` and column `q`, row `p` of the first
    operand against column `q` of the second, the operands being the two input arrays as the region found them. -/
theorem mm_final (V : Vals Ideal) (c : Dev nD) (p : Fin 128) (q : Fin 4096) :
    ((mmDat (F := Ideal) V c).arrAt 2 cfg0.N : S128x4096.Idx → EReal) (ix2 p q)
      = rowByCol (V c main_arg0) (V c main_v2) p q := by
  have whole : (mmDat (F := Ideal) V c).arrAt 2 cfg0.N = wholeProduct V c :=
    (mmDat (F := Ideal) V c).arrAt_eq_of_cover 2 (wholeProduct V c) (fun t _ => writtenBack_eq V c t) outBlocks_cover
  exact congrFun whole (ix2 p q)

end Cert.KernelIdeal.Hand

end
-- ==== Proof.Spec.lean ====
/-
  The mathematics of the result, stated once over coordinates and importing no program.

  For a batch `x : 128 × 1024` and a projection `T : 1024 × 4096`, write `M b o i = Σ_k x[b,k] · T[k, 32·o + i]`
  (the product `x · T` with its 4096 columns read as 128 output features of 32 components each). The distance between
  two rows of the batch in output feature `o` is the L1 distance of their 32 components, the similarity is
  `exp (−distance)`, and the feature of row `b` is the sum of its similarities to all 128 rows, less one (the row's
  similarity to itself). The result array is `x` itself in columns `0 … 1023` and these 128 features in columns
  `1024 … 1151`. Extended reals throughout: a difference, a maximum with the negation (the absolute value), `Ideal.exp`.
-/
import Idealize.ShloMosaic.PureOps.Ideal
import Idealize.ShloMosaic.Lib.ValueIdx

noncomputable section

open scoped BigOperators

namespace Cert.Spec

open Idealize.ShloMosaic Idealize.ShloMosaic.ValueIdx

/-- The batch, the projection, the projected batch as the kernel lays it out (row, component, feature), the features,
    the result: arrays as functions of an index. -/
abbrev Batch : Type := (⟨2, ![128, 1024]⟩ : Shape).Idx → EReal
abbrev Weights : Type := (⟨2, ![1024, 4096]⟩ : Shape).Idx → EReal
abbrev Result : Type := (⟨2, ![128, 1152]⟩ : Shape).Idx → EReal

/-- Column `32·o + i` of the projection: component `i` of output feature `o`. -/
def col (o : Fin 128) (i : Fin 32) : Fin 4096 := ⟨32 * o.val + i.val, by have := o.isLt; have := i.isLt; omega⟩

/-- `M b o i`: row `b` of the batch against column `32·o + i` of the projection. -/
def proj (x : Batch) (T : Weights) (b : Fin 128) (o : Fin 128) (i : Fin 32) : EReal :=
  ∑ k : Fin 1024, x (ix2 b k) * T (ix2 k (col o i))

/-- The absolute value on the extended reals, as both programs compute it. -/
def absE (a : EReal) : EReal := max a (-a)

/-- The L1 distance of rows `b` and `b'` in output feature `o`. -/
def dist (M : Fin 128 → Fin 128 → Fin 32 → EReal) (b b' : Fin 128) (o : Fin 128) : EReal :=
  ∑ i : Fin 32, absE (M b o i - M b' o i)

/-- The similarity of two rows in an output feature. -/
def sim (M : Fin 128 → Fin 128 → Fin 32 → EReal) (b b' : Fin 128) (o : Fin 128) : EReal :=
  Ideal.exp (-(dist M b b' o))

/-- The word both programs subtract at the end: the pattern of `1.0`. -/
def one : EReal := Ideal.ofBits .f32 0x3F800000#32

/-- Feature `o` of row `b`: the similarities to every row, summed, less one. -/
def feat (M : Fin 128 → Fin 128 → Fin 32 → EReal) (b : Fin 128) (o : Fin 128) : EReal :=
  (∑ b' : Fin 128, sim M b b' o) - one

/-- The result at row `p`, column `q`: the batch's entry left of column 1024, the feature right of it. -/
def result (x : Batch) (T : Weights) (p : Fin 128) (q : Fin 1152) : EReal :=
  if h : q.val < 1024 then x (ix2 p ⟨q.val, h⟩)
  else feat (proj x T) p ⟨q.val - 1024, by have := q.isLt; omega⟩

/-- The result as an array. -/
def resultArr (x : Batch) (T : Weights) : Result := fun j => result x T (j 0) (j 1)

end Cert.Spec

end
-- ==== Proof.KI.L1Value.lean ====
/-
  What the second region leaves in its output array, at the ideal instance: the features of the specification, computed
  from the projected batch as the region found it (laid out row, component, feature). Row tile `r` accumulates over its
  four points the similarities of its 16 rows to the 32 rows of each column tile, from zero, and at its last point
  writes back the sum less one as rows `16·r … 16·r + 15`; the eight row tiles tile the 128 rows. Regrouping the sum over
  all 128 rows into four sums of 32 needs only that addition on the extended reals is commutative and associative.

  The argument in four steps. (1) One point's arithmetic at an entry: the two lane sums are finite sums over the
  summed axis, the two broadcasts pair row `r` of the first block with row `q` of the second, and zero less a distance is
  its negation, so the point adds `∑ q, exp (−∑ i, |x₀[r,i,o] − x₁[q,i,o]|)` to the accumulator's entry `(r, o)`.
  (2) The two blocks are the projected batch's rows `16·(n / 4) + r` and `32·(n % 4) + q` at position `n`. (3) By
  induction on the position, the accumulator after position `n` holds the similarities to the batch rows below
  `32·(n % 4 + 1)`: a row tile's first point starts from zero, every later one adds the next 32 rows. (4) At a row tile's
  last point those are all 128 rows, so what is written back is the block of one array of features, and the eight blocks
  written back cover that array.
-/
import proofs.«129731_j48043504173685_1_alg».proof.Proof.KI.L1Region
import proofs.«129731_j48043504173685_1_alg».proof.Proof.Spec
import Idealize.ShloMosaic.Lib.ValueIdx
import Idealize.ShloMosaic.Lib.ValueLayout
import Idealize.ShloMosaic.Lib.Pipeline.Value
import Idealize.ShloMosaic.PureOps.Ideal.Laws
set_option maxRecDepth 16384

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

namespace Similarity

/-! ## One point's arithmetic at an entry

The layout operations first, each read at an index given by its coordinates. -/

/-- A [16, 32, 128] array cast to [16, 1, 32, 128] reads, at (r, u, i, o), the operand at (r, i, o). -/
theorem cast_unitCol_at {α : Type} (x : S16x32x128.Idx → α) (h : S16x32x128.ShapeCasts S16x1x32x128)
    (r : Fin 16) (u : Fin 1) (i : Fin 32) (o : Fin 128) :
    shapeCast S16x1x32x128 x h (ix4 r u i o) = x (ix3 r i o) :=
  shapeCast_apply x h _ _ (by
    have hu : u.val = 0 := by omega
    rw [Shape.rowMajor_val_three, Shape.rowMajor_val_four]
    show (r.val * 32 + i.val) * 128 + o.val = ((r.val * 1 + u.val) * 32 + i.val) * 128 + o.val
    rw [hu]; omega)

/-- A [32, 32, 128] array cast to [1, 32, 32, 128] reads, at (u, q, i, o), the operand at (q, i, o). -/
theorem cast_unitRow_at {α : Type} (x : S32x32x128.Idx → α) (h : S32x32x128.ShapeCasts S1x32x32x128)
    (u : Fin 1) (q : Fin 32) (i : Fin 32) (o : Fin 128) :
    shapeCast S1x32x32x128 x h (ix4 u q i o) = x (ix3 q i o) :=
  shapeCast_abc_1abc_apply x h u q i o

/-- The 16 rows, each repeated along the new axis of 32: at (r, q, i, o) the operand at (r, 0, i, o). -/
theorem spread_rows_at {α : Type} (v : S16x1x32x128.Idx → α) (h : S16x1x32x128.Broadcasts S16x32x32x128)
    (r : Fin 16) (q : Fin 32) (i : Fin 32) (o : Fin 128) :
    broadcastTo S16x32x32x128 v h (ix4 r q i o) = v (ix4 r (0 : Fin 1) i o) := by
  refine broadcastTo_apply v h (ix4 r q i o) (ix4 r (0 : Fin 1) i o) fun ax => ?_
  match ax with
  | ⟨0, _⟩ => rfl
  | ⟨1, _⟩ => rfl
  | ⟨2, _⟩ => rfl
  | ⟨3, _⟩ => rfl

/-- The stack of 32 rows, repeated 16 times along the new leading axis: at (r, q, i, o) the operand at (0, q, i, o). -/
theorem spread_stack_at {α : Type} (v : S1x32x32x128.Idx → α) (h : S1x32x32x128.Broadcasts S16x32x32x128)
    (r : Fin 16) (q : Fin 32) (i : Fin 32) (o : Fin 128) :
    broadcastTo S16x32x32x128 v h (ix4 r q i o) = v (ix4 (0 : Fin 1) q i o) := by
  refine broadcastTo_apply v h (ix4 r q i o) (ix4 (0 : Fin 1) q i o) fun ax => ?_
  match ax with
  | ⟨0, _⟩ => rfl
  | ⟨1, _⟩ => rfl
  | ⟨2, _⟩ => rfl
  | ⟨3, _⟩ => rfl

/-- The reduced index (r, o) of the sum over the 32 rows, with row q put back, is (r, q, o). -/
theorem rowsum_index (h : S16x32x128.Reduces [1] S16x128) (r : Fin 16) (o : Fin 128) (q : Fin 32) :
    h.lift (ix2 r o) q = ix3 r q o := by
  funext c
  match c with
  | ⟨0, _⟩ => rfl
  | ⟨1, _⟩ => rfl
  | ⟨2, _⟩ => rfl

/-- The reduced index (r, q, o) of the sum over the 32 components, with component i put back, is (r, q, i, o). -/
theorem compsum_index (h : S16x32x32x128.Reduces [2] S16x32x128) (r : Fin 16) (q : Fin 32) (o : Fin 128) (i : Fin 32) :
    h.lift (ix3 r q o) i = ix4 r q i o := by
  funext c
  match c with
  | ⟨0, _⟩ => rfl
  | ⟨1, _⟩ => rfl
  | ⟨2, _⟩ => rfl
  | ⟨3, _⟩ => rfl

/-- THE POINT'S UPDATE AT AN ENTRY. To the accumulator's entry (r, o) the point adds, over the 32 rows q of the second
    block, the exponential of minus the L1 distance, over the 32 components, of row r of the first block and row q of the
    second in feature o: the sum over the components inside, zero less it, the exponential, the sum over the rows outside. -/
theorem pay2_at (x0 : Vec Ideal S16x32x128 .f32) (x1 : Vec Ideal S32x32x128 .f32) (s : Vec Ideal S16x128 .f32)
    (r : Fin 16) (o : Fin 128) :
    k1_pay2 x0 x1 s (ix2 r o)
      = s (ix2 r o) + ∑ q : Fin 32, Ideal.exp (-(∑ i : Fin 32, Cert.Spec.absE (x0 (ix3 r i o) - x1 (ix3 q i o)))) := by
  unfold k1_pay2
  refine (congrFun (shapeCast_self _ _) _).trans ?_
  show s (ix2 r o) + _ = _
  refine congrArg (s (ix2 r o) + ·) ?_
  refine (Ideal.multiReduction_add_single _ _ _ _ _ (ix2 r o)).trans ?_
  show ∑ q : Fin 32, _ = _
  refine Finset.sum_congr rfl fun q _ => ?_
  refine (congrArg _ (rowsum_index _ r o q)).trans ?_
  refine congrArg Ideal.exp ?_
  refine (congrArg₂ (· - ·) Ideal.ofBits_zero_f32 ?_).trans (zero_sub _)
  refine (Ideal.multiReduction_add_single _ _ _ _ _ (ix3 r q o)).trans ?_
  show ∑ i : Fin 32, _ = _
  refine Finset.sum_congr rfl fun i _ => ?_
  refine (congrArg _ (compsum_index _ r q o i)).trans ?_
  show Cert.Spec.absE (_ - _) = _
  refine congrArg Cert.Spec.absE (congrArg₂ (· - ·) ?_ ?_)
  · exact (spread_rows_at _ _ r q i o).trans ((cast_unitCol_at _ _ r 0 i o).trans (congrFun (shapeCast_self _ _) _))
  · exact (spread_stack_at _ _ r q i o).trans ((cast_unitRow_at _ _ 0 q i o).trans (congrFun (shapeCast_self _ _) _))

/-- What a row tile's first point resets the accumulator to: zero at every entry. -/
theorem pay1_at (r : Fin 16) (o : Fin 128) : (k1_pay1 (F := Ideal)) (ix2 r o) = 0 := by
  unfold k1_pay1
  refine (congrFun (shapeCast_self _ _) _).trans ?_
  exact Ideal.ofBits_zero_f32

/-- What a row tile's last point stores: the accumulator's entry less the word of `1.0`. -/
theorem pay3_at (s : Vec Ideal S16x128 .f32) (r : Fin 16) (o : Fin 128) :
    k1_pay3 s (ix2 r o) = s (ix2 r o) - Cert.Spec.one := rfl

/-! ## The two blocks are rows of the projected batch -/

/-- The block index maps of the three windows at every point: the row tile on axis 0 of the first input and of the output,
    the column tile on axis 0 of the second input, zero elsewhere. -/
theorem tile_indices : ∀ t : Fin cfg1.N,
    win1_0.index t (0 : Fin 3) = t.val / 4 ∧ win1_0.index t (1 : Fin 3) = 0 ∧ win1_0.index t (2 : Fin 3) = 0
    ∧ win1_1.index t (0 : Fin 3) = t.val % 4 ∧ win1_1.index t (1 : Fin 3) = 0 ∧ win1_1.index t (2 : Fin 3) = 0
    ∧ win1_2.index t (0 : Fin 2) = t.val / 4 ∧ win1_2.index t (1 : Fin 2) = 0 :=
  (by decide +kernel : ∀ t : Fin grid1.N, _)

/-- The projected batch as the region finds it, laid out (row, component, feature). -/
abbrev projBatch (V : Vals Ideal) (c : Dev nD) : Vec Ideal S128x32x128 .f32 := V c main_v4
/-- The first input's block at point t: 16 rows of the projected batch. -/
abbrev rowBlock (V : Vals Ideal) (c : Dev nD) (t : Fin cfg1.N) : Vec Ideal S16x32x128 .f32 := blk1 V c 0 t
/-- The second input's block at point t: 32 rows of the projected batch. -/
abbrev colBlock (V : Vals Ideal) (c : Dev nD) (t : Fin cfg1.N) : Vec Ideal S32x32x128 .f32 := blk1 V c 1 t

/-- The projected batch by (row, feature, component), as the specification takes it. -/
abbrev projM (V : Vals Ideal) (c : Dev nD) : Fin 128 → Fin 128 → Fin 32 → EReal :=
  fun b' o' i => projBatch V c (ix3 b' i o')

/-- The batch row that is row r of the row tile at position n: row tile n / 4. -/
def tileRow (n : ℕ) (hn : n < 32) (r : Fin 16) : Fin 128 := ⟨16 * (n / 4) + r.val, by have := r.isLt; omega⟩
/-- The batch row that is row q of the column tile at position n: column tile n % 4. -/
def tileCol (n : ℕ) (hn : n < 32) (q : Fin 32) : Fin 128 := ⟨32 * (n % 4) + q.val, by have := q.isLt; omega⟩

/-- The grid has 32 points. -/
theorem pt_lt (t : Fin cfg1.N) : t.val < 32 := lt_of_lt_of_eq t.isLt N_1

/-- Row r of the first block at point t is batch row 16·(t / 4) + r. -/
theorem rowBlock_at (V : Vals Ideal) (c : Dev nD) (t : Fin cfg1.N) (r : Fin 16) (i : Fin 32) (o : Fin 128) :
    rowBlock V c t (ix3 r i o) = projBatch V c (ix3 (tileRow t.val (pt_lt t) r) i o) := by
  obtain ⟨e0, e1, e2, -⟩ := tile_indices t
  show V c main_v4 (((cfg1.win 0).blk t).view.emb (ix3 r i o)) = V c main_v4 (ix3 (tileRow t.val (pt_lt t) r) i o)
  refine congrArg _ (funext fun a => Fin.ext ?_)
  match a with
  | ⟨0, _⟩ => show win1_0.index t (0 : Fin 3) * 16 + 1 * r.val = 16 * (t.val / 4) + r.val; omega
  | ⟨1, _⟩ => show win1_0.index t (1 : Fin 3) * 32 + 1 * i.val = i.val; omega
  | ⟨2, _⟩ => show win1_0.index t (2 : Fin 3) * 128 + 1 * o.val = o.val; omega

/-- Row q of the second block at point t is batch row 32·(t % 4) + q. -/
theorem colBlock_at (V : Vals Ideal) (c : Dev nD) (t : Fin cfg1.N) (q : Fin 32) (i : Fin 32) (o : Fin 128) :
    colBlock V c t (ix3 q i o) = projBatch V c (ix3 (tileCol t.val (pt_lt t) q) i o) := by
  obtain ⟨-, -, -, e0, e1, e2, -⟩ := tile_indices t
  show V c main_v4 (((cfg1.win 1).blk t).view.emb (ix3 q i o)) = V c main_v4 (ix3 (tileCol t.val (pt_lt t) q) i o)
  refine congrArg _ (funext fun a => Fin.ext ?_)
  match a with
  | ⟨0, _⟩ => show win1_1.index t (0 : Fin 3) * 32 + 1 * q.val = 32 * (t.val % 4) + q.val; omega
  | ⟨1, _⟩ => show win1_1.index t (1 : Fin 3) * 32 + 1 * i.val = i.val; omega
  | ⟨2, _⟩ => show win1_1.index t (2 : Fin 3) * 128 + 1 * o.val = o.val; omega

/-- One point of the grid adds to the accumulator, at (r, o), the similarities in feature o of the row tile's row r to the
    32 rows of the column tile. -/
theorem step_at (V : Vals Ideal) (c : Dev nD) (t : Fin cfg1.N) (s : Vec Ideal S16x128 .f32) (r : Fin 16) (o : Fin 128) :
    k1_pay2 (rowBlock V c t) (colBlock V c t) s (ix2 r o)
      = s (ix2 r o) + ∑ q : Fin 32,
          Cert.Spec.sim (projM V c) (tileRow t.val (pt_lt t) r) (tileCol t.val (pt_lt t) q) o := by
  refine (pay2_at (rowBlock V c t) (colBlock V c t) s r o).trans ?_
  refine congrArg (s (ix2 r o) + ·) (Finset.sum_congr rfl fun q _ => ?_)
  unfold Cert.Spec.sim Cert.Spec.dist
  refine congrArg Ideal.exp (congrArg Neg.neg (Finset.sum_congr rfl fun i _ => ?_))
  exact congrArg Cert.Spec.absE (congrArg₂ (· - ·) (rowBlock_at V c t r i o) (colBlock_at V c t q i o))

/-! ## The accumulator along a row tile

The batch rows met after column tile `J` are those below `32·(J + 1)`; a sum over them splits off the last 32. In any
additive commutative monoid: nothing about the extended reals but that. -/

/-- No batch row lies below row 0. -/
theorem sum_below_zero {A : Type*} [AddCommMonoid A] (f : Fin 128 → A) :
    ∑ b ∈ Finset.univ.filter (fun b : Fin 128 => b.val < 32 * 0), f b = 0 :=
  (Finset.sum_congr (Finset.filter_false_of_mem fun b _ => by omega) fun _ _ => rfl).trans Finset.sum_empty

/-- The batch rows below 32·(J+1) are those below 32·J and the 32 rows of column tile J. -/
theorem sum_below_succ {A : Type*} [AddCommMonoid A] (f : Fin 128 → A) (J : ℕ) (hJ : J < 4) :
    ∑ b ∈ Finset.univ.filter (fun b : Fin 128 => b.val < 32 * (J + 1)), f b
      = (∑ b ∈ Finset.univ.filter (fun b : Fin 128 => b.val < 32 * J), f b)
        + ∑ q : Fin 32, f ⟨32 * J + q.val, by have := q.isLt; omega⟩ := by
  have hsplit : Finset.univ.filter (fun b : Fin 128 => b.val < 32 * (J + 1))
      = Finset.univ.filter (fun b : Fin 128 => b.val < 32 * J)
        ∪ Finset.univ.image (fun q : Fin 32 => (⟨32 * J + q.val, by have := q.isLt; omega⟩ : Fin 128)) := by
    ext b
    simp only [Finset.mem_filter, Finset.mem_univ, true_and, Finset.mem_union, Finset.mem_image]
    constructor
    · intro h
      by_cases h' : b.val < 32 * J
      · exact Or.inl h'
      · exact Or.inr ⟨⟨b.val - 32 * J, by omega⟩, Fin.ext (by show 32 * J + (b.val - 32 * J) = b.val; omega)⟩
    · rintro (h | ⟨q, rfl⟩)
      · omega
      · have := q.isLt; show 32 * J + q.val < 32 * (J + 1); omega
  rw [hsplit, Finset.sum_union, Finset.sum_image]
  · intro q _ q' _ e
    have : 32 * J + q.val = 32 * J + q'.val := congrArg Fin.val e
    exact Fin.ext (by omega)
  · rw [Finset.disjoint_left]
    intro b hb hb'
    simp only [Finset.mem_filter, Finset.mem_univ, true_and] at hb
    obtain ⟨q, -, rfl⟩ := Finset.mem_image.1 hb'
    have : 32 * J + q.val < 32 * J := hb
    omega

/-- THE ACCUMULATOR ALONG A ROW TILE. After the point at position n (row tile n / 4, column tile n % 4) the accumulator
    holds, at (r, o), the similarities in feature o of the row tile's row r to the batch rows below 32·(n % 4 + 1): the
    column tiles met so far. A row tile's first point adds its 32 rows to zero; every other point adds its 32 rows to
    what the point before left, which belongs to the same row tile. -/
theorem acc_at (V : Vals Ideal) (c : Dev nD) : ∀ (n : ℕ) (hn : n < cfg1.N) (r : Fin 16) (o : Fin 128),
    accAt V c n hn (ix2 r o)
      = ∑ b' ∈ Finset.univ.filter (fun b' : Fin 128 => b'.val < 32 * (n % 4 + 1)),
          Cert.Spec.sim (projM V c) (tileRow n (lt_of_lt_of_eq hn N_1) r) b' o := by
  intro n
  induction n with
  | zero =>
    intro hn r o
    refine (congrFun (accAt_reset V c ⟨0, hn⟩ rfl) (ix2 r o)).trans ?_
    refine (step_at V c ⟨0, hn⟩ (k1_pay1 (F := Ideal)) r o).trans ?_
    refine Eq.trans ?_ (sum_below_succ _ 0 (by omega)).symm
    exact congrArg₂ (· + ·) ((pay1_at r o).trans (sum_below_zero _).symm) rfl
  | succ n ih =>
    intro hn r o
    have hn32 : n + 1 < 32 := lt_of_lt_of_eq hn N_1
    by_cases h : (n + 1) % 4 = 0
    · refine (congrFun (accAt_reset V c ⟨n + 1, hn⟩ h) (ix2 r o)).trans ?_
      refine (step_at V c ⟨n + 1, hn⟩ (k1_pay1 (F := Ideal)) r o).trans ?_
      rw [h]
      refine Eq.trans ?_ (sum_below_succ _ 0 (by omega)).symm
      refine congrArg₂ (· + ·) ((pay1_at r o).trans (sum_below_zero _).symm) ?_
      refine Finset.sum_congr rfl fun q _ => congrArg (fun b' => Cert.Spec.sim (projM V c) _ b' o) (Fin.ext ?_)
      show 32 * ((n + 1) % 4) + q.val = 32 * 0 + q.val
      rw [h]
    · refine (congrFun (accAt_step V c ⟨n + 1, hn⟩ h) (ix2 r o)).trans ?_
      refine (step_at V c ⟨n + 1, hn⟩ _ r o).trans ?_
      have e : (n + 1) % 4 = n % 4 + 1 := by omega
      have hrow : tileRow n (by omega) r = tileRow (n + 1) hn32 r :=
        Fin.ext (by show 16 * (n / 4) + r.val = 16 * ((n + 1) / 4) + r.val; omega)
      rw [e]
      refine Eq.trans ?_ (sum_below_succ _ (n % 4 + 1) (by omega)).symm
      refine congrArg₂ (· + ·) ?_ ?_
      · refine (ih (Nat.lt_of_succ_lt hn) r o).trans ?_
        rw [hrow]
      · refine Finset.sum_congr rfl fun q _ => congrArg (fun b' => Cert.Spec.sim (projM V c) _ b' o) (Fin.ext ?_)
        show 32 * ((n + 1) % 4) + q.val = 32 * (n % 4 + 1) + q.val
        rw [e]

/-! ## From the eight blocks written back to the array -/

/-- What the output array ends holding: at (row, feature) the specification's feature of the projected batch. -/
abbrev featArr (V : Vals Ideal) (c : Dev nD) : Vec Ideal S128x128 .f32 :=
  fun j => Cert.Spec.feat (projM V c) (j 0) (j 1)

/-- Where the element (r, o) of the output's block at point t sits in the output array: row r of the row tile, feature o. -/
theorem outBlock_emb (t : Fin cfg1.N) (r : Fin 16) (o : Fin 128) :
    ((cfg1.win 2).blk t).view.emb (ix2 r o) = ix2 (tileRow t.val (pt_lt t) r) o := by
  obtain ⟨-, -, -, -, -, -, e0, e1⟩ := tile_indices t
  refine funext fun a => Fin.ext ?_
  match a with
  | ⟨0, _⟩ => show win1_2.index t (0 : Fin 2) * 16 + 1 * r.val = 16 * (t.val / 4) + r.val; omega
  | ⟨1, _⟩ => show win1_2.index t (1 : Fin 2) * 128 + 1 * o.val = o.val; omega

/-- WHAT A ROW TILE'S LAST POINT WRITES BACK is its block of the feature array: the accumulator then holds the similarities
    to all 128 batch rows, and the body stores it less one. -/
theorem flushed_eq (V : Vals Ideal) (c : Dev nD) (t : Fin cfg1.N) (hf : (cfg1.win 2).flush t = true) :
    (l1Dat (F := Ideal) V c).flushed 2 t = ((cfg1.win 2).blk t).view.read (Elt Ideal) (featArr V c) := by
  have h3 : t.val % 4 = 3 := (flush1_2 t).1 hf
  show (cfg1.win 2).cut (grid1.coords t) ((l1Dat (F := Ideal) V c).after 2 t) = _
  rw [l1Dat_after2]
  funext y
  obtain ⟨r, o, rfl⟩ : ∃ (r : Fin 16) (o : Fin 128), y = ix2 r o := ⟨y 0, y 1, eq_ix2 y⟩
  show k1_pay3 (accAt V c t.val t.isLt) (ix2 r o) = featArr V c (((cfg1.win 2).blk t).view.emb (ix2 r o))
  rw [outBlock_emb t r o]
  refine (pay3_at _ r o).trans ?_
  show _ - Cert.Spec.one = (∑ b' : Fin 128, Cert.Spec.sim (projM V c) (tileRow t.val (pt_lt t) r) b' o) - Cert.Spec.one
  refine congrArg (· - Cert.Spec.one) ?_
  refine (acc_at V c t.val t.isLt r o).trans ?_
  rw [h3]
  exact Finset.sum_congr (Finset.filter_true_of_mem fun b' _ => by have := b'.isLt; omega) fun _ _ => rfl

/-- An index of the output array is in point t's block iff each coordinate is in the block's range on its axis. -/
theorem mem_outBlock (t : Fin cfg1.N) (j : S128x128.Idx) :
    j ∈ ((cfg1.win 2).blk t).view.set
      ↔ ∀ a : Fin 2, win1_2.index t a * S16x128.size a ≤ (j a).val
          ∧ (j a).val < win1_2.index t a * S16x128.size a + S16x128.size a := by
  show j ∈ ((View.whole main_v5).slice (win1_2.rect t)).set ↔ _
  rw [View.set_slice_whole, Rect.mem_set_unit]
  exact Iff.rfl

/-- THE EIGHT WRITE-BACKS COVER THE ARRAY: row p lies in row tile p / 16, whose last point is 4·(p / 16) + 3. -/
theorem rows_covered (j : S128x128.Idx) :
    ∃ t : Fin cfg1.N, (cfg1.win 2).flush t = true ∧ j ∈ ((cfg1.win 2).blk t).view.set := by
  have hp : (j 0).val < 128 := (j 0).isLt
  have ho : (j 1).val < 128 := (j 1).isLt
  have hN : grid1.N = 32 := N_1
  let t : Fin cfg1.N := ⟨4 * ((j 0).val / 16) + 3, by show _ < grid1.N; omega⟩
  have htv : t.val = 4 * ((j 0).val / 16) + 3 := rfl
  obtain ⟨-, -, -, -, -, -, e0, e1⟩ := tile_indices t
  refine ⟨t, (flush1_2 t).2 (by omega), ?_⟩
  rw [mem_outBlock]
  intro a
  match a with
  | ⟨0, _⟩ =>
    show win1_2.index t (0 : Fin 2) * 16 ≤ (j 0).val ∧ (j 0).val < win1_2.index t (0 : Fin 2) * 16 + 16
    omega
  | ⟨1, _⟩ =>
    show win1_2.index t (1 : Fin 2) * 128 ≤ (j 1).val ∧ (j 1).val < win1_2.index t (1 : Fin 2) * 128 + 128
    omega

end Similarity

open Similarity in
/-- After the second region's last point its output array holds, at row `b` and feature `o`, the specification's
    feature of the projected batch `M b o i` := the region's input array at (row `b`, component `i`, feature `o`). -/
theorem l1_final (V : Vals Ideal) (c : Dev nD) (b : Fin 128) (o : Fin 128) :
    ((l1Dat (F := Ideal) V c).arrAt 2 cfg1.N : S128x128.Idx → EReal) (ix2 b o)
      = Cert.Spec.feat (fun b' o' i => (V c main_v4 : S128x32x128.Idx → EReal) (ix3 b' i o')) b o := by
  have h := (l1Dat (F := Ideal) V c).arrAt_eq_of_cover 2 (featArr V c) (fun t hf => flushed_eq V c t hf) rows_covered
  exact congrFun h (ix2 b o)

end Cert.KernelIdeal.Hand

end
-- ==== Proof.KI.KernelValue.lean ====
/-
  The kernel program's result, at the ideal instance, is the specification's.

  The second region's features are the specification's features of ITS input, the projected batch laid out (row,
  component, feature). That input is the first region's product read through a reshape: entry (b, i, o) is the
  product's entry (b, 128·i + o). The product's entry (p, q) is row p of the batch against column q of the permuted
  projection, and the permutation (a reshape, a transposition of the last two axes, a reshape) puts at column
  128·i + o what the projection has at column 32·o + i. So the second region's input at (b, i, o) is row b of the
  batch against column 32·o + i of the projection: the specification's `proj`. The result array is the batch and those
  features side by side.
-/
import proofs.«129731_j48043504173685_1_alg».proof.Proof.KI.Launch
import proofs.«129731_j48043504173685_1_alg».proof.Proof.KI.MatmulValue
import proofs.«129731_j48043504173685_1_alg».proof.Proof.KI.L1Value
import proofs.«129731_j48043504173685_1_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

open scoped BigOperators

namespace Cert.KernelIdeal.Hand

open Idealize.ShloMosaic Idealize.ShloMosaic.TcCoe Idealize.ShloMosaic.ValueIdx Idealize.SL.Sem
open Cert.KernelIdeal Cert.KernelIdeal.Gen

/-! ## The layout steps, over arbitrary arrays -/

/-- Column `128·i + o` of a 4096-column array: where the product keeps component `i` of feature `o`. -/
def componentColumn (i : Fin 32) (o : Fin 128) : Fin 4096 := ⟨128 * i.val + o.val, by have := i.isLt; have := o.isLt; omega⟩

/-- A 128 × 4096 array read as 128 × 32 × 128: entry (b, i, o) is entry (b, 128·i + o). -/
theorem components_read (y : S128x4096.Idx → EReal) (b : Fin 128) (i : Fin 32) (o : Fin 128) :
    shapeCast S128x32x128 y shapeCasts_S128x4096_S128x32x128 (ix3 b i o) = y (ix2 b (componentColumn i o)) := by
  refine shapeCast_apply y shapeCasts_S128x4096_S128x32x128 (ix3 b i o) (ix2 b (componentColumn i o)) ?_
  rewrite [Shape.rowMajor_val_two, Shape.rowMajor_val_three]
  show b.val * 4096 + (128 * i.val + o.val) = (b.val * 32 + i.val) * 128 + o.val
  omega

/-- The column permutation the host applies to the projection (1024 × 4096 read as 1024 × 128 × 32, the last two axes
    exchanged, read back as 1024 × 4096): column `128·i + o` of the outcome is column `32·o + i` of the projection. -/
theorem permuted_column (T : S1024x4096.Idx → EReal) (k : Fin 1024) (i : Fin 32) (o : Fin 128) :
    shapeCast S1024x4096
        (transpose S1024x32x128 [0, 2, 1] (shapeCast S1024x128x32 T shapeCasts_S1024x4096_S1024x128x32)
          transposes_S1024x128x32_S1024x32x128_0_2_1)
        shapeCasts_S1024x32x128_S1024x4096 (ix2 k (componentColumn i o))
      = T (ix2 k (Cert.Spec.col o i)) := by
  -- the outer reshape: position (k, 128·i + o) of 1024 × 4096 is position (k, i, o) of 1024 × 32 × 128
  refine (shapeCast_apply _ shapeCasts_S1024x32x128_S1024x4096 (ix2 k (componentColumn i o)) (ix3 k i o) ?_).trans ?_
  · rewrite [Shape.rowMajor_val_two, Shape.rowMajor_val_three]
    show (k.val * 32 + i.val) * 128 + o.val = k.val * 4096 + (128 * i.val + o.val)
    omega
  -- the exchange of the last two axes: (k, i, o) comes from (k, o, i)
  refine (transpose_apply [0, 2, 1] _ transposes_S1024x128x32_S1024x32x128_0_2_1 (ix3 k i o) (ix3 k o i) ?_).trans ?_
  · intro a
    match a with
    | ⟨0, _⟩ => rfl
    | ⟨1, _⟩ => rfl
    | ⟨2, _⟩ => rfl
  -- the inner reshape: position (k, o, i) of 1024 × 128 × 32 is position (k, 32·o + i) of 1024 × 4096
  refine shapeCast_apply T shapeCasts_S1024x4096_S1024x128x32 (ix3 k o i) (ix2 k (Cert.Spec.col o i)) ?_
  rewrite [Shape.rowMajor_val_two, Shape.rowMajor_val_three]
  show k.val * 4096 + (32 * o.val + i.val) = (k.val * 128 + o.val) * 32 + i.val
  omega

/-! ## The three host stretches, as functions of the contents they start from -/

/-- The first stretch leaves in the first region's right operand the projection it found, its columns permuted. -/
theorem after_permutation (W : Valuation τ sig (Elt Ideal)) :
    (StableHlo.after hostOps0 W (Proc.devRef .tc main_v2) : S1024x4096.Idx → EReal)
      = shapeCast S1024x4096
          (transpose S1024x32x128 [0, 2, 1]
            (shapeCast S1024x128x32 (W (Proc.devRef .tc main_arg1) : S1024x4096.Idx → EReal) shapeCasts_S1024x4096_S1024x128x32)
            transposes_S1024x128x32_S1024x32x128_0_2_1)
          shapeCasts_S1024x32x128_S1024x4096 := by
  after_results
  rfl

/-- The second stretch leaves in the second region's input the product it found, read as (row, component, feature). -/
theorem after_reshape (W : Valuation τ sig (Elt Ideal)) :
    (StableHlo.after hostOps1 W (Proc.devRef .tc main_v4) : S128x32x128.Idx → EReal)
      = shapeCast S128x32x128 (W (Proc.devRef .tc main_v3) : S128x4096.Idx → EReal) shapeCasts_S128x4096_S128x32x128 := by
  after_results
  rfl

/-- The third stretch leaves in the result array the batch and the features it found, side by side. -/
theorem after_concatenation (W : Valuation τ sig (Elt Ideal)) :
    StableHlo.after hostOps2 W (Proc.devRef .tc main_v6)
      = concatenate S128x1152 1 [⟨S128x1024, W (Proc.devRef .tc main_arg0)⟩, ⟨S128x128, W (Proc.devRef .tc main_v5)⟩]
          concatenates_S128x1024_S128x128_S128x1152_d1 := by
  after_results

variable (m : (ℓ : Loc nD τ sig) → Buf (Elt Ideal) ℓ)

/-! ## What the regions find -/

/-- The first region's left operand is the launch's batch: the first stretch does not write it. -/
theorem left_operand (c : Dev nD) :
    (found0 m c main_arg0 : S128x1024.Idx → EReal) = (m ((c.tc : Thread nD τ).loc main_arg0) : S128x1024.Idx → EReal) :=
  V1_of m c main_arg0 (by decide)

/-- The first region's right operand at column `128·i + o` is the launch's projection at column `32·o + i`. -/
theorem right_operand (c : Dev nD) (k : Fin 1024) (i : Fin 32) (o : Fin 128) :
    (found0 m c main_v2 : S1024x4096.Idx → EReal) (ix2 k (componentColumn i o))
      = (m ((c.tc : Thread nD τ).loc main_arg1) : S1024x4096.Idx → EReal) (ix2 k (Cert.Spec.col o i)) := by
  show (StableHlo.after hostOps0 (V0 m c) (Proc.devRef .tc main_v2) : S1024x4096.Idx → EReal) _ = _
  rw [after_permutation]
  exact permuted_column _ k i o

/-- The second region's input at (b, i, o) is the first region's product at (b, 128·i + o). -/
theorem second_input (c : Dev nD) (b : Fin 128) (i : Fin 32) (o : Fin 128) :
    (found1 m c main_v4 : S128x32x128.Idx → EReal) (ix3 b i o)
      = (product m c : S128x4096.Idx → EReal) (ix2 b (componentColumn i o)) := by
  show (StableHlo.after hostOps1 (V2 m (leaves0 m) c) (Proc.devRef .tc main_v4) : S128x32x128.Idx → EReal) _ = _
  rw [after_reshape, components_read]
  show (Function.update (V1 m c) (Proc.devRef .tc main_v3) (leaves0 m 2 main_v3 c) (Proc.devRef .tc main_v3)
    : S128x4096.Idx → EReal) _ = _
  rw [Function.update_self, leaves0_product]

/-- The second region's input at (b, i, o) is row b of the batch against column 32·o + i of the projection. -/
theorem projected_entry (c : Dev nD) (b : Fin 128) (o : Fin 128) (i : Fin 32) :
    (found1 m c main_v4 : S128x32x128.Idx → EReal) (ix3 b i o)
      = Cert.Spec.proj (m ((c.tc : Thread nD τ).loc main_arg0)) (m ((c.tc : Thread nD τ).loc main_arg1)) b o i := by
  rw [second_input]
  show ((mmDat (F := Ideal) (found0 m) c).arrAt 2 cfg0.N : S128x4096.Idx → EReal) (ix2 b (componentColumn i o)) = _
  rw [mm_final (found0 m) c b (componentColumn i o)]
  unfold rowByCol Cert.Spec.proj
  show @Eq EReal _ _
  refine Finset.sum_congr rfl fun k _ => ?_
  exact congrArg₂ (· * ·) (congrFun (left_operand m c) (ix2 b k)) (right_operand m c k i o)

/-- The features the second region leaves are the specification's features of the launch's batch and projection. -/
theorem kernel_feat (c : Dev nD) (b : Fin 128) (o : Fin 128) :
    (V4 m (leaves m) c main_v5 : S128x128.Idx → EReal) (ix2 b o)
      = Cert.Spec.feat (Cert.Spec.proj (m ((c.tc : Thread nD τ).loc main_arg0)) (m ((c.tc : Thread nD τ).loc main_arg1))) b o := by
  show (Function.update (V3 m (leaves m) c) (Proc.devRef .tc main_v5) (leaves m 4 main_v5 c) (Proc.devRef .tc main_v5)
    : S128x128.Idx → EReal) (ix2 b o) = _
  rw [Function.update_self, leaves_features]
  show ((l1Dat (F := Ideal) (found1 m) c).arrAt 2 cfg1.N : S128x128.Idx → EReal) (ix2 b o) = _
  rw [l1_final (found1 m) c b o]
  show @Eq EReal _ _
  refine congrArg (fun M => Cert.Spec.feat M b o) ?_
  funext b' o' i
  exact projected_entry m c b' o' i

/-- The result array at the end of the run: the launch's batch and the second region's features, side by side. -/
theorem kernel_result (c : Dev nD) :
    V5 m (leaves m) c main_v6
      = concatenate S128x1152 1 [⟨S128x1024, m ((c.tc : Thread nD τ).loc main_arg0)⟩, ⟨S128x128, V4 m (leaves m) c main_v5⟩]
          concatenates_S128x1024_S128x128_S128x1152_d1 := by
  -- no item before the last stretch writes the batch
  have batch : V4 m (leaves m) c main_arg0 = m ((c.tc : Thread nD τ).loc main_arg0) :=
    (V4_of m (leaves m) c main_arg0 (by decide)).trans <| (V3_of m (leaves m) c main_arg0 (by decide)).trans <|
      (V2_of m (leaves m) c main_arg0 (by decide)).trans <| (V1_of m c main_arg0 (by decide)).trans rfl
  show StableHlo.after hostOps2 (V4 m (leaves m) c) (Proc.devRef .tc main_v6) = _
  rw [after_concatenation, batch]

end Cert.KernelIdeal.Hand

end
-- ==== Proof.RefRun.lean ====
/-
  The reference's run and its stages read at an index, brought into scope for the modules that compare the
  reference's result with the kernel's.
-/
import proofs.«129731_j48043504173685_1_alg».proof.Proof.Gen.ReferenceIdeal.Run
import proofs.«129731_j48043504173685_1_alg».proof.Proof.Gen.ReferenceIdeal.Read
-- ==== Proof.RefValue.lean ====
/-
  The reference's features are the specification's. The reference multiplies the batch by the projection, reads the
  4096 columns as 128 features of 32 components, takes for every pair of rows and every feature the sum over the
  components of the absolute difference, negates, exponentiates, sums over the second row of the pair and subtracts one.
  Read at an index, stage by stage, that is `Spec.feat (Spec.proj x T) b o`: the host's sums start from the zero word,
  which is `0`, and the host's negation is the extended reals'.
-/
import proofs.«129731_j48043504173685_1_alg».proof.Proof.RefRun
import proofs.«129731_j48043504173685_1_alg».proof.Proof.Spec
import Idealize.ShloMosaic.Lib.ValueIdx
import Idealize.ShloMosaic.Lib.Pipeline.Value
import Idealize.ShloMosaic.PureOps.Ideal.Laws
set_option maxRecDepth 16384

noncomputable section

open scoped BigOperators

namespace Cert.ReferenceIdeal.RefValue

open Idealize.ShloMosaic Idealize.ShloMosaic.TcCoe Idealize.ShloMosaic.ValueIdx
open Cert.ReferenceIdeal Cert.ReferenceIdeal.Gen Cert.ReferenceIdeal.Read

/-! ## Where each stage reads its operand, at coordinates

The reference's stages are arrays of rank two, three and four. At a row `b`, a second row `b'`, a feature `o` and a
component `i` the index each stage hands to the stage before it is again an index given by coordinates. -/

/-- Entry `(b, c)` of the product takes, at position `k` of the contraction, entry `(b, k)` of the batch … -/
theorem batch_coord (b : Fin 128) (c : Fin 4096) (k : Fin 1024) : lidx_main_v0 (ix2 b c) k = ix2 b k :=
  funext fun a => Fin.ext (by match a with | ⟨0, _⟩ => rfl | ⟨1, _⟩ => rfl)

/-- … and entry `(k, c)` of the projection. -/
theorem weight_coord (b : Fin 128) (c : Fin 4096) (k : Fin 1024) : ridx_main_v0 (ix2 b c) k = ix2 k c :=
  funext fun a => Fin.ext (by match a with | ⟨0, _⟩ => rfl | ⟨1, _⟩ => rfl)

/-- Component `i` of feature `o` in row `b` sits at flat position `(128·b + o)·32 + i = 4096·b + (32·o + i)` of the
    product: row `b`, column `32·o + i`. -/
theorem column_coord (b o : Fin 128) (i : Fin 32) : idx_main_v1 (ix3 b o i) = ix2 b (Cert.Spec.col o i) :=
  funext fun a => Fin.ext (by
    have hb := b.isLt; have ho := o.isLt; have hi := i.isLt
    match a with
    | ⟨0, _⟩ => show ((b.val * 128 + o.val) * 32 + i.val) / 4096 = b.val; omega
    | ⟨1, _⟩ => show ((b.val * 128 + o.val) * 32 + i.val) % 4096 = 32 * o.val + i.val; omega)

/-- In the array of pairs the minuend at `(b, b', o, i)` is the projected batch at the FIRST row, `(b, o, i)` … -/
theorem minuend_coord (b b' o : Fin 128) (i : Fin 32) : idx_main_v2 (idx_main_v4 (ix4 b b' o i)) = ix3 b o i :=
  funext fun a => Fin.ext (by match a with | ⟨0, _⟩ => rfl | ⟨1, _⟩ => rfl | ⟨2, _⟩ => rfl)

/-- … and the subtrahend is the projected batch at the SECOND row, `(b', o, i)`. -/
theorem subtrahend_coord (b b' o : Fin 128) (i : Fin 32) : idx_main_v3 (idx_main_v5 (ix4 b b' o i)) = ix3 b' o i :=
  funext fun a => Fin.ext (by match a with | ⟨0, _⟩ => rfl | ⟨1, _⟩ => rfl | ⟨2, _⟩ => rfl)

/-- The sum over the components of a pair `(b, b', o)` runs over the entries `(b, b', o, i)`. -/
theorem component_coord (b b' o : Fin 128) (i : Fin 32) : idx_main_v8 (ix3 b b' o) i = ix4 b b' o i :=
  funext fun a => Fin.ext (by match a with | ⟨0, _⟩ => rfl | ⟨1, _⟩ => rfl | ⟨2, _⟩ => rfl | ⟨3, _⟩ => rfl)

/-- The sum for row `b` and feature `o` runs over the second rows: the entries `(b, b', o)`. -/
theorem partner_coord (b o b' : Fin 128) : idx_main_v11 (ix2 b o) b' = ix3 b b' o :=
  funext fun a => Fin.ext (by match a with | ⟨0, _⟩ => rfl | ⟨1, _⟩ => rfl | ⟨2, _⟩ => rfl)

/-! ## The stages at coordinates -/

section Stages

variable (x : (⟨S128x1024, .f32⟩ : BufTy).Contents (Elt Ideal)) (T : (⟨S1024x4096, .f32⟩ : BufTy).Contents (Elt Ideal))

/-- The product at row `b`, column `c`: the batch's row against the projection's column. -/
theorem product_at (b : Fin 128) (c : Fin 4096) :
    val_main_v0 (F := Ideal) x T (ix2 b c) = ∑ k : Fin 1024, x (ix2 b k) * T (ix2 k c) := by
  rw [val_main_v0_apply]
  refine Finset.sum_congr rfl fun k _ => ?_
  rw [batch_coord, weight_coord]

/-- The product with its columns regrouped is the specification's projected batch. -/
theorem projected_at (b o : Fin 128) (i : Fin 32) :
    val_main_v1 (F := Ideal) x T (ix3 b o i) = Cert.Spec.proj x T b o i := by
  rw [val_main_v1_apply, column_coord, product_at]
  rfl

/-- The absolute difference of the two rows' components, as the specification writes it. -/
theorem gap_at (b b' o : Fin 128) (i : Fin 32) :
    val_main_v7 (F := Ideal) x T (ix4 b b' o i)
      = Cert.Spec.absE (Cert.Spec.proj x T b o i - Cert.Spec.proj x T b' o i) := by
  rw [val_main_v7_apply, val_main_v6_apply, val_main_v4_apply, val_main_v2_apply, val_main_v5_apply, val_main_v3_apply,
    minuend_coord, subtrahend_coord, projected_at, projected_at, Ideal.hostAbsf_def, Ideal.absf_def, Ideal.subf_def]
  rfl

/-- Summed over the components from the zero word: the L1 distance. -/
theorem distance_at (b b' o : Fin 128) :
    val_main_v8 (F := Ideal) x T (ix3 b b' o) = Cert.Spec.dist (Cert.Spec.proj x T) b b' o := by
  rw [val_main_v8_apply, val_main_cst_apply, Ideal.ofBits_def, Ideal.ofBits_zero_f32, zero_add]
  unfold Cert.Spec.dist
  refine Finset.sum_congr rfl fun i _ => ?_
  rw [component_coord, gap_at]

/-- Negated and exponentiated: the similarity. -/
theorem similarity_at (b b' o : Fin 128) :
    val_main_v10 (F := Ideal) x T (ix3 b b' o) = Cert.Spec.sim (Cert.Spec.proj x T) b b' o := by
  rw [val_main_v10_apply, val_main_v9_apply, distance_at, Ideal.hostNegf_def, Ideal.negf_def, Ideal.hostUnary_exp_def]
  rfl

end Stages

/-- The reference's feature array (the stage before its closing `concatenate`) at row `b`, feature `o`. -/
theorem ref_feat (x : (⟨S128x1024, .f32⟩ : BufTy).Contents (Elt Ideal)) (T : (⟨S1024x4096, .f32⟩ : BufTy).Contents (Elt Ideal))
    (b : Fin 128) (o : Fin 128) :
    val_main_v13 (F := Ideal) x T (ix2 b o) = Cert.Spec.feat (Cert.Spec.proj x T) b o := by
  rw [val_main_v13_apply, val_main_v11_apply, val_main_v12_apply, val_main_cst_0_apply, val_main_cst_1_apply,
    Ideal.subf_def, Ideal.ofBits_def, Ideal.ofBits_def, Ideal.ofBits_zero_f32, zero_add]
  unfold Cert.Spec.feat Cert.Spec.one
  refine congrArg (· - _) (Finset.sum_congr rfl fun b' _ => ?_)
  rw [partner_coord, similarity_at]

end Cert.ReferenceIdeal.RefValue

end
-- ==== Proof.lean ====
/-
  The two programs compute the same array, and both run to the end leaving their arguments alone.

  The kernel program permutes the projection's columns on the host, multiplies the batch by the permuted projection in
  a first kernel region (four column blocks, one matrix product each), reads the product as (row, component, feature),
  and in a second region accumulates, tile by tile, for every row of the batch and every output feature the sum over all
  rows of exp(−L1 distance of the two rows' 32 components), less one; it returns the batch and these features side by
  side. The reference multiplies the batch by the projection as it is, reads the product as (row, feature, component),
  and computes the same sums with whole-array operations. On the extended reals the two agree entry by entry: a change
  of float format is the identity, a product into a zero accumulator is the plain sum, and regrouping a sum of 128
  similarities into four sums of 32 uses only that addition is commutative and associative. So the finiteness of the
  inputs is never used.

  The frames: each kernel region's body is run symbolically at every grid point against proof data that names what it
  leaves (the product of the point's blocks; the accumulator carried through a row tile), the second region's two
  windows on one array each holding half of its share, and the five items of the program are chained from the launch
  to the return. The word-level program's frame is the same text read at the word-level instance.
-/
import proofs.«129731_j48043504173685_1_alg».proof.Defs
import proofs.«129731_j48043504173685_1_alg».proof.Proof.Gen.Kernel
import proofs.«129731_j48043504173685_1_alg».proof.Proof.Gen.KernelIdeal
import proofs.«129731_j48043504173685_1_alg».proof.Proof.Gen.ReferenceIdeal
import proofs.«129731_j48043504173685_1_alg».proof.Proof.Gen.Pre_finite_inputs
import proofs.«129731_j48043504173685_1_alg».proof.Proof.K.Launch
import proofs.«129731_j48043504173685_1_alg».proof.Proof.KI.Launch
import proofs.«129731_j48043504173685_1_alg».proof.Proof.KI.KernelValue
import proofs.«129731_j48043504173685_1_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel program runs to the end and leaves its arguments unchanged. -/
theorem frame_kernel : Cert.frame_Kernel := fun m ρ _ => Cert.Kernel.Hand.frame (F := Bits) m ρ

/-- So does its idealization. -/
theorem frame_kernelIdeal : Cert.frame_KernelIdeal := fun m ρ _ => Cert.KernelIdeal.Hand.frame (F := Ideal) m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The two feature arrays are one: at row `b`, feature `o` both are the specification's feature of the batch and the
    projection. -/
theorem features_agree (m : (ℓ : Loc Cert.KernelIdeal.nD Cert.KernelIdeal.τ Cert.KernelIdeal.sig) → Buf (Elt Ideal) ℓ)
    (c : Dev Cert.KernelIdeal.nD) :
    Cert.ReferenceIdeal.Read.val_main_v13 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = Cert.KernelIdeal.Gen.V4 m (Cert.KernelIdeal.Hand.leaves m) c Cert.KernelIdeal.main_v5 := by
  funext j
  obtain ⟨b, o, rfl⟩ : ∃ (b : Fin 128) (o : Fin 128), j = ix2 b o := ⟨j 0, j 1, eq_ix2 j⟩
  exact (Cert.ReferenceIdeal.RefValue.ref_feat _ _ b o).trans (Cert.KernelIdeal.Hand.kernel_feat m c b o).symm

/-- Run from memories agreeing on the arguments, both idealized programs end with the batch and the specification's
    features side by side: the kernel program by its run and the value of what its two regions leave, the reference by
    its run read stage by stage; the closing concatenation is the same operation on both sides and is never opened. -/
theorem algebraic : Cert.algebraic_KernelIdeal_ReferenceIdeal := by
  intro m ρ m' ρ' _ hagree
  refine ⟨fun c => Cert.KernelIdeal.Gen.V5 m (Cert.KernelIdeal.Hand.leaves m) c Cert.KernelIdeal.main_v6,
    Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v14_eq]
  beta_reduce
  rw [Cert.KernelIdeal.Hand.kernel_result m c, ← features_agree m c]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
